-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S600000x128 : Shape := ⟨2, ![600000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S257x128 : Shape := ⟨2, ![257, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S257x128 : S_.BroadcastsInDim S257x128 (![] : Fin 0 → Fin S257x128.rank)
  reducesTo_S257x128_S_d0_1 : S257x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part4 {F : FTy → Type} [FloatOps F] (main_v63 : IVec S_ 1) (main_v65 : IVec S2x600000 1) (main_v67 : IVec S2x600000 1) : IVec S_ 1 :=
  let main_v68 : IVec S2x600000 1 := andi main_v65 main_v67
  let main_c_26 : IVec S_ 1 := constantI S_ 1 1#1
  let main_v69 : IVec S_ 1 := (fun x v => Host.reduce IntOp.andi x v reducesTo_S2x600000_S_d0_1 h_S_) main_v68 main_c_26
  let main_v70 : IVec S_ 1 := andi main_v63 main_v69
  main_v70

def fn_part3 {F : FTy → Type} [FloatOps F] (main_arg1 : IVec S2x600000 32) (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x600000 32 := broadcastInDim S2x600000 ![] bcast_S_S2x600000 main_c_24
  let main_v65 : IVec S2x600000 1 := cmpi .sge main_arg1 main_v64
  let main_c_25 : IVec S_ 32 := constantI S_ 32 50000#32
  let main_v66 : IVec S2x600000 32 := broadcastInDim S2x600000 ![] bcast_S_S2x600000 main_c_25
  let main_v67 : IVec S2x600000 1 := cmpi .slt main_arg1 main_v66
  fn_part4 (F := F) main_v63 main_v65 main_v67

def fn_part2 {F : FTy → Type} [FloatOps F] (main_arg1 : IVec S2x600000 32) (main_arg8 : FVec F S257x128 .f32) (main_arg9 : FVec F S128 .f32) (main_arg10 : FVec F S257x128 .f32) (main_arg11 : FVec F S128 .f32) (main_arg12 : FVec F S128 .f32) (main_arg13 : FVec F S128 .f32) (main_v33 : IVec S_ 1) : IVec S_ 1 :=
  let main_v34 : FVec F S257x128 .f32 := Host.absf main_arg8
  let main_cst_12 : FVec F S_ .f32 := constant S_ .f32 0x7F800000#32
  let main_v35 : FVec F S257x128 .f32 := broadcastInDim S257x128 ![] bcast_S_S257x128 main_cst_12
  let main_v36 : IVec S257x128 1 := cmpf .olt main_v34 main_v35
  let main_c_13 : IVec S_ 1 := constantI S_ 1 1#1
  let main_v37 : IVec S_ 1 := (fun x v => Host.reduce IntOp.andi x v reducesTo_S257x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S257x128 .f32 := Host.absf main_arg10
  let main_cst_16 : FVec F S_ .f32 := constant S_ .f32 0x7F800000#32
  let main_v45 : FVec F S257x128 .f32 := broadcastInDim S257x128 ![] bcast_S_S257x128 main_cst_16
  let main_v46 : IVec S257x128 1 := cmpf .olt main_v44 main_v45
  let main_c_17 : IVec S_ 1 := constantI S_ 1 1#1
  let main_v47 : IVec S_ 1 := (fun x v => Host.reduce IntOp.andi x v reducesTo_S257x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_v48 main_v49 main_v50

def fn_part1 {F : FTy → Type} [FloatOps F] (main_arg1 : IVec S2x600000 32) (main_arg5 : FVec F S128 .f32) (main_arg6 : FVec F S128x1 .f32) (main_arg7 : FVec F S1 .f32) (main_arg8 : FVec F S257x128 .f32) (main_arg9 : FVec F S128 .f32) (main_arg10 : FVec F S257x128 .f32) (main_arg11 : FVec F S128 .f32) (main_arg12 : FVec F S128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x128 .f32) (main_arg1 : IVec S2x600000 32) (main_arg2 : FVec F S600000 .f32) (main_arg3 : FVec F S600000x128 .f32) (main_arg4 : FVec F S128x128 .f32) (main_arg5 : FVec F S128 .f32) (main_arg6 : FVec F S128x1 .f32) (main_arg7 : FVec F S1 .f32) (main_arg8 : FVec F S257x128 .f32) (main_arg9 : FVec F S128 .f32) (main_arg10 : FVec F S257x128 .f32) (main_arg11 : FVec F S128 .f32) (main_arg12 : FVec F S128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S600000x128 .f32 := Host.absf main_arg3
  let main_cst_2 : FVec F S_ .f32 := constant S_ .f32 0x7F800000#32
  let main_v10 : FVec F S600000x128 .f32 := broadcastInDim S600000x128 ![] bcast_S_S600000x128 main_cst_2
  let main_v11 : IVec S600000x128 1 := cmpf .olt main_v9 main_v10
  let main_c_3 : IVec S_ 1 := constantI S_ 1 1#1
  let main_v12 : IVec S_ 1 := (fun x v => Host.reduce IntOp.andi x v reducesTo_S600000x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S600000x128 : Shape := ⟨2, ![600000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S257x128 : Shape := ⟨2, ![257, 128]⟩
abbrev S1x600000 : Shape := ⟨2, ![1, 600000]⟩
abbrev S128x256 : Shape := ⟨2, ![128, 256]⟩
abbrev S1x128 : Shape := ⟨2, ![1, 128]⟩
abbrev S50000x256 : Shape := ⟨2, ![50000, 256]⟩
abbrev S2000x128 : Shape := ⟨2, ![2000, 128]⟩
abbrev S2000x256 : Shape := ⟨2, ![2000, 256]⟩
abbrev S_ : Shape := ⟨0, ![]⟩
abbrev S600000x1 : Shape := ⟨2, ![600000, 1]⟩
abbrev S1x1 : Shape := ⟨2, ![1, 1]⟩
abbrev S600000x256 : Shape := ⟨2, ![600000, 256]⟩
abbrev S2000 : Shape := ⟨1, ![2000]⟩
abbrev S2000x1 : Shape := ⟨2, ![2000, 1]⟩

abbrev nBuf : Space → Nat
  | .hbm => 110
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S600000x128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S257x128, .f32⟩
  | .hbm, ⟨9, _⟩ => ⟨S128, .f32⟩
  | .hbm, ⟨10, _⟩ => ⟨S257x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S128x128, .f32⟩
  | .hbm, ⟨19, _⟩ => ⟨S128x128, .f32⟩
  | .hbm, ⟨20, _⟩ => ⟨S128x256, .f32⟩
  | .hbm, ⟨21, _⟩ => ⟨S128x128, .f32⟩
  | .hbm, ⟨22, _⟩ => ⟨S128x128, .f32⟩
  | .hbm, ⟨23, _⟩ => ⟨S128x256, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S50000x128, .f32⟩
  | .hbm, ⟨28, _⟩ => ⟨S50000x256, .f32⟩
  | .hbm, ⟨29, _⟩ => ⟨S50000x256, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S1, .i32⟩
  | .hbm, ⟨39, _⟩ => ⟨S_, .i32⟩
  | .hbm, ⟨40, _⟩ => ⟨S600000x1, .i32⟩
  | .hbm, ⟨41, _⟩ => ⟨S600000x1, .i1⟩
  | .hbm, ⟨42, _⟩ => ⟨S1x1, .i32⟩
  | .hbm, ⟨43, _⟩ => ⟨S600000x1, .i32⟩
  | .hbm, ⟨44, _⟩ => ⟨S600000x1, .i1⟩
  | .hbm, ⟨45, _⟩ => ⟨S600000x1, .i1⟩
  | .hbm, ⟨46, _⟩ => ⟨S_, .i1⟩
  | .hbm, ⟨47, _⟩ => ⟨S600000, .i1⟩
  | .hbm, ⟨48, _⟩ => ⟨S600000x256, .f32⟩
  | .hbm, ⟨49, _⟩ => ⟨S600000x256, .i1⟩
  | .hbm, ⟨50, _⟩ => ⟨S_, .f32⟩
  | .hbm, ⟨51, _⟩ => ⟨S600000x256, .f32⟩
  | .hbm, ⟨52, _⟩ => ⟨S600000x256, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S1, .i32⟩
  | .hbm, ⟨62, _⟩ => ⟨S_, .i32⟩
  | .hbm, ⟨63, _⟩ => ⟨S600000x1, .i32⟩
  | .hbm, ⟨64, _⟩ => ⟨S600000x1, .i1⟩
  | .hbm, ⟨65, _⟩ => ⟨S1x1, .i32⟩
  | .hbm, ⟨66, _⟩ => ⟨S600000x1, .i32⟩
  | .hbm, ⟨67, _⟩ => ⟨S600000x1, .i1⟩
  | .hbm, ⟨68, _⟩ => ⟨S600000x1, .i1⟩
  | .hbm, ⟨69, _⟩ => ⟨S_, .i1⟩
  | .hbm, ⟨70, _⟩ => ⟨S600000, .i1⟩
  | .hbm, ⟨71, _⟩ => ⟨S600000x256, .f32⟩
  | .hbm, ⟨72, _⟩ => ⟨S600000x256, .i1⟩
  | .hbm, ⟨73, _⟩ => ⟨S_, .f32⟩
  | .hbm, ⟨74, _⟩ => ⟨S600000x256, .f32⟩
  | .hbm, ⟨75, _⟩ => ⟨S600000x256, .f32⟩
  | .hbm, ⟨76, _⟩ => ⟨S600000x128, .f32⟩
  | .hbm, ⟨77, _⟩ => ⟨S_, .f32⟩
  | .hbm, ⟨78, _⟩ => ⟨S50000x128, .f32⟩
  | .hbm, ⟨79, _⟩ => ⟨S600000x1, .i32⟩
  | .hbm, ⟨80, _⟩ => ⟨S50000x128, .f32⟩
  | .hbm, ⟨81, _⟩ => ⟨S_, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S_, .i32⟩
  | .hbm, ⟨87, _⟩ => ⟨S_, .f32⟩
  | .hbm, ⟨88, _⟩ => ⟨S128, .f32⟩
  | .hbm, ⟨89, _⟩ => ⟨S1x128, .f32⟩
  | .hbm, ⟨90, _⟩ => ⟨S_, .f32⟩
  | .hbm, ⟨91, _⟩ => ⟨S1x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S_, .f32⟩
  | .hbm, ⟨104, _⟩ => ⟨S_, .i1⟩
  | .hbm, ⟨105, _⟩ => ⟨S_, .f32⟩
  | .hbm, ⟨106, _⟩ => ⟨S_, .f32⟩
  | .hbm, ⟨107, _⟩ => ⟨S128, .f32⟩
  | .hbm, ⟨108, _⟩ => ⟨S128, .f32⟩
  | .hbm, ⟨109, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x256, .f32⟩
  | .local _ .vmem, ⟨5, _⟩ => ⟨S128x256, .f32⟩
  | .local _ .vmem, ⟨6, _⟩ => ⟨S2000x128, .f32⟩
  | .local _ .vmem, ⟨7, _⟩ => ⟨S2000x128, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S1x128, .f32⟩
  | .local _ .vmem, ⟨21, _⟩ => ⟨S1x128, .f32⟩
  | .local _ .vmem, ⟨22, _⟩ => ⟨S128, .f32⟩
  | .local _ .vmem, ⟨23, _⟩ => ⟨S128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128, .f32⟩
  | .local _ .vmem, ⟨31, _⟩ => ⟨S128, .f32⟩
  | .local _ .vmem, ⟨32, _⟩ => ⟨S128, .f32⟩
  | .local _ .vmem, ⟨33, _⟩ => ⟨S128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v14 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v15 : Ref sig .tc := ⟨.hbm, 75, rfl⟩
abbrev main_v16 : Ref sig .tc := ⟨.hbm, 76, rfl⟩
abbrev main_cst : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_cst_0 : Ref sig .tc := ⟨.hbm, 81, rfl⟩
abbrev main_v20 : Ref sig .tc := ⟨.hbm, 82, rfl⟩
abbrev main_cst_1 : Ref sig .tc := ⟨.hbm, 83, rfl⟩
abbrev main_v21 : Ref sig .tc := ⟨.hbm, 84, rfl⟩
abbrev main_v22 : Ref sig .tc := ⟨.hbm, 85, rfl⟩
abbrev main_c : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_cst_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_cst_1 : Ref sig .tc := ⟨.hbm, 97, rfl⟩
abbrev main_call2_v8 : Ref sig .tc := ⟨.hbm, 98, rfl⟩
abbrev main_call2_cst_2 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_cst_3 : Ref sig .tc := ⟨.hbm, 103, rfl⟩
abbrev main_call2_v12 : Ref sig .tc := ⟨.hbm, 104, rfl⟩
abbrev main_call2_cst_4 : Ref sig .tc := ⟨.hbm, 105, rfl⟩
abbrev main_call2_call0_v0 : Ref sig .tc := ⟨.hbm, 106, rfl⟩
abbrev main_call2_call0_v1 : Ref sig .tc := ⟨.hbm, 107, rfl⟩
abbrev main_v23 : Ref sig .tc := ⟨.hbm, 108, rfl⟩
abbrev main_v24 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem6_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![300], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S257x128_S128x128_0_0 : S257x128.Slices ![0, 0] S128x128
  concatenates_S128x128_S128x128_S128x256_d1 : Shape.Concatenates [S128x128, S128x128] S128x256 1
  slices_S257x128_S128x128_128_0 : S257x128.Slices ![128, 0] S128x128
  slices_S257x128_S1x128_256_0 : S257x128.Slices ![256, 0] S1x128
  transposes_S128x1_S1x128_1_0 : S128x1.Transposes [1, 0] S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x256_0 : S600000.BroadcastsInDim S600000x256 (![0] : Fin 1 → Fin S600000x256.rank)
  bcast_S_S600000x256 : S_.BroadcastsInDim S600000x256 (![] : Fin 0 → Fin S600000x256.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S2000x128_S2000 : S2000x128.Reduces [1] S2000
  shapeCasts_S2000_S2000x1 : S2000.ShapeCasts S2000x1
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  broadcasts_S2000x1_S2000x128 : S2000x1.Broadcasts S2000x128
  shapeCasts_S2000x256_S2000x256 : S2000x256.ShapeCasts S2000x256
  slices_S2000x256_o0_0_S2000x128 : S2000x256.Slices ![0, 0] S2000x128
  slices_S2000x256_o0_128_S2000x128 : S2000x256.Slices ![0, 128] S2000x128
  bcast_S_S50000x128 : S_.BroadcastsInDim S50000x128 (![] : Fin 0 → Fin S50000x128.rank)
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S2000x128_S2000x128 : S2000x128.ShapeCasts S2000x128
  shapeCasts_S128_S128 : S128.ShapeCasts S128
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  gather_S50000x256_S600000x1_S600000x256_1_0_n_n_0_1_1256_wf : GatherDims.WF S50000x256 S600000x1 S600000x256 [1] [0] [] [0] [] 1 ![1, 256]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S600000x128.size a
  hwx1_0 : ∀ i : grid1.Coords, EltTy.bits .f32 = 32 ∨ (Rect.block (s := S600000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S600000x256.size a
  hwx1_3 : ∀ i : grid1.Coords, EltTy.bits .f32 = 32 ∨ (Rect.block (s := S600000x256) S2000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S600000x256.size a
  hwx1_4 : ∀ i : grid1.Coords, EltTy.bits .f32 = 32 ∨ (Rect.block (s := S600000x256) S2000x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S600000x128.size a
  hwx1_9 : ∀ i : grid1.Coords, EltTy.bits .f32 = 32 ∨ (Rect.block (s := S600000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_2) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg3) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S2000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v19) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v24) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S600000x128 : Shape := ⟨2, ![600000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S257x128 : Shape := ⟨2, ![257, 128]⟩
abbrev S1x600000 : Shape := ⟨2, ![1, 600000]⟩
abbrev S1x128 : Shape := ⟨2, ![1, 128]⟩
abbrev S_ : Shape := ⟨0, ![]⟩
abbrev S600000x1 : Shape := ⟨2, ![600000, 1]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S600000x128, .f32⟩
  | 4 => ⟨S128x128, .f32⟩
  | 5 => ⟨S128, .f32⟩
  | 6 => ⟨S128x1, .f32⟩
  | 7 => ⟨S1, .f32⟩
  | 8 => ⟨S257x128, .f32⟩
  | 9 => ⟨S128, .f32⟩
  | 10 => ⟨S257x128, .f32⟩
  | 11 => ⟨S128, .f32⟩
  | 12 => ⟨S128, .f32⟩
  | 13 => ⟨S128, .f32⟩
  | 14 => ⟨S1x600000, .i32⟩
  | 15 => ⟨S600000, .i32⟩
  | 16 => ⟨S1x600000, .i32⟩
  | 17 => ⟨S600000, .i32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S50000x128, .f32⟩
  | 27 => ⟨S50000x128, .i1⟩
  | 28 => ⟨S50000x128, .f32⟩
  | 29 => ⟨S50000x128, .f32⟩
  | 30 => ⟨S50000x128, .f32⟩
  | 31 => ⟨S50000x128, .f32⟩
  | 32 => ⟨S50000x128, .f32⟩
  | 33 => ⟨S50000x128, .f32⟩
  | 34 => ⟨S50000x128, .f32⟩
  | 35 => ⟨S50000x128, .f32⟩
  | 36 => ⟨S600000x1, .f32⟩
  | 37 => ⟨S1x1, .f32⟩
  | 38 => ⟨S600000x1, .f32⟩
  | 39 => ⟨S600000x1, .f32⟩
  | 40 => ⟨S_, .f32⟩
  | 41 => ⟨S600000x1, .f32⟩
  | 42 => ⟨S600000x1, .f32⟩
  | 43 => ⟨S600000x1, .f32⟩
  | 44 => ⟨S600000x1, .f32⟩
  | 45 => ⟨S600000x1, .i1⟩
  | 46 => ⟨S600000x1, .f32⟩
  | 47 => ⟨S600000x1, .f32⟩
  | 48 => ⟨S600000x1, .f32⟩
  | 49 => ⟨S600000x1, .f32⟩
  | 50 => ⟨S600000x1, .f32⟩
  | 51 => ⟨S600000x1, .f32⟩
  | 52 => ⟨S600000x1, .f32⟩
  | 53 => ⟨S600000x1, .f32⟩
  | 54 => ⟨S128x128, .f32⟩
  | 55 => ⟨S50000x128, .f32⟩
  | 56 => ⟨S128x128, .f32⟩
  | 57 => ⟨S50000x128, .f32⟩
  | 58 => ⟨S128x128, .f32⟩
  | 59 => ⟨S50000x128, .f32⟩
  | 60 => ⟨S128x128, .f32⟩
  | 61 => ⟨S50000x128, .f32⟩
  | 62 => ⟨S1x128, .f32⟩
  | 63 => ⟨S600000x128, .f32⟩
  | 64 => ⟨S1x128, .f32⟩
  | 65 => ⟨S600000x128, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S600000x128, .f32⟩
  | 75 => ⟨S_, .i32⟩
  | 76 => ⟨S600000, .i32⟩
  | 77 => ⟨S600000, .i1⟩
  | 78 => ⟨S_, .i32⟩
  | 79 => ⟨S600000, .i32⟩
  | 80 => ⟨S600000, .i32⟩
  | 81 => ⟨S600000, .i32⟩
  | 82 => ⟨S600000x1, .i32⟩
  | 83 => ⟨S600000x128, .f32⟩
  | 84 => ⟨S600000x128, .f32⟩
  | 85 => ⟨S600000x128, .f32⟩
  | 86 => ⟨S1x128, .f32⟩
  | 87 => ⟨S600000x128, .f32⟩
  | 88 => ⟨S600000x128, .f32⟩
  | 89 => ⟨S600000x128, .f32⟩
  | 90 => ⟨S600000x128, .f32⟩
  | 91 => ⟨S_, .f32⟩
  | 92 => ⟨S600000x128, .f32⟩
  | 93 => ⟨S600000x128, .f32⟩
  | 94 => ⟨S_, .f32⟩
  | 95 => ⟨S600000x128, .f32⟩
  | 96 => ⟨S600000x128, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S_, .i32⟩
  | 107 => ⟨S600000, .i32⟩
  | 108 => ⟨S600000, .i1⟩
  | 109 => ⟨S_, .i32⟩
  | 110 => ⟨S600000, .i32⟩
  | 111 => ⟨S600000, .i32⟩
  | 112 => ⟨S600000, .i32⟩
  | 113 => ⟨S600000x1, .i32⟩
  | 114 => ⟨S600000x128, .f32⟩
  | 115 => ⟨S600000x128, .f32⟩
  | 116 => ⟨S600000x128, .f32⟩
  | 117 => ⟨S1x128, .f32⟩
  | 118 => ⟨S600000x128, .f32⟩
  | 119 => ⟨S600000x128, .f32⟩
  | 120 => ⟨S_, .f32⟩
  | 121 => ⟨S600000x128, .f32⟩
  | 122 => ⟨S600000x128, .f32⟩
  | 123 => ⟨S600000x128, .f32⟩
  | 124 => ⟨S600000x128, .f32⟩
  | 125 => ⟨S600000x128, .i1⟩
  | 126 => ⟨S600000x128, .f32⟩
  | 127 => ⟨S600000x128, .f32⟩
  | _ => ⟨S50000x128, .f32⟩

abbrev hbmTy0_1 (i : Nat) : BufTy := match i % 128 with
  | 0 => ⟨S600000x128, .f32⟩
  | 1 => ⟨S600000x128, .f32⟩
  | 2 => ⟨S600000x128, .f32⟩
  | 3 => ⟨S600000x128, .f32⟩
  | 4 => ⟨S600000x128, .f32⟩
  | 5 => ⟨S600000x128, .f32⟩
  | 6 => ⟨S600000x128, .f32⟩
  | 7 => ⟨S_, .f32⟩
  | 8 => ⟨S50000x128, .f32⟩
  | 9 => ⟨S600000x1, .i32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S_, .f32⟩
  | 43 => ⟨S128, .f32⟩
  | 44 => ⟨S128, .f32⟩
  | 45 => ⟨S128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S50000x128, .f32⟩
  | 56 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_c : Ref sig .tc := ⟨.hbm, 66, rfl⟩
abbrev main_v26 : Ref sig .tc := ⟨.hbm, 67, rfl⟩
abbrev main_v27 : Ref sig .tc := ⟨.hbm, 68, rfl⟩
abbrev main_c_0 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_c_1 : Ref sig .tc := ⟨.hbm, 75, rfl⟩
abbrev main_v33 : Ref sig .tc := ⟨.hbm, 76, rfl⟩
abbrev main_v34 : Ref sig .tc := ⟨.hbm, 77, rfl⟩
abbrev main_c_2 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst : Ref sig .tc := ⟨.hbm, 91, rfl⟩
abbrev main_v47 : Ref sig .tc := ⟨.hbm, 92, rfl⟩
abbrev main_v48 : Ref sig .tc := ⟨.hbm, 93, rfl⟩
abbrev main_cst_3 : Ref sig .tc := ⟨.hbm, 94, rfl⟩
abbrev main_v49 : Ref sig .tc := ⟨.hbm, 95, rfl⟩
abbrev main_v50 : Ref sig .tc := ⟨.hbm, 96, rfl⟩
abbrev main_c_4 : Ref sig .tc := ⟨.hbm, 97, rfl⟩
abbrev main_v51 : Ref sig .tc := ⟨.hbm, 98, rfl⟩
abbrev main_v52 : Ref sig .tc := ⟨.hbm, 99, rfl⟩
abbrev main_c_5 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_c_6 : Ref sig .tc := ⟨.hbm, 106, rfl⟩
abbrev main_v58 : Ref sig .tc := ⟨.hbm, 107, rfl⟩
abbrev main_v59 : Ref sig .tc := ⟨.hbm, 108, rfl⟩
abbrev main_c_7 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_v6 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_v70 : Ref sig .tc := ⟨.hbm, 133, rfl⟩
abbrev main_v71 : Ref sig .tc := ⟨.hbm, 134, rfl⟩
abbrev main_cst_8 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_cst_9 : Ref sig .tc := ⟨.hbm, 139, rfl⟩
abbrev main_v75 : Ref sig .tc := ⟨.hbm, 140, rfl⟩
abbrev main_cst_10 : Ref sig .tc := ⟨.hbm, 141, rfl⟩
abbrev main_v76 : Ref sig .tc := ⟨.hbm, 142, rfl⟩
abbrev main_v77 : Ref sig .tc := ⟨.hbm, 143, rfl⟩
abbrev main_c_11 : Ref sig .tc := ⟨.hbm, 144, rfl⟩
abbrev main_call3_cst : Ref sig .tc := ⟨.hbm, 145, rfl⟩
abbrev main_call3_v0 : Ref sig .tc := ⟨.hbm, 146, rfl⟩
abbrev main_call3_v1 : Ref sig .tc := ⟨.hbm, 147, rfl⟩
abbrev main_call3_cst_0 : Ref sig .tc := ⟨.hbm, 148, rfl⟩
abbrev main_call3_v2 : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_v6 : Ref sig .tc := ⟨.hbm, 153, rfl⟩
abbrev main_call3_v7 : Ref sig .tc := ⟨.hbm, 154, rfl⟩
abbrev main_call3_cst_1 : Ref sig .tc := ⟨.hbm, 155, rfl⟩
abbrev main_call3_v8 : Ref sig .tc := ⟨.hbm, 156, rfl⟩
abbrev main_call3_cst_2 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_cst_3 : Ref sig .tc := ⟨.hbm, 161, rfl⟩
abbrev main_call3_v12 : Ref sig .tc := ⟨.hbm, 162, rfl⟩
abbrev main_call3_cst_4 : Ref sig .tc := ⟨.hbm, 163, rfl⟩
abbrev main_call3_call0_v0 : Ref sig .tc := ⟨.hbm, 164, rfl⟩
abbrev main_call3_call0_v1 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_v81 : Ref sig .tc := ⟨.hbm, 169, rfl⟩
abbrev main_cst_12 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S600000x1 : S_.BroadcastsInDim S600000x1 (![] : Fin 0 → Fin S600000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  bcast_S_S600000 : S_.BroadcastsInDim S600000 (![] : Fin 0 → Fin S600000.rank)
  bcast_S600000_S600000x1_0 : S600000.BroadcastsInDim S600000x1 (![0] : Fin 1 → Fin S600000x1.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S50000x128_S128x128_S50000x128_1_0_0_1_n_n_wf : DotDims.WF S50000x128 S128x128 S50000x128 [1] [0] [0] [1] [] []
  dot_S600000x128_S128x1_S600000x1_1_0_0_1_n_n_wf : DotDims.WF S600000x128 S128x1 S600000x1 [1] [0] [0] [1] [] []
  dot_S600000x1_S1x128_S600000x128_1_0_0_1_n_n_wf : DotDims.WF S600000x1 S1x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def dot_S600000x1_S1x128_S600000x128_1_0_0_1_n_n : DotDims S600000x1 S1x128 S600000x128 where
  lhsContracting := [1]
  rhsContracting := [0]
  lhsNonContracting := [0]
  rhsNonContracting := [1]
  lhsBatch := []
  rhsBatch := []
  wf := dot_S600000x1_S1x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.RefOps.lean ====
import proofs.«413223_j3856880632376_1_alg».proof.Proof.Gen.ReferenceIdeal
import Idealize.ShloMosaic.Lib.StableHlo.Run

/-! The reference program's host operations as one list, in program order: each call of an outlined function
    replaced by that function's own operations over the call's buffers (its formal arguments by the actual
    ones), a call inside a call likewise. 171 operations. -/

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The 171 operations, in order. -/
abbrev ops : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.binary main_arg0 main_arg4 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v7) main_call0.v0 main_call0.v1 maximumf,
    StableHlo.TRef.unary main_call0.cst main_call0.v2 (broadcastInDim S50000x128 ![] bcast_S_S50000x128),
    StableHlo.TRef.binary (.of main_v7) main_call0.v2 main_call0.v3 subf,
    StableHlo.TRef.binary main_call0.v3 main_call0.v3 main_call0.v4 (cmpf .une),
    StableHlo.TRef.unary main_call0.cst main_call0.v5 (broadcastInDim S50000x128 ![] bcast_S_S50000x128),
    StableHlo.TRef.binary (.of main_v7) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select,
    StableHlo.binary main_arg3 main_arg6 main_v9 ((fun l r => Host.dotGeneral dot_S600000x128_S128x1_S600000x1_1_0_0_1_n_n none l r) : (⟨S600000x128, .f32⟩ : BufTy).Contents (Elt F) → (⟨S128x1, .f32⟩ : BufTy).Contents (Elt F) → (⟨S600000x1, .f32⟩ : BufTy).Contents (Elt F)),
    StableHlo.unary main_arg7 main_v10 (broadcastInDim S1x1 ![1] bcast_S1_S1x1_1 : (⟨S1, .f32⟩ : BufTy).Contents (Elt F) → (⟨S1x1, .f32⟩ : BufTy).Contents (Elt F)),
    StableHlo.unary main_v10 main_v11 (broadcastInDim S600000x1 ![0, 1] bcast_S1x1_S600000x1_0_1 : (⟨S1x1, .f32⟩ : BufTy).Contents (Elt F) → (⟨S600000x1, .f32⟩ : BufTy).Contents (Elt F)),
    StableHlo.binary main_v9 main_v11 main_v12 (addf : (⟨S600000x1, .f32⟩ : BufTy).Contents (Elt F) → (⟨S600000x1, .f32⟩ : BufTy).Contents (Elt F) → (⟨S600000x1, .f32⟩ : BufTy).Contents (Elt F)),
    StableHlo.TRef.nullary main_call1.cst (constant S_ .f32 0x00000000#32),
    StableHlo.TRef.unary main_call1.cst main_call1.v0 (broadcastInDim S600000x1 ![] bcast_S_S600000x1),
    StableHlo.TRef.binary (.of main_v12) main_call1.v0 main_call1.v1 maximumf,
    StableHlo.TRef.unary main_call1.cst main_call1.v2 (broadcastInDim S600000x1 ![] bcast_S_S600000x1),
    StableHlo.TRef.binary (.of main_v12) main_call1.v2 main_call1.v3 subf,
    StableHlo.TRef.binary main_call1.v3 main_call1.v3 main_call1.v4 (cmpf .une),
    StableHlo.TRef.unary main_call1.cst main_call1.v5 (broadcastInDim S600000x1 ![] bcast_S_S600000x1),
    StableHlo.TRef.binary (.of main_v12) main_call1.v5 main_call1.v6 addf,
    StableHlo.TRef.unary main_call1.v3 main_call1.v7 Host.absf,
    StableHlo.TRef.unary main_call1.v7 main_call1.v8 Host.negf,
    StableHlo.TRef.unary main_call1.v8 main_call1.v9 Host.exp,
    StableHlo.TRef.unary main_call1.v9 main_call1.v10 Host.log1p,
    StableHlo.TRef.binary main_call1.v1 main_call1.v10 main_call1.v11 addf,
    StableHlo.TRef.ternary main_call1.v4 main_call1.v6 main_call1.v11 main_call1.v12 select,
    StableHlo.unary main_arg8 main_v14 ((extractStridedSlice S128x128 ![0, 0] · slices_S257x128_S128x128_0_0) : (⟨S257x128, .f32⟩ : BufTy).Contents (Elt F) → (⟨S128x128, .f32⟩ : BufTy).Contents (Elt F)),
    StableHlo.binary main_v8 main_v14 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v16 ((extractStridedSlice S128x128 ![128, 0] · slices_S257x128_S128x128_128_0) : (⟨S257x128, .f32⟩ : BufTy).Contents (Elt F) → (⟨S128x128, .f32⟩ : BufTy).Contents (Elt F)),
    StableHlo.binary main_v8 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v18 ((extractStridedSlice S128x128 ![0, 0] · slices_S257x128_S128x128_0_0) : (⟨S257x128, .f32⟩ : BufTy).Contents (Elt F) → (⟨S128x128, .f32⟩ : BufTy).Contents (Elt F)),
    StableHlo.binary main_v8 main_v18 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v20 ((extractStridedSlice S128x128 ![128, 0] · slices_S257x128_S128x128_128_0) : (⟨S257x128, .f32⟩ : BufTy).Contents (Elt F) → (⟨S128x128, .f32⟩ : BufTy).Contents (Elt F)),
    StableHlo.binary main_v8 main_v20 main_v21 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v22 ((extractStridedSlice S1x128 ![256, 0] · slices_S257x128_S1x128_256_0) : (⟨S257x128, .f32⟩ : BufTy).Contents (Elt F) → (⟨S1x128, .f32⟩ : BufTy).Contents (Elt F)),
    StableHlo.binary main_v13 main_v22 main_v23 ((fun l r => Host.dotGeneral dot_S600000x1_S1x128_S600000x128_1_0_0_1_n_n none l r) : (⟨S600000x1, .f32⟩ : BufTy).Contents (Elt F) → (⟨S1x128, .f32⟩ : BufTy).Contents (Elt F) → (⟨S600000x128, .f32⟩ : BufTy).Contents (Elt F)),
    StableHlo.unary main_arg10 main_v24 ((extractStridedSlice S1x128 ![256, 0] · slices_S257x128_S1x128_256_0) : (⟨S257x128, .f32⟩ : BufTy).Contents (Elt F) → (⟨S1x128, .f32⟩ : BufTy).Contents (Elt F)),
    StableHlo.binary main_v13 main_v24 main_v25 ((fun l r => Host.dotGeneral dot_S600000x1_S1x128_S600000x128_1_0_0_1_n_n none l r) : (⟨S600000x1, .f32⟩ : BufTy).Contents (Elt F) → (⟨S1x128, .f32⟩ : BufTy).Contents (Elt F) → (⟨S600000x128, .f32⟩ : BufTy).Contents (Elt F)),
    StableHlo.nullary main_c (constantI S_ 32 0#32),
    StableHlo.unary main_c main_v26 (broadcastInDim S600000 ![] bcast_S_S600000 : (⟨S_, .i32⟩ : BufTy).Contents (Elt F) → (⟨S600000, .i32⟩ : BufTy).Contents (Elt F)),
    StableHlo.binary main_v3 main_v26 main_v27 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v28 (broadcastInDim S600000 ![] bcast_S_S600000 : (⟨S_, .i32⟩ : BufTy).Contents (Elt F) → (⟨S600000, .i32⟩ : BufTy).Contents (Elt F)),
    StableHlo.binary main_v3 main_v28 main_v29 (addi : (⟨S600000, .i32⟩ : BufTy).Contents (Elt F) → (⟨S600000, .i32⟩ : BufTy).Contents (Elt F) → (⟨S600000, .i32⟩ : BufTy).Contents (Elt F)),
    StableHlo.ternary main_v27 main_v29 main_v3 main_v30 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v30 main_v31 (broadcastInDim S600000x1 ![0] bcast_S600000_S600000x1_0 : (⟨S600000, .i32⟩ : BufTy).Contents (Elt F) → (⟨S600000x1, .i32⟩ : BufTy).Contents (Elt F)),
    StableHlo.binary main_v15 main_v31 main_v32 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_c_1 (constantI S_ 32 0#32),
    StableHlo.unary main_c_1 main_v33 (broadcastInDim S600000 ![] bcast_S_S600000 : (⟨S_, .i32⟩ : BufTy).Contents (Elt F) → (⟨S600000, .i32⟩ : BufTy).Contents (Elt F)),
    StableHlo.binary main_v1 main_v33 main_v34 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v35 (broadcastInDim S600000 ![] bcast_S_S600000 : (⟨S_, .i32⟩ : BufTy).Contents (Elt F) → (⟨S600000, .i32⟩ : BufTy).Contents (Elt F)),
    StableHlo.binary main_v1 main_v35 main_v36 (addi : (⟨S600000, .i32⟩ : BufTy).Contents (Elt F) → (⟨S600000, .i32⟩ : BufTy).Contents (Elt F) → (⟨S600000, .i32⟩ : BufTy).Contents (Elt F)),
    StableHlo.ternary main_v34 main_v36 main_v1 main_v37 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v37 main_v38 (broadcastInDim S600000x1 ![0] bcast_S600000_S600000x1_0 : (⟨S600000, .i32⟩ : BufTy).Contents (Elt F) → (⟨S600000x1, .i32⟩ : BufTy).Contents (Elt F)),
    StableHlo.binary main_v17 main_v38 main_v39 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v32 main_v39 main_v40 (addf : (⟨S600000x128, .f32⟩ : BufTy).Contents (Elt F) → (⟨S600000x128, .f32⟩ : BufTy).Contents (Elt F) → (⟨S600000x128, .f32⟩ : BufTy).Contents (Elt F)),
    StableHlo.binary main_v40 main_v23 main_v41 (addf : (⟨S600000x128, .f32⟩ : BufTy).Contents (Elt F) → (⟨S600000x128, .f32⟩ : BufTy).Contents (Elt F) → (⟨S600000x128, .f32⟩ : BufTy).Contents (Elt F)),
    StableHlo.unary main_arg9 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S600000x128 ![0, 1] bcast_S1x128_S600000x128_0_1 : (⟨S1x128, .f32⟩ : BufTy).Contents (Elt F) → (⟨S600000x128, .f32⟩ : BufTy).Contents (Elt F)),
    StableHlo.binary main_v41 main_v43 main_v44 (addf : (⟨S600000x128, .f32⟩ : BufTy).Contents (Elt F) → (⟨S600000x128, .f32⟩ : BufTy).Contents (Elt F) → (⟨S600000x128, .f32⟩ : BufTy).Contents (Elt F)),
    StableHlo.unary main_v44 main_v45 (Host.negf : (⟨S600000x128, .f32⟩ : BufTy).Contents (Elt F) → (⟨S600000x128, .f32⟩ : BufTy).Contents (Elt F)),
    StableHlo.unary main_v45 main_v46 (Host.exp : (⟨S600000x128, .f32⟩ : BufTy).Contents (Elt F) → (⟨S600000x128, .f32⟩ : BufTy).Contents (Elt F)),
    StableHlo.nullary main_cst (constant S_ .f32 0x3F800000#32),
    StableHlo.unary main_cst main_v47 (broadcastInDim S600000x128 ![] bcast_S_S600000x128 : (⟨S_, .f32⟩ : BufTy).Contents (Elt F) → (⟨S600000x128, .f32⟩ : BufTy).Contents (Elt F)),
    StableHlo.binary main_v47 main_v46 main_v48 (addf : (⟨S600000x128, .f32⟩ : BufTy).Contents (Elt F) → (⟨S600000x128, .f32⟩ : BufTy).Contents (Elt F) → (⟨S600000x128, .f32⟩ : BufTy).Contents (Elt F)),
    StableHlo.nullary main_cst_3 (constant S_ .f32 0x3F800000#32),
    StableHlo.unary main_cst_3 main_v49 (broadcastInDim S600000x128 ![] bcast_S_S600000x128 : (⟨S_, .f32⟩ : BufTy).Contents (Elt F) → (⟨S600000x128, .f32⟩ : BufTy).Contents (Elt F)),
    StableHlo.binary main_v49 main_v48 main_v50 (Host.divf : (⟨S600000x128, .f32⟩ : BufTy).Contents (Elt F) → (⟨S600000x128, .f32⟩ : BufTy).Contents (Elt F) → (⟨S600000x128, .f32⟩ : BufTy).Contents (Elt F)),
    StableHlo.nullary main_c_4 (constantI S_ 32 0#32),
    StableHlo.unary main_c_4 main_v51 (broadcastInDim S600000 ![] bcast_S_S600000 : (⟨S_, .i32⟩ : BufTy).Contents (Elt F) → (⟨S600000, .i32⟩ : BufTy).Contents (Elt F)),
    StableHlo.binary main_v3 main_v51 main_v52 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 50000#32),
    StableHlo.unary main_c_5 main_v53 (broadcastInDim S600000 ![] bcast_S_S600000 : (⟨S_, .i32⟩ : BufTy).Contents (Elt F) → (⟨S600000, .i32⟩ : BufTy).Contents (Elt F)),
    StableHlo.binary main_v3 main_v53 main_v54 (addi : (⟨S600000, .i32⟩ : BufTy).Contents (Elt F) → (⟨S600000, .i32⟩ : BufTy).Contents (Elt F) → (⟨S600000, .i32⟩ : BufTy).Contents (Elt F)),
    StableHlo.ternary main_v52 main_v54 main_v3 main_v55 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v55 main_v56 (broadcastInDim S600000x1 ![0] bcast_S600000_S600000x1_0 : (⟨S600000, .i32⟩ : BufTy).Contents (Elt F) → (⟨S600000x1, .i32⟩ : BufTy).Contents (Elt F)),
    StableHlo.binary main_v19 main_v56 main_v57 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_c_6 (constantI S_ 32 0#32),
    StableHlo.unary main_c_6 main_v58 (broadcastInDim S600000 ![] bcast_S_S600000 : (⟨S_, .i32⟩ : BufTy).Contents (Elt F) → (⟨S600000, .i32⟩ : BufTy).Contents (Elt F)),
    StableHlo.binary main_v1 main_v58 main_v59 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 50000#32),
    StableHlo.unary main_c_7 main_v60 (broadcastInDim S600000 ![] bcast_S_S600000 : (⟨S_, .i32⟩ : BufTy).Contents (Elt F) → (⟨S600000, .i32⟩ : BufTy).Contents (Elt F)),
    StableHlo.binary main_v1 main_v60 main_v61 (addi : (⟨S600000, .i32⟩ : BufTy).Contents (Elt F) → (⟨S600000, .i32⟩ : BufTy).Contents (Elt F) → (⟨S600000, .i32⟩ : BufTy).Contents (Elt F)),
    StableHlo.ternary main_v59 main_v61 main_v1 main_v62 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v62 main_v63 (broadcastInDim S600000x1 ![0] bcast_S600000_S600000x1_0 : (⟨S600000, .i32⟩ : BufTy).Contents (Elt F) → (⟨S600000x1, .i32⟩ : BufTy).Contents (Elt F)),
    StableHlo.binary main_v21 main_v63 main_v64 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v57 main_v64 main_v65 (addf : (⟨S600000x128, .f32⟩ : BufTy).Contents (Elt F) → (⟨S600000x128, .f32⟩ : BufTy).Contents (Elt F) → (⟨S600000x128, .f32⟩ : BufTy).Contents (Elt F)),
    StableHlo.binary main_v65 main_v25 main_v66 (addf : (⟨S600000x128, .f32⟩ : BufTy).Contents (Elt F) → (⟨S600000x128, .f32⟩ : BufTy).Contents (Elt F) → (⟨S600000x128, .f32⟩ : BufTy).Contents (Elt F)),
    StableHlo.unary main_arg11 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S600000x128 ![0, 1] bcast_S1x128_S600000x128_0_1 : (⟨S1x128, .f32⟩ : BufTy).Contents (Elt F) → (⟨S600000x128, .f32⟩ : BufTy).Contents (Elt F)),
    StableHlo.binary main_v66 main_v68 main_v69 (addf : (⟨S600000x128, .f32⟩ : BufTy).Contents (Elt F) → (⟨S600000x128, .f32⟩ : BufTy).Contents (Elt F) → (⟨S600000x128, .f32⟩ : BufTy).Contents (Elt F)),
    StableHlo.TRef.nullary main_call2.cst (constant S_ .f32 0x00000000#32),
    StableHlo.TRef.unary main_call2.cst main_call2.v0 (broadcastInDim S600000x128 ![] bcast_S_S600000x128),
    StableHlo.TRef.binary (.of main_v69) main_call2.v0 main_call2.v1 maximumf,
    StableHlo.TRef.unary main_call2.cst main_call2.v2 (broadcastInDim S600000x128 ![] bcast_S_S600000x128),
    StableHlo.TRef.binary (.of main_v69) main_call2.v2 main_call2.v3 subf,
    StableHlo.TRef.binary main_call2.v3 main_call2.v3 main_call2.v4 (cmpf .une),
    StableHlo.TRef.unary main_call2.cst main_call2.v5 (broadcastInDim S600000x128 ![] bcast_S_S600000x128),
    StableHlo.TRef.binary (.of main_v69) main_call2.v5 main_call2.v6 addf,
    StableHlo.TRef.unary main_call2.v3 main_call2.v7 Host.absf,
    StableHlo.TRef.unary main_call2.v7 main_call2.v8 Host.negf,
    StableHlo.TRef.unary main_call2.v8 main_call2.v9 Host.exp,
    StableHlo.TRef.unary main_call2.v9 main_call2.v10 Host.log1p,
    StableHlo.TRef.binary main_call2.v1 main_call2.v10 main_call2.v11 addf,
    StableHlo.TRef.ternary main_call2.v4 main_call2.v6 main_call2.v11 main_call2.v12 select,
    StableHlo.binary main_v50 main_v70 main_v71 (mulf : (⟨S600000x128, .f32⟩ : BufTy).Contents (Elt F) → (⟨S600000x128, .f32⟩ : BufTy).Contents (Elt F) → (⟨S600000x128, .f32⟩ : BufTy).Contents (Elt F)),
    StableHlo.nullary main_cst_8 (constant S_ .f32 0x00000000#32),
    StableHlo.unary main_cst_8 main_v72 (broadcastInDim S50000x128 ![] bcast_S_S50000x128 : (⟨S_, .f32⟩ : BufTy).Contents (Elt F) → (⟨S50000x128, .f32⟩ : BufTy).Contents (Elt F)),
    StableHlo.unary main_v3 main_v73 (broadcastInDim S600000x1 ![0] bcast_S600000_S600000x1_0 : (⟨S600000, .i32⟩ : BufTy).Contents (Elt F) → (⟨S600000x1, .i32⟩ : BufTy).Contents (Elt F)),
    StableHlo.ternary main_v72 main_v73 main_v71 main_v74 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_9 (constant S_ .f32 0x00000000#32),
    StableHlo.binary main_v74 main_cst_9 main_v75 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v76 (broadcastInDim S128 ![] bcast_S_S128 : (⟨S_, .f32⟩ : BufTy).Contents (Elt F) → (⟨S128, .f32⟩ : BufTy).Contents (Elt F)),
    StableHlo.binary main_v75 main_v76 main_v77 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call3.cst (constant S_ .f32 0x00000000#32),
    StableHlo.TRef.binary (.of main_v74) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (.of main_v74) main_call3.v4 main_call3.v5 subf,
    StableHlo.TRef.binary main_call3.v5 main_call3.v5 main_call3.v6 mulf,
    StableHlo.TRef.unary (.of main_c_11) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v77 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v80 main_v81 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v82 (broadcastInDim S128 ![] bcast_S_S128 : (⟨S_, .f32⟩ : BufTy).Contents (Elt F) → (⟨S128, .f32⟩ : BufTy).Contents (Elt F)),
    StableHlo.binary main_v78 main_v82 main_v83 (addf : (⟨S128, .f32⟩ : BufTy).Contents (Elt F) → (⟨S128, .f32⟩ : BufTy).Contents (Elt F) → (⟨S128, .f32⟩ : BufTy).Contents (Elt F)),
    StableHlo.unary main_v83 main_v84 (Host.rsqrt : (⟨S128, .f32⟩ : BufTy).Contents (Elt F) → (⟨S128, .f32⟩ : BufTy).Contents (Elt F)),
    StableHlo.unary main_v84 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v86 main_v87 (mulf : (⟨S50000x128, .f32⟩ : BufTy).Contents (Elt F) → (⟨S50000x128, .f32⟩ : BufTy).Contents (Elt F) → (⟨S50000x128, .f32⟩ : BufTy).Contents (Elt F)),
    StableHlo.unary main_arg12 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v89 main_v90 (mulf : (⟨S50000x128, .f32⟩ : BufTy).Contents (Elt F) → (⟨S50000x128, .f32⟩ : BufTy).Contents (Elt F) → (⟨S50000x128, .f32⟩ : BufTy).Contents (Elt F)),
    StableHlo.unary main_arg13 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v90 main_v92 main_v93 (addf : (⟨S50000x128, .f32⟩ : BufTy).Contents (Elt F) → (⟨S50000x128, .f32⟩ : BufTy).Contents (Elt F) → (⟨S50000x128, .f32⟩ : BufTy).Contents (Elt F)),
    StableHlo.binary main_v93 main_v8 main_v94 (addf : (⟨S50000x128, .f32⟩ : BufTy).Contents (Elt F) → (⟨S50000x128, .f32⟩ : BufTy).Contents (Elt F) → (⟨S50000x128, .f32⟩ : BufTy).Contents (Elt F)),
    StableHlo.binary main_v8 main_v94 main_v95 (addf : (⟨S50000x128, .f32⟩ : BufTy).Contents (Elt F) → (⟨S50000x128, .f32⟩ : BufTy).Contents (Elt F) → (⟨S50000x128, .f32⟩ : BufTy).Contents (Elt F)) ]

/-- Every operation touches buffers of the device's own memory only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., binary_bufs_sub .., unary_bufs_sub ..,
    unary_bufs_sub .., binary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., binary_bufs_sub ..,
    unary_bufs_sub .., binary_bufs_sub .., unary_bufs_sub .., binary_bufs_sub .., unary_bufs_sub .., binary_bufs_sub ..,
    unary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., unary_bufs_sub .., unary_bufs_sub .., binary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    binary_bufs_sub .., nullary_bufs_sub .., unary_bufs_sub .., unary_bufs_sub .., ternary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., binary_bufs_sub ..⟩

end Cert.ReferenceIdeal.Run

end
-- ==== Proof.RefRun.lean ====
import proofs.«413223_j3856880632376_1_alg».proof.Proof.RefOps

/-! The reference program's run: its main function is the straight line of its host operations (each call of an
    outlined function unfolding to that function's operations over the call's buffers), so every weakly fair
    execution terminates with every buffer at the fold of the operations' results over the launch contents. -/

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The main function is the straight line: the two windows and the outlined functions unfolded at their calls,
    both sides are one chain of steps once sequencing is reassociated. -/
theorem main_eq (c : Dev nD) : main (F := F) c = seq ops := by
  simp only [main, main_part0, main_part1, fn_softplus.body, fn_softplus_0.body, fn_softplus_1.body, fn_var.body,
    fn_where.body, seq, bind_assoc, pure_bind]

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

set_option maxRecDepth 8192 in
set_option maxHeartbeats 4000000 in
/-- For any float values, from any memory with zero counters: every weakly fair execution of the main function
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RefArgs.lean ====
import proofs.«413223_j3856880632376_1_alg».proof.Proof.RefRun

/-! No operation of the reference program writes an argument array: after the whole line each argument's buffer
    holds what it held at launch. With the run, this is the reference's frame: it terminates and leaves its
    fourteen arguments as they were. -/

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The fold unrolled, each operation's result decides that the buffer read is not the one it writes: by computation. -/
local macro "unwritten" : tactic => `(tactic| (simp only [after_cons, after_nil]; rfl))

set_option maxRecDepth 8192
set_option maxHeartbeats 4000000

/-- The node features are written by no operation. -/
theorem arg0_eq (L : Valuation τ sig (Elt F)) : after ops L (main_arg0 : DevRef τ sig) = L (main_arg0 : DevRef τ sig) := by unwritten
/-- The edge index array is written by no operation. -/
theorem arg1_eq (L : Valuation τ sig (Elt F)) : after ops L (main_arg1 : DevRef τ sig) = L (main_arg1 : DevRef τ sig) := by unwritten
/-- The per-edge weights (an argument no operation reads either) are written by no operation. -/
theorem arg2_eq (L : Valuation τ sig (Elt F)) : after ops L (main_arg2 : DevRef τ sig) = L (main_arg2 : DevRef τ sig) := by unwritten
/-- The edge attributes are written by no operation. -/
theorem arg3_eq (L : Valuation τ sig (Elt F)) : after ops L (main_arg3 : DevRef τ sig) = L (main_arg3 : DevRef τ sig) := by unwritten
/-- The node projection's weights are written by no operation. -/
theorem arg4_eq (L : Valuation τ sig (Elt F)) : after ops L (main_arg4 : DevRef τ sig) = L (main_arg4 : DevRef τ sig) := by unwritten
/-- The node projection's bias is written by no operation. -/
theorem arg5_eq (L : Valuation τ sig (Elt F)) : after ops L (main_arg5 : DevRef τ sig) = L (main_arg5 : DevRef τ sig) := by unwritten
/-- The edge scalar's weight column is written by no operation. -/
theorem arg6_eq (L : Valuation τ sig (Elt F)) : after ops L (main_arg6 : DevRef τ sig) = L (main_arg6 : DevRef τ sig) := by unwritten
/-- The edge scalar's bias is written by no operation. -/
theorem arg7_eq (L : Valuation τ sig (Elt F)) : after ops L (main_arg7 : DevRef τ sig) = L (main_arg7 : DevRef τ sig) := by unwritten
/-- The sigmoid factor's weight table is written by no operation. -/
theorem arg8_eq (L : Valuation τ sig (Elt F)) : after ops L (main_arg8 : DevRef τ sig) = L (main_arg8 : DevRef τ sig) := by unwritten
/-- The sigmoid factor's bias is written by no operation. -/
theorem arg9_eq (L : Valuation τ sig (Elt F)) : after ops L (main_arg9 : DevRef τ sig) = L (main_arg9 : DevRef τ sig) := by unwritten
/-- The softplus factor's weight table is written by no operation. -/
theorem arg10_eq (L : Valuation τ sig (Elt F)) : after ops L (main_arg10 : DevRef τ sig) = L (main_arg10 : DevRef τ sig) := by unwritten
/-- The softplus factor's bias is written by no operation. -/
theorem arg11_eq (L : Valuation τ sig (Elt F)) : after ops L (main_arg11 : DevRef τ sig) = L (main_arg11 : DevRef τ sig) := by unwritten
/-- The normalisation's scale is written by no operation. -/
theorem arg12_eq (L : Valuation τ sig (Elt F)) : after ops L (main_arg12 : DevRef τ sig) = L (main_arg12 : DevRef τ sig) := by unwritten
/-- The normalisation's shift is written by no operation. -/
theorem arg13_eq (L : Valuation τ sig (Elt F)) : after ops L (main_arg13 : DevRef τ sig) = L (main_arg13 : DevRef τ sig) := by unwritten

/-- The reference's frame: every weakly fair execution terminates and each argument array ends as it was at launch
    (the run gives each buffer at the fold over the launch contents; the fold leaves the arguments alone). -/
theorem frame_ref (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _), (h c main_arg11).trans (arg11_eq _),
      (h c main_arg12).trans (arg12_eq _), (h c main_arg13).trans (arg13_eq _)⟩)
    (run_main m ρ)

end Cert.ReferenceIdeal.Run

end
-- ==== Proof.IndexRange.lean ====
/-
  The index range the precondition states, read back at one element.

  The printed precondition is a conjunction of fourteen scalar bits: thirteen say that a float argument is finite
  everywhere, and the last is `jnp.all ((edge_index ≥ 0) ∧ (edge_index < 50000))`, a reduction by `and` over both axes
  of the [2, 600000] array of element bits. When the whole conjunction is 1, its last operand is 1; a reduction by `and`
  that is 1 met a 1 at every element; and the element bit at `i` is the `and` of two signed comparisons of the word
  `edge_index[i]` against the broadcast constants 0 and 50000. A signed comparison that holds is the order of the
  words' integer values, so 0 ≤ edge_index[i] < 50000 as integers; such a word is non-negative, its value as a
  natural number is below 50000, and the test "edge_index[i] < 0" fails on it.
-/
import proofs.«413223_j3856880632376_1_alg».proof.Pre_finite_inputs
import proofs.«413223_j3856880632376_1_alg».proof.Proof.Gen.Pre_finite_inputs
import Idealize.ShloMosaic.Lib.StableHlo.Predicate
import Idealize.ShloMosaic.Lib.ReduceAll
import Idealize.ShloMosaic.Lib.ValueIdx

noncomputable section

namespace Cert.IndexRange

open Idealize.ShloMosaic Cert.Pre_finite_inputs

/-- The scalar shape has one index. -/
instance subsingleton_S_ : Subsingleton S_.Idx := ⟨fun a b => funext fun d => d.elim0⟩

/-! ## Words -/

theorem toInt_zero32 : (0#32 : BitVec 32).toInt = 0 := by decide
theorem toInt_50000 : (50000#32 : BitVec 32).toInt = 50000 := by decide

/-- A word whose integer value lies in [0, n), n below 2³¹, is not negative, and its value as a natural number (read
    signed or unsigned) is below n. -/
theorem word_facts (w : BitVec 32) (n : Nat) (h0 : 0 ≤ w.toInt) (hn : w.toInt < (n : Int)) :
    w.toInt.toNat < n ∧ w.toNat < n ∧ w.toInt = (w.toNat : Int) ∧ IntOp.cmpi .slt w 0#32 = 0#1 := by
  have hlt := w.isLt
  have hi : w.toInt = (w.toNat : Int) := by
    unfold BitVec.toInt at h0 ⊢
    split at h0
    · rename_i hc; rw [if_pos hc]
    · omega
  refine ⟨by omega, by omega, hi, ?_⟩
  have hnot : ¬ IntOp.cmpi .slt w 0#32 = 1#1 := by
    rw [IntOp.cmpi_slt, toInt_zero32]; omega
  rcases BitVec.eq_zero_or_eq_one (IntOp.cmpi .slt w 0#32) with e | e
  · exact e
  · exact absurd e hnot

/-! ## What the range does to the programs' index arithmetic -/

/-- The wrap of a negative index, `select (w < 0) (w + n) w`, leaves a word that is not negative alone. -/
theorem wrap_eq (w alt : BitVec 32) (h : IntOp.cmpi .slt w 0#32 = 0#1) :
    Scalar.select (IntOp.cmpi .slt w 0#32) alt w = w := by
  rw [h]; exact if_neg (by decide)

/-- The clamp of a row number below 50000 into [0, 49999] does nothing. -/
theorem clamp_eq (k : Nat) (h : k < 50000) : min k 49999 = k := Nat.min_eq_left (by omega)

/-! ## The precondition's last conjunct -/

variable {F : FTy → Type} [FloatOps F]

/-- THE INDEX RANGE: under the precondition every entry of `edge_index` is, as an integer, in [0, 50000). -/
theorem index_range
    {a0 : FVec F S50000x128 .f32} {a1 : IVec S2x600000 32} {a2 : FVec F S600000 .f32} {a3 : FVec F S600000x128 .f32}
    {a4 : FVec F S128x128 .f32} {a5 : FVec F S128 .f32} {a6 : FVec F S128x1 .f32} {a7 : FVec F S1 .f32}
    {a8 : FVec F S257x128 .f32} {a9 : FVec F S128 .f32} {a10 : FVec F S257x128 .f32} {a11 : FVec F S128 .f32}
    {a12 : FVec F S128 .f32} {a13 : FVec F S128 .f32}
    (h : Cert.Pre_finite_inputs.fn (F := F) a0 a1 a2 a3 a4 a5 a6 a7 a8 a9 a10 a11 a12 a13 = fun _ => 1#1)
    (i : (⟨2, ![2, 600000]⟩ : Shape).Idx) : 0 ≤ (a1 i).toInt ∧ (a1 i).toInt < 50000 := by
  have e := congrFun h ValueIdx.ix0
  dsimp only [fn, fn_part1, fn_part2, fn_part3, fn_part4] at e
  -- the conjunction's last operand: the reduction over the element bits
  have e1 := (IntOp.andi_eq_one.1 e).2
  -- every element bit is 1
  have e2 := Host.reduce_andi_all _ _ _ _ _ e1 i
  -- the element bit is the `and` of the two comparisons against the broadcast constants
  obtain ⟨hge, hlt⟩ := IntOp.andi_eq_one.1 e2
  have hge' : IntOp.cmpi .sge (a1 i) 0#32 = 1#1 := hge
  have hlt' : IntOp.cmpi .slt (a1 i) 50000#32 = 1#1 := hlt
  rw [IntOp.cmpi_sge, toInt_zero32] at hge'
  rw [IntOp.cmpi_slt, toInt_50000] at hlt'
  exact ⟨hge', hlt'⟩

/-- The same in the forms the programs' index arithmetic meets: the word read as a natural number (signed or unsigned
    reading) is below 50000, the two readings agree, and the test "index < 0" (a signed compare against 0) is false. -/
theorem index_range_nat
    {a0 : FVec F S50000x128 .f32} {a1 : IVec S2x600000 32} {a2 : FVec F S600000 .f32} {a3 : FVec F S600000x128 .f32}
    {a4 : FVec F S128x128 .f32} {a5 : FVec F S128 .f32} {a6 : FVec F S128x1 .f32} {a7 : FVec F S1 .f32}
    {a8 : FVec F S257x128 .f32} {a9 : FVec F S128 .f32} {a10 : FVec F S257x128 .f32} {a11 : FVec F S128 .f32}
    {a12 : FVec F S128 .f32} {a13 : FVec F S128 .f32}
    (h : Cert.Pre_finite_inputs.fn (F := F) a0 a1 a2 a3 a4 a5 a6 a7 a8 a9 a10 a11 a12 a13 = fun _ => 1#1)
    (i : (⟨2, ![2, 600000]⟩ : Shape).Idx) :
    (a1 i).toInt.toNat < 50000 ∧ IntOp.cmpi .slt (a1 i) 0#32 = 0#1 := by
  obtain ⟨h0, hn⟩ := index_range h i
  obtain ⟨h1, -, -, h4⟩ := word_facts (a1 i) 50000 h0 (by exact_mod_cast hn)
  exact ⟨h1, h4⟩

/-- The unsigned reading, and its agreement with the signed one. -/
theorem index_range_toNat
    {a0 : FVec F S50000x128 .f32} {a1 : IVec S2x600000 32} {a2 : FVec F S600000 .f32} {a3 : FVec F S600000x128 .f32}
    {a4 : FVec F S128x128 .f32} {a5 : FVec F S128 .f32} {a6 : FVec F S128x1 .f32} {a7 : FVec F S1 .f32}
    {a8 : FVec F S257x128 .f32} {a9 : FVec F S128 .f32} {a10 : FVec F S257x128 .f32} {a11 : FVec F S128 .f32}
    {a12 : FVec F S128 .f32} {a13 : FVec F S128 .f32}
    (h : Cert.Pre_finite_inputs.fn (F := F) a0 a1 a2 a3 a4 a5 a6 a7 a8 a9 a10 a11 a12 a13 = fun _ => 1#1)
    (i : (⟨2, ![2, 600000]⟩ : Shape).Idx) :
    (a1 i).toNat < 50000 ∧ (a1 i).toInt = ((a1 i).toNat : Int) := by
  obtain ⟨h0, hn⟩ := index_range h i
  obtain ⟨-, h2, h3, -⟩ := word_facts (a1 i) 50000 h0 (by exact_mod_cast hn)
  exact ⟨h2, h3⟩

end Cert.IndexRange

end
-- ==== Proof.Spec.lean ====
/-
  The mathematics both programs compute, index by index, over the extended reals.

  A graph layer: node features are projected (a matrix product plus a bias through softplus), every node's
  projection is multiplied by the four 128×128 blocks of two weight tables, every edge gathers the rows of
  its two end nodes, adds the edge's own scalar feature (a row product through softplus) times the tables'
  last row, and forms a gated message sigmoid(·) · softplus(·); messages are summed per target node, the
  per-column mean and variance of the sums normalise them, and the projection is added twice.

  Everything here is stated over literal shapes, with indices built from coordinates, so that each side's
  arrays can be compared entry by entry.
-/
import Idealize.ShloMosaic.PureOps.Ideal
import Idealize.ShloMosaic.Lib.ValueIdx

noncomputable section

namespace Cert.Spec

open Idealize.ShloMosaic Idealize.ShloMosaic.ValueIdx

/-! ## Shapes -/

abbrev NC : Shape := ⟨2, ![50000, 128]⟩
abbrev N2C : Shape := ⟨2, ![50000, 256]⟩
abbrev EC : Shape := ⟨2, ![600000, 128]⟩
abbrev E2C : Shape := ⟨2, ![600000, 256]⟩
abbrev CC : Shape := ⟨2, ![128, 128]⟩
abbrev C2C : Shape := ⟨2, ![128, 256]⟩
abbrev C1 : Shape := ⟨2, ![128, 1]⟩
abbrev R1C : Shape := ⟨2, ![1, 128]⟩
abbrev Cv : Shape := ⟨1, ![128]⟩
abbrev V1 : Shape := ⟨1, ![1]⟩
abbrev WW : Shape := ⟨2, ![257, 128]⟩
abbrev EI : Shape := ⟨2, ![2, 600000]⟩

/-! ## Scalar functions -/

/-- Softplus in its stable form: the positive part plus log (1 + e^(-|x|)), with |x| = max x (-x). -/
def sp (x : EReal) : EReal := max x 0 + Ideal.log1p (Ideal.exp (-(max x (-x))))

/-- The word of the small constant added to the variance (the f32 nearest 1/100000). -/
abbrev epsWord : BitVec 32 := 0x3727C5AC#32

/-! ## The edges' end nodes -/

/-- The node an edge's index word names, read signed and clamped into the node range (row 0 of the index array holds
    the source nodes, row 1 the target nodes). On indices in range the clamp does nothing. -/
def nodeOf (ei : EI.Idx → BitVec 32) (r : Fin 2) (e : Fin 600000) : Fin 50000 :=
  ⟨min (ei (ix2 r e)).toInt.toNat 49999, by omega⟩

/-! ## The node projection -/

/-- Entry (n, j) of the projected node features: softplus of row n of `h` times column j of `W0`, plus `b0 j`. -/
def outG (h : NC.Idx → EReal) (W0 : CC.Idx → EReal) (b0 : Cv.Idx → EReal) (n : Fin 50000) (j : Fin 128) : EReal :=
  sp ((∑ k : Fin 128, h (ix2 n k) * W0 (ix2 k j)) + b0 (ix1 j))

/-- Entry (n, j) of the product of an [N, 128] array (given by coordinates) with the 128 rows of a 257-row table
    that start at row `off`. -/
def projG (out : Fin 50000 → Fin 128 → EReal) (W : WW.Idx → EReal) (off : Nat) (hoff : off + 128 ≤ 257)
    (n : Fin 50000) (j : Fin 128) : EReal :=
  ∑ k : Fin 128, out n k * W (ix2 ⟨off + k.val, by omega⟩ j)

/-- Entry (n, j) of the product of an [N, 128] array with a [128, 256] table (the two-block form the kernel uses). -/
def projWideG (out : Fin 50000 → Fin 128 → EReal) (W : C2C.Idx → EReal) (n : Fin 50000) (j : Fin 256) : EReal :=
  ∑ k : Fin 128, out n k * W (ix2 k j)

/-! ## The edge message -/

/-- The edge's scalar feature: softplus of the edge's attribute row times the weight column, plus the bias.
    `w k` is the weight at position k (a column of a [128, 1] table on one side, a row of a [1, 128] table on the other). -/
def edgeG (ea : EC.Idx → EReal) (w : Fin 128 → EReal) (b : EReal) (e : Fin 600000) : EReal :=
  sp ((∑ k : Fin 128, ea (ix2 e k) * w k) + b)

/-- The gated message from its four gathered node terms, the edge scalar, the two last-row weights and the two biases:
    sigmoid (a₁ + a₂ + s · wf + bf) · softplus (c₁ + c₂ + s · ws + bs). -/
def msgG (a1 a2 c1 c2 s wf ws bf bs : EReal) : EReal :=
  Ideal.logistic (a1 + a2 + s * wf + bf) * sp (c1 + c2 + s * ws + bs)

/-! ## The normalisation and the two residual additions -/

/-- Entry of the result: out + (((aggr − mean) · rsqrt (var + ε)) · gamma + beta + out). -/
def bnG (aggr out mean var gamma beta : EReal) : EReal :=
  out + ((aggr - mean) * Ideal.rsqrt (var + Ideal.ofBits .f32 epsWord) * gamma + beta + out)

end Cert.Spec

end
-- ==== Proof.Bridge.lean ====
/-
  Two forms of one matrix product.

  One program multiplies the projected node features by a [128, 256] table whose left half is 128 consecutive rows of one
  257-row weight table and whose right half is the same rows of another; the other program multiplies by each
  [128, 128] block on its own. Column by column the two are the same sum.
-/
import proofs.«413223_j3856880632376_1_alg».proof.Proof.Spec

noncomputable section

namespace Cert.Bridge

open Idealize.ShloMosaic Idealize.ShloMosaic.ValueIdx Cert.Spec

/-- A [128, 256] table is the side-by-side join of rows `off … off + 127` of two 257-row tables. -/
def IsJoin (W : C2C.Idx → EReal) (Wf Ws : WW.Idx → EReal) (off : Nat) (hoff : off + 128 ≤ 257) : Prop :=
  ∀ (k : Fin 128) (j : Fin 256), W (ix2 k j) =
    if h : j.val < 128 then Wf (ix2 ⟨off + k.val, by omega⟩ ⟨j.val, h⟩)
    else Ws (ix2 ⟨off + k.val, by omega⟩ ⟨j.val - 128, by omega⟩)

/-- A left-half column of the product with the joined table is the product with the first table's block. -/
theorem projWide_left (out : Fin 50000 → Fin 128 → EReal) (W : C2C.Idx → EReal) (Wf Ws : WW.Idx → EReal) (off : Nat)
    (hoff : off + 128 ≤ 257) (hW : IsJoin W Wf Ws off hoff) (n : Fin 50000) (j : Fin 128) :
    projWideG out W n ⟨j.val, by omega⟩ = projG out Wf off hoff n j := by
  unfold projWideG projG
  refine Finset.sum_congr rfl fun k _ => ?_
  rw [hW k ⟨j.val, by omega⟩, dif_pos (show (⟨j.val, by omega⟩ : Fin 256).val < 128 from j.isLt)]

/-- A right-half column of the product with the joined table is the product with the second table's block. -/
theorem projWide_right (out : Fin 50000 → Fin 128 → EReal) (W : C2C.Idx → EReal) (Wf Ws : WW.Idx → EReal) (off : Nat)
    (hoff : off + 128 ≤ 257) (hW : IsJoin W Wf Ws off hoff) (n : Fin 50000) (j : Fin 128) :
    projWideG out W n ⟨128 + j.val, by omega⟩ = projG out Ws off hoff n j := by
  unfold projWideG projG
  refine Finset.sum_congr rfl fun k _ => ?_
  rw [hW k ⟨128 + j.val, by omega⟩, dif_neg (show ¬ (⟨128 + j.val, by omega⟩ : Fin 256).val < 128 from by simp)]
  congr 2
  refine congrArg (ix2 _) (Fin.ext ?_)
  show 128 + j.val - 128 = j.val
  omega

end Cert.Bridge

end
-- ==== Proof.Whole.lean ====
/-
  The per-edge message as one function of the launch arrays, and the two routes to it.

  One program gathers rows of two wide [N, 256] tables (each the product of the projected node features with a
  side-by-side join of two weight blocks) and splits the gathered rows into a gate half and a core half; the
  other gathers rows of four [N, 128] products. Entry by entry both give the message `msgW` below.
-/
import proofs.«413223_j3856880632376_1_alg».proof.Proof.Spec
import proofs.«413223_j3856880632376_1_alg».proof.Proof.Bridge

noncomputable section

namespace Cert.Whole

open Idealize.ShloMosaic Idealize.ShloMosaic.ValueIdx Cert.Spec Cert.Bridge

abbrev E1 : Shape := ⟨2, ![600000, 1]⟩

variable (a0 : NC.Idx → EReal) (a1 : EI.Idx → BitVec 32) (a3 : EC.Idx → EReal) (a4 : CC.Idx → EReal)
  (a5 : Cv.Idx → EReal) (a6 : C1.Idx → EReal) (a7 : V1.Idx → EReal) (a8 : WW.Idx → EReal) (a9 : Cv.Idx → EReal)
  (a10 : WW.Idx → EReal) (a11 : Cv.Idx → EReal)

/-- The message of edge `e`, column `j`, from the launch arrays: the four node terms are rows (target, source, target,
    source) of the projected features times the four weight blocks; the edge term is the edge scalar times the tables'
    last rows. -/
def msgW (e : Fin 600000) (j : Fin 128) : EReal :=
  msgG (projG (outG a0 a4 a5) a8 0 (by omega) (nodeOf a1 1 e) j) (projG (outG a0 a4 a5) a8 128 (by omega) (nodeOf a1 0 e) j)
    (projG (outG a0 a4 a5) a10 0 (by omega) (nodeOf a1 1 e) j) (projG (outG a0 a4 a5) a10 128 (by omega) (nodeOf a1 0 e) j)
    (edgeG a3 (fun k => a6 (ix2 k 0)) (a7 (ix1 0)) e) (a8 (ix2 256 j)) (a10 (ix2 256 j)) (a9 (ix1 j)) (a11 (ix1 j))

/-- The route through the two wide tables: gathered rows split into halves. -/
theorem wide_route (tA tB : N2C.Idx → EReal) (WA WB : C2C.Idx → EReal) (g1 g2 : E2C.Idx → EReal)
    (wr wf ws : R1C.Idx → EReal)
    (hWA : IsJoin WA a8 a10 0 (by omega)) (hWB : IsJoin WB a8 a10 128 (by omega))
    (htA : ∀ n j, tA (ix2 n j) = projWideG (outG a0 a4 a5) WA n j)
    (htB : ∀ n j, tB (ix2 n j) = projWideG (outG a0 a4 a5) WB n j)
    (hg1 : ∀ e j, g1 (ix2 e j) = tA (ix2 (nodeOf a1 1 e) j))
    (hg2 : ∀ e j, g2 (ix2 e j) = tB (ix2 (nodeOf a1 0 e) j))
    (hwr : ∀ k : Fin 128, wr (ix2 0 k) = a6 (ix2 k 0))
    (hwf : ∀ j : Fin 128, wf (ix2 0 j) = a8 (ix2 256 j)) (hws : ∀ j : Fin 128, ws (ix2 0 j) = a10 (ix2 256 j))
    (e : Fin 600000) (j : Fin 128) :
    msgG (g1 (ix2 e ⟨j.val, by omega⟩)) (g2 (ix2 e ⟨j.val, by omega⟩)) (g1 (ix2 e ⟨128 + j.val, by omega⟩))
        (g2 (ix2 e ⟨128 + j.val, by omega⟩)) (edgeG a3 (fun k => wr (ix2 0 k)) (a7 (ix1 0)) e) (wf (ix2 0 j)) (ws (ix2 0 j))
        (a9 (ix1 j)) (a11 (ix1 j))
      = msgW a0 a1 a3 a4 a5 a6 a7 a8 a9 a10 a11 e j := by
  have hw : (fun k : Fin 128 => wr (ix2 0 k)) = fun k => a6 (ix2 k 0) := funext hwr
  unfold msgW
  rw [hg1, hg2, hg1, hg2, htA, htB, htA, htB, hw, hwf, hws,
    projWide_left _ WA a8 a10 0 (by omega) hWA, projWide_left _ WB a8 a10 128 (by omega) hWB,
    projWide_right _ WA a8 a10 0 (by omega) hWA, projWide_right _ WB a8 a10 128 (by omega) hWB]

/-- The route through the four narrow products. -/
theorem narrow_route (v8 v15 v17 v19 v21 : NC.Idx → EReal) (v13 : E1.Idx → EReal) (v23 v25 : EC.Idx → EReal)
    (h8 : ∀ n j, v8 (ix2 n j) = outG a0 a4 a5 n j)
    (h15 : ∀ n j, v15 (ix2 n j) = projG (fun n k => v8 (ix2 n k)) a8 0 (by omega) n j)
    (h17 : ∀ n j, v17 (ix2 n j) = projG (fun n k => v8 (ix2 n k)) a8 128 (by omega) n j)
    (h19 : ∀ n j, v19 (ix2 n j) = projG (fun n k => v8 (ix2 n k)) a10 0 (by omega) n j)
    (h21 : ∀ n j, v21 (ix2 n j) = projG (fun n k => v8 (ix2 n k)) a10 128 (by omega) n j)
    (h13 : ∀ e, v13 (ix2 e 0) = edgeG a3 (fun k => a6 (ix2 k 0)) (a7 (ix1 0)) e)
    (h23 : ∀ e j, v23 (ix2 e j) = v13 (ix2 e 0) * a8 (ix2 256 j))
    (h25 : ∀ e j, v25 (ix2 e j) = v13 (ix2 e 0) * a10 (ix2 256 j))
    (e : Fin 600000) (j : Fin 128) :
    Ideal.logistic (v15 (ix2 (nodeOf a1 1 e) j) + v17 (ix2 (nodeOf a1 0 e) j) + v23 (ix2 e j) + a9 (ix1 j))
        * sp (v19 (ix2 (nodeOf a1 1 e) j) + v21 (ix2 (nodeOf a1 0 e) j) + v25 (ix2 e j) + a11 (ix1 j))
      = msgW a0 a1 a3 a4 a5 a6 a7 a8 a9 a10 a11 e j := by
  have hv : (fun (n : Fin 50000) (k : Fin 128) => v8 (ix2 n k)) = outG a0 a4 a5 := funext fun n => funext fun k => h8 n k
  unfold msgW msgG
  rw [h15, h17, h19, h21, h23, h25, h13, hv]

end Cert.Whole

end
-- ==== Proof.Reg0Value.lean ====
/-
  The first region of the graph layer, read index by index over the extended reals.

  The region walks the 50000 nodes in 25 blocks of 2000 rows. On each block it forms softplus (h · W0 + b0) — a
  [2000,128] by [128,128] product, the bias added to every row, then the stable softplus — and multiplies the result
  by two [128,256] tables. Changes of float format are the identity here, and each product accumulates into zero, so
  an entry of a product is the plain sum over the 128 contraction positions.

  Proved here: each stored value at a row and column of a block; each staged block as rows of the array it is cut
  from; hence what every point writes back is its block of ONE whole-array function; the 25 blocks tile the rows
  (row r is in block r / 2000); so after the region the three result arrays hold the projection and its two wide
  products, entry by entry, as the specification states them.
-/
import proofs.«413223_j3856880632376_1_alg».proof.Proof.Gen.KernelIdeal.Frame
import proofs.«413223_j3856880632376_1_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Reg0

open Cert.KernelIdeal Cert.KernelIdeal.Gen
open Idealize.ShloMosaic Idealize.ShloMosaic.TcCoe Idealize.ShloMosaic.ValueIdx
open Idealize.ShloMosaic.Pipeline (Dat)

/-! ## The softplus the body computes, at one value

The body guards its softplus against a value that differs from itself; over the extended reals no value does, so the
guard is never taken and what is left is the stable form: the positive part plus log (1 + e^(-|x|)). -/

/-- No extended real differs from itself. -/
theorem cmp_one_self (x : EReal) : Ideal.cmp .one x x = 0#1 := by
  simp [Ideal.cmp]

/-- The guarded softplus at a value is the specification's softplus. -/
theorem softplus_guarded (a : EReal) :
    Scalar.select (Ideal.cmp .one (a - 0) (a - 0)) (a + 0) (max a 0 + Ideal.log1p (Ideal.exp (0 - max (a - 0) (-(a - 0)))))
      = Spec.sp a := by
  rw [cmp_one_self, select_zero, sub_zero, zero_sub]
  rfl

/-! ## The matrix products at an index -/

/-- Left operand, row axis: the output's row. -/
theorem lhs_proj_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Left operand, column axis: the contraction position. -/
theorem lhs_proj_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- Right operand, row axis: the contraction position. -/
theorem rhs_proj_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Right operand, column axis: the output's column. -/
theorem rhs_proj_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] block times the [128,128] weights into a zero accumulator, at row p and column q: the sum over the
    128 contraction positions of the row's entry times the column's. -/
theorem matmul_proj_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-- Left operand of the table product, row axis: the output's row. -/
theorem lhs_tab_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- Left operand of the table product, column axis: the contraction position. -/
theorem lhs_tab_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- Right operand of the table product, row axis: the contraction position. -/
theorem rhs_tab_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- Right operand of the table product, column axis: the output's column. -/
theorem rhs_tab_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A [2000,128] block times a [128,256] table into a zero accumulator, at row p and column q. -/
theorem matmul_tab_apply (a : FVec Ideal S2000x128 .bf16) (b : FVec Ideal S128x256 .bf16) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_tab_0 _ _
    | ⟨1, _⟩ => exact (lhs_tab_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_tab_0 _ _).trans hk
    | ⟨1, _⟩ => exact rhs_tab_1 _ _)
  rw [el, er]

/-! ## The body's three stored values at an index -/

/-- The pointwise transcendental and absolute-value operations read at an index. -/
theorem log1p_at {s : Shape} {φ : FTy} (a : FVec Ideal s φ) (i : s.Idx) : log1p a i = Ideal.log1p (a i) := rfl
theorem exp_at {s : Shape} {φ : FTy} (a : FVec Ideal s φ) (i : s.Idx) : exp a i = Ideal.exp (a i) := rfl
theorem absf_at {s : Shape} {φ : FTy} (a : FVec Ideal s φ) (i : s.Idx) : absf a i = max (a i) (-(a i)) := rfl

/-- The bias row, broadcast down the block's rows, at (p, q): the bias at q. -/
theorem bias_apply (x2 : Vec Ideal S128 .f32) (p : Fin 2000) (q : Fin 128) :
    broadcastTo S2000x128 (shapeCast S1x128 x2 shapeCasts_S128_S1x128) broadcasts_S1x128_S2000x128 (ix2 p q) = x2 (ix1 q) :=
  (broadcastTo_1b_ab_apply _ _ p q).trans (shapeCast_a_1a_apply x2 _ 0 q)

/-- The first stored value at row p and column q of a block: softplus of the block's row p times the weights' column q,
    plus the bias at q. -/
theorem pay1_apply (x0 : Vec Ideal S2000x128 .f32) (x1 : Vec Ideal S128x128 .f32) (x2 : Vec Ideal S128 .f32)
    (p : Fin 2000) (q : Fin 128) :
    k0_pay1 x0 x1 x2 (ix2 p q) = Spec.sp ((∑ k : Fin 128, x0 (ix2 p k) * x1 (ix2 k q)) + x2 (ix1 q)) := by
  unfold k0_pay1
  simp only [select_apply, cmpf_apply, addf_apply, subf_apply, maximumf_apply, broadcast_apply, log1p_at, exp_at, absf_at]
  rw [matmul_proj_apply, bias_apply]
  simp only [truncf_apply, Ideal.ofBits_def, Ideal.ofBits_zero_f32]
  exact softplus_guarded _

/-- The second stored value at row p and column q: the first stored value's row p times the first table's column q. -/
theorem pay3_apply (x0 : Vec Ideal S2000x128 .f32) (x1 : Vec Ideal S128x128 .f32) (x2 : Vec Ideal S128 .f32)
    (x3 : Vec Ideal S128x256 .f32) (p : Fin 2000) (q : Fin 256) :
    k0_pay3 x0 x1 x2 x3 (ix2 p q)
      = ∑ k : Fin 128, Spec.sp ((∑ l : Fin 128, x0 (ix2 p l) * x1 (ix2 l k)) + x2 (ix1 k)) * x3 (ix2 k q) := by
  unfold k0_pay3 k0_pay2
  rw [matmul_tab_apply]
  refine Finset.sum_congr rfl fun k _ => ?_
  rw [truncf_apply, truncf_apply, pay1_apply, shapeCast_self]

/-- The third stored value at row p and column q: the same with the second table. -/
theorem pay4_apply (x0 : Vec Ideal S2000x128 .f32) (x1 : Vec Ideal S128x128 .f32) (x2 : Vec Ideal S128 .f32)
    (x4 : Vec Ideal S128x256 .f32) (p : Fin 2000) (q : Fin 256) :
    k0_pay4 x0 x1 x2 x4 (ix2 p q)
      = ∑ k : Fin 128, Spec.sp ((∑ l : Fin 128, x0 (ix2 p l) * x1 (ix2 l k)) + x2 (ix1 k)) * x4 (ix2 k q) := by
  unfold k0_pay4 k0_pay2
  rw [matmul_tab_apply]
  refine Finset.sum_congr rfl fun k _ => ?_
  rw [truncf_apply, truncf_apply, pay1_apply, shapeCast_self]

/-! ## From blocks to arrays

Point t of the grid stages rows 2000·t … 2000·t + 1999 of the node features and of each of the three results, and the
whole of the weights, the bias and the two tables. -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The block indices of the eight windows at every point of the grid: the row-blocked windows are at block (t, 0), the
    whole-array windows at block zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- A point's number is below 25. -/
theorem point_lt (t : Fin cfg0.N) : t.val < 25 := lt_of_lt_of_eq t.isLt N_0

/-- Row p of point t's blocks is row 2000·t + p of the arrays. -/
def row (t : Fin cfg0.N) (p : Fin 2000) : Fin 50000 := ⟨t.val * 2000 + p.val, by have := point_lt t; omega⟩

/-- The five input blocks at point t, each at its literal type. -/
abbrev featBlk (c : Dev nD) (t : Fin cfg0.N) : Vec Ideal S2000x128 .f32 := iblk0 (F := Ideal) V c 0 t
abbrev w0Blk (c : Dev nD) (t : Fin cfg0.N) : Vec Ideal S128x128 .f32 := iblk0 (F := Ideal) V c 1 t
abbrev b0Blk (c : Dev nD) (t : Fin cfg0.N) : Vec Ideal S128 .f32 := iblk0 (F := Ideal) V c 2 t
abbrev taBlk (c : Dev nD) (t : Fin cfg0.N) : Vec Ideal S128x256 .f32 := iblk0 (F := Ideal) V c 3 t
abbrev tbBlk (c : Dev nD) (t : Fin cfg0.N) : Vec Ideal S128x256 .f32 := iblk0 (F := Ideal) V c 4 t

/-- The five arrays the region reads, each at its literal type. -/
abbrev featArr (c : Dev nD) : Spec.NC.Idx → EReal := V c (Pipeline.arrRef spec0 0)
abbrev w0Arr (c : Dev nD) : Spec.CC.Idx → EReal := V c (Pipeline.arrRef spec0 1)
abbrev b0Arr (c : Dev nD) : Spec.Cv.Idx → EReal := V c (Pipeline.arrRef spec0 2)
abbrev taArr (c : Dev nD) : Spec.C2C.Idx → EReal := V c (Pipeline.arrRef spec0 3)
abbrev tbArr (c : Dev nD) : Spec.C2C.Idx → EReal := V c (Pipeline.arrRef spec0 4)

/-- The node features' block at point t, row p: row 2000·t + p of the array. -/
theorem blk_feat (c : Dev nD) (t : Fin cfg0.N) (p : Fin 2000) (k : Fin 128) :
    featBlk V c t (ix2 p k) = featArr V c (ix2 (row t p) k) := by
  obtain ⟨e0, e1, -⟩ := block_indices t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The weights' block at any point is the weights. -/
theorem blk_w0 (c : Dev nD) (t : Fin cfg0.N) (k : Fin 128) (q : Fin 128) :
    w0Blk V c t (ix2 k q) = w0Arr V c (ix2 k q) := by
  obtain ⟨-, -, e0, e1, -⟩ := block_indices t
  show V c (Pipeline.arrRef spec0 1) (((cfg0.win 1).blk t).view.emb (ix2 k q)) = _
  refine congrArg (V c (Pipeline.arrRef spec0 1)) (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias's block at any point is the bias. -/
theorem blk_b0 (c : Dev nD) (t : Fin cfg0.N) (q : Fin 128) :
    b0Blk V c t (ix1 q) = b0Arr V c (ix1 q) := by
  obtain ⟨-, -, -, -, e0, -⟩ := block_indices t
  show V c (Pipeline.arrRef spec0 2) (((cfg0.win 2).blk t).view.emb (ix1 q)) = _
  refine congrArg (V c (Pipeline.arrRef spec0 2)) (funext fun a => Fin.ext ?_)
  match a with
  | ⟨0, _⟩ => show win0_2.index t (0 : Fin 1) * 128 + 1 * q.val = q.val; rw [e0]; omega

/-- The first table's block at any point is the table. -/
theorem blk_ta (c : Dev nD) (t : Fin cfg0.N) (k : Fin 128) (q : Fin 256) :
    taBlk V c t (ix2 k q) = taArr V c (ix2 k q) := by
  obtain ⟨-, -, -, -, -, e0, e1, -⟩ := block_indices t
  show V c (Pipeline.arrRef spec0 3) (((cfg0.win 3).blk t).view.emb (ix2 k q)) = _
  refine congrArg (V c (Pipeline.arrRef spec0 3)) (funext fun a => Fin.ext ?_)
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- The second table's block at any point is the table. -/
theorem blk_tb (c : Dev nD) (t : Fin cfg0.N) (k : Fin 128) (q : Fin 256) :
    tbBlk V c t (ix2 k q) = tbArr V c (ix2 k q) := by
  obtain ⟨-, -, -, -, -, -, -, e0, e1, -⟩ := block_indices t
  show V c (Pipeline.arrRef spec0 4) (((cfg0.win 4).blk t).view.emb (ix2 k q)) = _
  refine congrArg (V c (Pipeline.arrRef spec0 4)) (funext fun a => Fin.ext ?_)
  match a with
  | ⟨0, _⟩ => show win0_4.index t (0 : Fin 2) * 128 + 1 * k.val = k.val; rw [e0]; omega
  | ⟨1, _⟩ => show win0_4.index t (1 : Fin 2) * 256 + 1 * q.val = q.val; rw [e1]; omega

/-- The projected node features, as a whole array over the region's entry contents. -/
abbrev outArr (c : Dev nD) : Spec.NC.Idx → EReal := fun i =>
  Spec.outG (featArr V c) (w0Arr V c) (b0Arr V c) (i 0) (i 1)

/-- The first table of per-node products, as a whole array. -/
abbrev tabAArr (c : Dev nD) : Spec.N2C.Idx → EReal := fun i =>
  Spec.projWideG (Spec.outG (featArr V c) (w0Arr V c) (b0Arr V c)) (taArr V c) (i 0) (i 1)

/-- The second table of per-node products, as a whole array. -/
abbrev tabBArr (c : Dev nD) : Spec.N2C.Idx → EReal := fun i =>
  Spec.projWideG (Spec.outG (featArr V c) (w0Arr V c) (b0Arr V c)) (tbArr V c) (i 0) (i 1)

/-- Softplus of a block row times a weight column plus the bias is the projection's entry at the array's row. -/
theorem proj_entry (c : Dev nD) (t : Fin cfg0.N) (p : Fin 2000) (q : Fin 128) :
    Spec.sp ((∑ k : Fin 128, featBlk V c t (ix2 p k) * w0Blk V c t (ix2 k q)) + b0Blk V c t (ix1 q))
      = Spec.outG (featArr V c) (w0Arr V c) (b0Arr V c) (row t p) q := by
  unfold Spec.outG
  refine congrArg Spec.sp (congrArg₂ (· + ·) (Finset.sum_congr rfl fun k _ => ?_) (blk_b0 V c t q))
  exact congrArg₂ (· * ·) (blk_feat V c t p k) (blk_w0 V c t k q)

/-- What point t writes back through the first result's window is block t of the projected node features. -/
theorem flushed_out (c : Dev nD) (t : Fin cfg0.N) :
    (dat0 (F := Ideal) V c).flushed 5 t = ((cfg0.win 5).blk t).view.read (Elt Ideal) (outArr V c) := by
  show (cfg0.win 5).cut (grid0.coords t) ((dat0 (F := Ideal) V c).after 5 t) = _
  rw [after0_5]
  unfold out0_5
  rw [View.canon_unit_zero zeros2]
  simp only [View.ld_unit_zero (S := S2000x128) zeros2, View.ld_unit_zero (S := S128x128) zeros2, View.ld_unit_zero (S := S128) zeros1]
  funext j
  obtain ⟨p, q, rfl⟩ : ∃ (p : Fin 2000) (q : Fin 128), j = ix2 p q := ⟨j 0, j 1, eq_ix2 (n0 := 2000) (n1 := 128) j⟩
  obtain ⟨-, -, -, -, -, -, -, -, -, e0, e1, -⟩ := block_indices t
  have hemb : ((cfg0.win 5).blk t).view.emb (ix2 p q) = (ix2 (row t p) q : Spec.NC.Idx) := funext fun a => Fin.ext (by
    match a with
    | ⟨0, _⟩ => show win0_5.index t (0 : Fin 2) * 2000 + 1 * p.val = t.val * 2000 + p.val; rw [e0]; omega
    | ⟨1, _⟩ => show win0_5.index t (1 : Fin 2) * 128 + 1 * q.val = q.val; rw [e1]; omega)
  show k0_pay1 (featBlk V c t) (w0Blk V c t) (b0Blk V c t) (ix2 p q) = outArr V c (((cfg0.win 5).blk t).view.emb (ix2 p q))
  refine (pay1_apply (featBlk V c t) (w0Blk V c t) (b0Blk V c t) p q).trans ?_
  refine (proj_entry V c t p q).trans ?_
  exact (congrArg (outArr V c) hemb).symm

/-- A block row of the projection times a table column is the wide product's entry at the array's row. -/
theorem tabA_entry (c : Dev nD) (t : Fin cfg0.N) (p : Fin 2000) (q : Fin 256) :
    (∑ k : Fin 128, Spec.sp ((∑ l : Fin 128, featBlk V c t (ix2 p l) * w0Blk V c t (ix2 l k)) + b0Blk V c t (ix1 k))
        * taBlk V c t (ix2 k q))
      = Spec.projWideG (Spec.outG (featArr V c) (w0Arr V c) (b0Arr V c)) (taArr V c) (row t p) q := by
  unfold Spec.projWideG
  refine Finset.sum_congr rfl fun k _ => ?_
  exact congrArg₂ (· * ·) (proj_entry V c t p k) (blk_ta V c t k q)

/-- The same for the second table. -/
theorem tabB_entry (c : Dev nD) (t : Fin cfg0.N) (p : Fin 2000) (q : Fin 256) :
    (∑ k : Fin 128, Spec.sp ((∑ l : Fin 128, featBlk V c t (ix2 p l) * w0Blk V c t (ix2 l k)) + b0Blk V c t (ix1 k))
        * tbBlk V c t (ix2 k q))
      = Spec.projWideG (Spec.outG (featArr V c) (w0Arr V c) (b0Arr V c)) (tbArr V c) (row t p) q := by
  unfold Spec.projWideG
  refine Finset.sum_congr rfl fun k _ => ?_
  exact congrArg₂ (· * ·) (proj_entry V c t p k) (blk_tb V c t k q)

/-- What point t writes back through the second result's window is block t of the first table of products. -/
theorem flushed_tabA (c : Dev nD) (t : Fin cfg0.N) :
    (dat0 (F := Ideal) V c).flushed 6 t = ((cfg0.win 6).blk t).view.read (Elt Ideal) (tabAArr V c) := by
  show (cfg0.win 6).cut (grid0.coords t) ((dat0 (F := Ideal) V c).after 6 t) = _
  rw [after0_6]
  unfold out0_6
  rw [View.canon_unit_zero zeros2]
  simp only [View.ld_unit_zero (S := S2000x128) zeros2, View.ld_unit_zero (S := S128x128) zeros2, View.ld_unit_zero (S := S128) zeros1,
    View.ld_unit_zero (S := S128x256) zeros2]
  funext j
  obtain ⟨p, q, rfl⟩ : ∃ (p : Fin 2000) (q : Fin 256), j = ix2 p q := ⟨j 0, j 1, eq_ix2 (n0 := 2000) (n1 := 256) j⟩
  obtain ⟨-, -, -, -, -, -, -, -, -, -, -, e0, e1, -⟩ := block_indices t
  have hemb : ((cfg0.win 6).blk t).view.emb (ix2 p q) = (ix2 (row t p) q : Spec.N2C.Idx) := funext fun a => Fin.ext (by
    match a with
    | ⟨0, _⟩ => show win0_6.index t (0 : Fin 2) * 2000 + 1 * p.val = t.val * 2000 + p.val; rw [e0]; omega
    | ⟨1, _⟩ => show win0_6.index t (1 : Fin 2) * 256 + 1 * q.val = q.val; rw [e1]; omega)
  show k0_pay3 (featBlk V c t) (w0Blk V c t) (b0Blk V c t) (taBlk V c t) (ix2 p q) = tabAArr V c (((cfg0.win 6).blk t).view.emb (ix2 p q))
  refine (pay3_apply (featBlk V c t) (w0Blk V c t) (b0Blk V c t) (taBlk V c t) p q).trans ?_
  refine (tabA_entry V c t p q).trans ?_
  exact (congrArg (tabAArr V c) hemb).symm

/-- What point t writes back through the third result's window is block t of the second table of products. -/
theorem flushed_tabB (c : Dev nD) (t : Fin cfg0.N) :
    (dat0 (F := Ideal) V c).flushed 7 t = ((cfg0.win 7).blk t).view.read (Elt Ideal) (tabBArr V c) := by
  show (cfg0.win 7).cut (grid0.coords t) ((dat0 (F := Ideal) V c).after 7 t) = _
  rw [after0_7]
  unfold out0_7
  rw [View.canon_unit_zero zeros2]
  simp only [View.ld_unit_zero (S := S2000x128) zeros2, View.ld_unit_zero (S := S128x128) zeros2, View.ld_unit_zero (S := S128) zeros1,
    View.ld_unit_zero (S := S128x256) zeros2]
  funext j
  obtain ⟨p, q, rfl⟩ : ∃ (p : Fin 2000) (q : Fin 256), j = ix2 p q := ⟨j 0, j 1, eq_ix2 (n0 := 2000) (n1 := 256) j⟩
  obtain ⟨-, -, -, -, -, -, -, -, -, -, -, -, -, e0, e1⟩ := block_indices t
  have hemb : ((cfg0.win 7).blk t).view.emb (ix2 p q) = (ix2 (row t p) q : Spec.N2C.Idx) := funext fun a => Fin.ext (by
    match a with
    | ⟨0, _⟩ => show win0_7.index t (0 : Fin 2) * 2000 + 1 * p.val = t.val * 2000 + p.val; rw [e0]; omega
    | ⟨1, _⟩ => show win0_7.index t (1 : Fin 2) * 256 + 1 * q.val = q.val; rw [e1]; omega)
  show k0_pay4 (featBlk V c t) (w0Blk V c t) (b0Blk V c t) (tbBlk V c t) (ix2 p q) = tabBArr V c (((cfg0.win 7).blk t).view.emb (ix2 p q))
  refine (pay4_apply (featBlk V c t) (w0Blk V c t) (b0Blk V c t) (tbBlk V c t) p q).trans ?_
  refine (tabB_entry V c t p q).trans ?_
  exact (congrArg (tabBArr V c) hemb).symm

/-! ## The blocks cover the arrays: row r lies in the block of point r / 2000 -/

/-- An index of the first result is in point t's block iff each coordinate is in the block's range on its axis. -/
theorem mem_blk_out (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v13_0).slice (win0_5.rect t)).set ↔ _
  rw [View.set_slice_whole, Rect.mem_set_unit]
  exact Iff.rfl

theorem mem_blk_tabA (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v13_1).slice (win0_6.rect t)).set ↔ _
  rw [View.set_slice_whole, Rect.mem_set_unit]
  exact Iff.rfl

theorem mem_blk_tabB (t : Fin cfg0.N) (i : S50000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v13_2).slice (win0_7.rect t)).set ↔ _
  rw [View.set_slice_whole, Rect.mem_set_unit]
  exact Iff.rfl

/-- The point whose blocks hold row r. -/
def pointOf (r : Nat) (hr : r < 50000) : Fin cfg0.N := ⟨r / 2000, by rw [show cfg0.N = 25 from N_0]; omega⟩

theorem pointOf_val (r : Nat) (hr : r < 50000) : (pointOf r hr).val = r / 2000 := rfl

theorem cover_out (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨-, -, -, -, -, -, -, -, -, e0, e1, -⟩ := block_indices (pointOf (i 0).val hi0)
  rw [pointOf_val] at e0
  refine ⟨pointOf (i 0).val hi0, flush0_5 _, ?_⟩
  rw [mem_blk_out]
  intro a
  match a with
  | ⟨0, _⟩ => show win0_5.index (pointOf (i 0).val hi0) (0 : Fin 2) * 2000 ≤ (i 0).val ∧ (i 0).val < win0_5.index (pointOf (i 0).val hi0) (0 : Fin 2) * 2000 + 2000; rw [e0]; omega
  | ⟨1, _⟩ => show win0_5.index (pointOf (i 0).val hi0) (1 : Fin 2) * 128 ≤ (i 1).val ∧ (i 1).val < win0_5.index (pointOf (i 0).val hi0) (1 : Fin 2) * 128 + 128; rw [e1]; omega

theorem cover_tabA (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  obtain ⟨-, -, -, -, -, -, -, -, -, -, -, e0, e1, -⟩ := block_indices (pointOf (i 0).val hi0)
  rw [pointOf_val] at e0
  refine ⟨pointOf (i 0).val hi0, flush0_6 _, ?_⟩
  rw [mem_blk_tabA]
  intro a
  match a with
  | ⟨0, _⟩ => show win0_6.index (pointOf (i 0).val hi0) (0 : Fin 2) * 2000 ≤ (i 0).val ∧ (i 0).val < win0_6.index (pointOf (i 0).val hi0) (0 : Fin 2) * 2000 + 2000; rw [e0]; omega
  | ⟨1, _⟩ => show win0_6.index (pointOf (i 0).val hi0) (1 : Fin 2) * 256 ≤ (i 1).val ∧ (i 1).val < win0_6.index (pointOf (i 0).val hi0) (1 : Fin 2) * 256 + 256; rw [e1]; omega

theorem cover_tabB (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  obtain ⟨-, -, -, -, -, -, -, -, -, -, -, -, -, e0, e1⟩ := block_indices (pointOf (i 0).val hi0)
  rw [pointOf_val] at e0
  refine ⟨pointOf (i 0).val hi0, flush0_7 _, ?_⟩
  rw [mem_blk_tabB]
  intro a
  match a with
  | ⟨0, _⟩ => show win0_7.index (pointOf (i 0).val hi0) (0 : Fin 2) * 2000 ≤ (i 0).val ∧ (i 0).val < win0_7.index (pointOf (i 0).val hi0) (0 : Fin 2) * 2000 + 2000; rw [e0]; omega
  | ⟨1, _⟩ => show win0_7.index (pointOf (i 0).val hi0) (1 : Fin 2) * 256 ≤ (i 1).val ∧ (i 1).val < win0_7.index (pointOf (i 0).val hi0) (1 : Fin 2) * 256 + 256; rw [e1]; omega

/-! ## The three result arrays after the region -/

/-- The first result array ends holding the projected node features. -/
theorem out_arr (c : Dev nD) : (dat0 (F := Ideal) V c).arrAt 5 cfg0.N = outArr V c :=
  (dat0 (F := Ideal) V c).arrAt_eq_of_cover 5 (outArr V c) (fun t _ => flushed_out V c t) cover_out

/-- The second result array ends holding the first table of products. -/
theorem tabA_arr (c : Dev nD) : (dat0 (F := Ideal) V c).arrAt 6 cfg0.N = tabAArr V c :=
  (dat0 (F := Ideal) V c).arrAt_eq_of_cover 6 (tabAArr V c) (fun t _ => flushed_tabA V c t) cover_tabA

/-- The third result array ends holding the second table of products. -/
theorem tabB_arr (c : Dev nD) : (dat0 (F := Ideal) V c).arrAt 7 cfg0.N = tabBArr V c :=
  (dat0 (F := Ideal) V c).arrAt_eq_of_cover 7 (tabBArr V c) (fun t _ => flushed_tabB V c t) cover_tabB

/-- Entry (n, j) of the first result: the projected node features. -/
theorem out_at (c : Dev nD) (n : Fin 50000) (j : Fin 128) :
    ((dat0 (F := Ideal) V c).arrAt 5 cfg0.N : Spec.NC.Idx → EReal) (ix2 n j)
      = Spec.outG (V c (Pipeline.arrRef spec0 0)) (V c (Pipeline.arrRef spec0 1)) (V c (Pipeline.arrRef spec0 2)) n j :=
  congrFun (out_arr V c) (ix2 n j)

/-- Entry (n, j) of the second result: row n of the projection times column j of the first table. -/
theorem tableA_at (c : Dev nD) (n : Fin 50000) (j : Fin 256) :
    ((dat0 (F := Ideal) V c).arrAt 6 cfg0.N : Spec.N2C.Idx → EReal) (ix2 n j)
      = Spec.projWideG (Spec.outG (V c (Pipeline.arrRef spec0 0)) (V c (Pipeline.arrRef spec0 1)) (V c (Pipeline.arrRef spec0 2)))
          (V c (Pipeline.arrRef spec0 3)) n j :=
  congrFun (tabA_arr V c) (ix2 n j)

/-- Entry (n, j) of the third result: row n of the projection times column j of the second table. -/
theorem tableB_at (c : Dev nD) (n : Fin 50000) (j : Fin 256) :
    ((dat0 (F := Ideal) V c).arrAt 7 cfg0.N : Spec.N2C.Idx → EReal) (ix2 n j)
      = Spec.projWideG (Spec.outG (V c (Pipeline.arrRef spec0 0)) (V c (Pipeline.arrRef spec0 1)) (V c (Pipeline.arrRef spec0 2)))
          (V c (Pipeline.arrRef spec0 4)) n j :=
  congrFun (tabB_arr V c) (ix2 n j)

end Cert.KernelIdeal.Reg0

end
-- ==== Proof.Reg1Value.lean ====
/-
  Region 1: the per-edge message.

  Each grid point t handles the 2000 edges 2000·t … 2000·t + 1999.  For an edge e of the block the body first forms the
  edge scalar s = softplus (Σ_k ea[e,k] · wsh[k] + bsh), then, lane by lane (j < 128),
      gate = g1[e,j] + g2[e,j] + s · wf[j] + bf[j],        core = g1[e,128+j] + g2[e,128+j] + s · ws[j] + bs[j],
  and stores sigmoid(gate) · softplus(core).  The softplus is the guarded stable form
  max x 0 + log1p (exp (−|x|)); its guard compares a value with itself and never fires on the extended reals.

  The module reads the stored value at one entry of a block (a function of the nine loaded blocks), then reads every
  loaded block as the matching rows of its array, and finally glues the 300 row blocks into the whole [600000,128]
  array: entry (e, j) of the array after the region is Spec.msgG of the entries named above.
-/
import proofs.«413223_j3856880632376_1_alg».proof.Proof.Gen.KernelIdeal.Frame
import proofs.«413223_j3856880632376_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reg1

open Cert.KernelIdeal Cert.KernelIdeal.Gen

/-! ## Offsets spelt as vectors of zeros -/

theorem hz2 : (![0, 0] : Fin 2 → Nat) = fun _ => 0 := funext fun a => by fin_cases a <;> rfl
theorem hz1 : (![0] : Fin 1 → Nat) = fun _ => 0 := funext fun a => by fin_cases a <;> rfl

/-! ## The guarded softplus, entry by entry -/

/-- The stable softplus as the body spells it — a select on "x − 0 ≠ x − 0" between x + 0 and
    max x 0 + log1p (exp (0 − |x − 0|)) — is Spec.sp at every entry: no extended real differs from itself, so the
    select takes its second branch, and subtracting zero changes nothing. -/
theorem softplus_at {s : Shape} (x : FVec Ideal s .f32) (i : s.Idx) :
    select (cmpf .one (subf x (broadcast s (Scalar.ofBits .f32 0x00000000#32))) (subf x (broadcast s (Scalar.ofBits .f32 0x00000000#32))))
      (addf x (broadcast s (Scalar.ofBits .f32 0x00000000#32)))
      (addf (maximumf x (broadcast s (Scalar.ofBits .f32 0x00000000#32)))
        (log1p (exp (subf (broadcast s (Scalar.ofBits .f32 0x00000000#32)) (absf (subf x (broadcast s (Scalar.ofBits .f32 0x00000000#32)))))))) i
      = Spec.sp (x i) := by
  show Scalar.select (Ideal.cmp .one (x i - Ideal.ofBits .f32 0x00000000#32) (x i - Ideal.ofBits .f32 0x00000000#32))
      (x i + Ideal.ofBits .f32 0x00000000#32)
      (max (x i) (Ideal.ofBits .f32 0x00000000#32) + Ideal.log1p (Ideal.exp (Ideal.ofBits .f32 0x00000000#32 - max (x i - Ideal.ofBits .f32 0x00000000#32) (-(x i - Ideal.ofBits .f32 0x00000000#32))))) = _
  rw [Ideal.ofBits_zero_f32, sub_zero, zero_sub]
  have h : Ideal.cmp .one (x i) (x i) = 0#1 := by simp [Ideal.cmp]
  rw [h, select_zero]
  rfl

/-! ## Columns: a vector as a one-column matrix, and a column spread over the lanes -/

section Layout
variable {α : Type}

/-- A length-a vector cast to [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The lane sum of a [2000, 128] block at row p is the sum over the 128 lanes of that row. -/
theorem rowsum_at (v : FVec Ideal S2000x128 .f32) (h : S2000x128.Reduces [1] S2000) (hφ : FKind.Formats .f32)
    (hacc : (0x00000000#32 : BitVec 32) = FKind.add.neutral .f32 hφ) (p : Fin 2000) :
    multiReduction .add [1] S2000 v 0x00000000#32 h hφ hacc (ix1 p) = ∑ k : Fin 128, v (ix2 p k) := by
  refine (Ideal.multiReduction_add_single v 0x00000000#32 h hφ hacc (ix1 p)).trans ?_
  show ∑ k : Fin 128, v (h.lift (ix1 p) k) = _
  refine Finset.sum_congr rfl fun k _ => congrArg v (funext fun a => Fin.ext ?_)
  match a with
  | ⟨0, _⟩ => rfl
  | ⟨1, _⟩ => rfl

/-! ## The body's values at one entry -/

/-- The edge scalar of row p: softplus of the row of edge attributes times the weight row, plus the bias. -/
theorem edge_scalar_at (v0 : Vec Ideal S2000x128 .f32) (v1 : Vec Ideal S1x128 .f32) (v7 : Vec Ideal S1 .f32) (p : Fin 2000) :
    k1_pay2 (F := Ideal) v0 v1 v7 (ix2 p (0 : Fin 1))
      = Spec.sp ((∑ k : Fin 128, v0 (ix2 p k) * v1 (ix2 (0 : Fin 1) k)) + v7 (ix1 (0 : Fin 1))) := by
  unfold k1_pay2
  refine (softplus_at _ _).trans (congrArg Spec.sp ?_)
  rw [addf_apply]
  refine congrArg₂ (· + ·) ?_ ?_
  · refine (shapeCast_a_a1_apply _ _ p (0 : Fin 1)).trans ?_
    refine (rowsum_at _ _ _ _ p).trans ?_
    refine Finset.sum_congr rfl fun k _ => ?_
    rw [mulf_apply]
    refine congrArg (v0 (ix2 p k) * ·) ?_
    refine (broadcastTo_1b_ab_apply _ _ p k).trans ?_
    rw [shapeCast_self]
  · refine (broadcastTo_1b_ab_apply _ _ p (0 : Fin 1)).trans ?_
    exact shapeCast_a_1a_apply v7 _ (0 : Fin 1) (0 : Fin 1)

/-- The edge scalar times a weight row, at (p, q): the scalar of row p times the weight of lane q. -/
theorem scaled_row_at (v0 : Vec Ideal S2000x128 .f32) (v1 : Vec Ideal S1x128 .f32) (v7 : Vec Ideal S1 .f32)
    (v30 : Vec Ideal S1x128 .f32) (p : Fin 2000) (q : Fin 128) :
    k1_pay3 (F := Ideal) v0 v1 v7 v30 (ix2 p q) = k1_pay2 (F := Ideal) v0 v1 v7 (ix2 p (0 : Fin 1)) * v30 (ix2 (0 : Fin 1) q) := by
  unfold k1_pay3
  rw [mulf_apply]
  refine congrArg₂ (· * ·) ?_ ?_
  · exact broadcastTo_a1_ab_apply _ _ p q
  · refine (broadcastTo_1b_ab_apply _ _ p q).trans ?_
    rw [shapeCast_self]

/-- The gate's linear term without its bias, at (p, q): the two gathered rows' lanes q, plus the scaled weight. -/
theorem gate_lin_at (v0 : Vec Ideal S2000x128 .f32) (v1 : Vec Ideal S1x128 .f32) (v7 : Vec Ideal S1 .f32)
    (v25 : Vec Ideal S1x128 .f32) (v35 v37 : Vec Ideal S2000x256 .f32) (p : Fin 2000) (q : Fin 128) :
    k1_pay6 (F := Ideal) v0 v1 v7 v25 v35 v37 (ix2 p q)
      = v35 (ix2 p ⟨q.val, by omega⟩) + v37 (ix2 p ⟨q.val, by omega⟩)
        + k1_pay2 (F := Ideal) v0 v1 v7 (ix2 p (0 : Fin 1)) * v25 (ix2 (0 : Fin 1) q) := by
  unfold k1_pay6 k1_pay4 k1_pay5
  rw [addf_apply, addf_apply, mulf_apply]
  refine congrArg₂ (· + ·) (congrArg₂ (· + ·) ?_ ?_) (congrArg₂ (· * ·) ?_ ?_)
  · refine (slice2_axis1_apply 0 _ _ p q ⟨q.val, by omega⟩ (by simp)).trans ?_
    rw [shapeCast_self]
  · refine (slice2_axis1_apply 0 _ _ p q ⟨q.val, by omega⟩ (by simp)).trans ?_
    rw [shapeCast_self]
  · exact broadcastTo_a1_ab_apply _ _ p q
  · refine (broadcastTo_1b_ab_apply _ _ p q).trans ?_
    rw [shapeCast_self]

/-- The stored value at (p, q): sigmoid of the gate's linear term plus its bias, times softplus of the core's linear
    term (lanes 128 + q of the gathered rows, the scaled weight, the bias). -/
theorem message_at (v34 : FVec Ideal S2000x128 .f32) (v36 v38 : FVec Ideal S2000x256 .f32) (v42 : FVec Ideal S2000x128 .f32)
    (v43 v51 : Vec Ideal S128 .f32) (p : Fin 2000) (q : Fin 128) :
    k1_pay1 (F := Ideal) v34 v36 v38 v42 v43 v51 (ix2 p q)
      = Ideal.logistic (v42 (ix2 p q) + v43 (ix1 q))
        * Spec.sp (v36 (ix2 p ⟨128 + q.val, by omega⟩) + v38 (ix2 p ⟨128 + q.val, by omega⟩) + v34 (ix2 p q) + v51 (ix1 q)) := by
  unfold k1_pay1
  rw [mulf_apply]
  refine congrArg₂ (· * ·) ?_ ?_
  · show Ideal.logistic _ = _
    refine congrArg Ideal.logistic ?_
    rw [addf_apply]
    refine congrArg (v42 (ix2 p q) + ·) ?_
    refine (broadcastTo_1b_ab_apply _ _ p q).trans ?_
    exact shapeCast_a_1a_apply v43 _ (0 : Fin 1) q
  · refine (softplus_at _ _).trans (congrArg Spec.sp ?_)
    rw [addf_apply, addf_apply, addf_apply]
    refine congrArg₂ (· + ·) (congrArg₂ (· + ·) (congrArg₂ (· + ·) ?_ ?_) rfl) ?_
    · exact slice2_axis1_apply 128 _ _ p q ⟨128 + q.val, by omega⟩ rfl
    · exact slice2_axis1_apply 128 _ _ p q ⟨128 + q.val, by omega⟩ rfl
    · refine (broadcastTo_1b_ab_apply _ _ p q).trans ?_
      exact shapeCast_a_1a_apply v51 _ (0 : Fin 1) q

/-- What the body leaves in the output block at (p, q), as a function of the nine loaded blocks. -/
theorem block_at (x0 : Vec Ideal S2000x128 .f32) (x1 : Vec Ideal S1x128 .f32) (x2 : Vec Ideal S1 .f32)
    (x3 x4 : Vec Ideal S2000x256 .f32) (x5 x6 : Vec Ideal S1x128 .f32) (x7 x8 : Vec Ideal S128 .f32)
    (p : Fin 2000) (q : Fin 128) :
    out1_9 (F := Ideal) x0 x1 x2 x3 x4 x5 x6 x7 x8 (ix2 p q)
      = Spec.msgG (x3 (ix2 p ⟨q.val, by omega⟩)) (x4 (ix2 p ⟨q.val, by omega⟩))
          (x3 (ix2 p ⟨128 + q.val, by omega⟩)) (x4 (ix2 p ⟨128 + q.val, by omega⟩))
          (Spec.sp ((∑ k : Fin 128, x0 (ix2 p k) * x1 (ix2 (0 : Fin 1) k)) + x2 (ix1 (0 : Fin 1))))
          (x5 (ix2 (0 : Fin 1) q)) (x6 (ix2 (0 : Fin 1) q)) (x7 (ix1 q)) (x8 (ix1 q)) := by
  unfold out1_9
  rw [View.canon_unit_zero hz2]
  simp only [View.ld_unit_zero (S := S2000x128) hz2, View.ld_unit_zero (S := S1x128) hz2, View.ld_unit_zero (S := S1) hz1,
    View.ld_unit_zero (S := S2000x256) hz2, View.ld_unit_zero (S := S128) hz1]
  rw [message_at, gate_lin_at, scaled_row_at, edge_scalar_at]
  unfold k1_pay4 k1_pay5
  rw [shapeCast_self, shapeCast_self]
  rfl

/-! ## The whole array's entries -/

/-- Entry (e, j) of the message array as a function of the nine arrays the region reads. -/
def msgOf (ea : Spec.EC.Idx → EReal) (wr : Spec.R1C.Idx → EReal) (bsh : Spec.V1.Idx → EReal) (g1 g2 : Spec.E2C.Idx → EReal)
    (wf ws : Spec.R1C.Idx → EReal) (bf bs : Spec.Cv.Idx → EReal) (e : Fin 600000) (j : Fin 128) : EReal :=
  Spec.msgG (g1 (ix2 e ⟨j.val, by omega⟩)) (g2 (ix2 e ⟨j.val, by omega⟩))
    (g1 (ix2 e ⟨128 + j.val, by omega⟩)) (g2 (ix2 e ⟨128 + j.val, by omega⟩))
    (Spec.edgeG ea (fun k => wr (ix2 (0 : Fin 1) k)) (bsh (ix1 (0 : Fin 1))) e)
    (wf (ix2 (0 : Fin 1) j)) (ws (ix2 (0 : Fin 1) j)) (bf (ix1 j)) (bs (ix1 j))

/-- The message array: `msgOf` at the two coordinates of each index. -/
def msgArrOf (ea : Spec.EC.Idx → EReal) (wr : Spec.R1C.Idx → EReal) (bsh : Spec.V1.Idx → EReal) (g1 g2 : Spec.E2C.Idx → EReal)
    (wf ws : Spec.R1C.Idx → EReal) (bf bs : Spec.Cv.Idx → EReal) : Spec.EC.Idx → EReal :=
  fun i => msgOf ea wr bsh g1 g2 wf ws bf bs ⟨(i 0).val, idx2_lt0 i⟩ ⟨(i 1).val, idx2_lt1 i⟩

theorem msgArrOf_ix2 (ea : Spec.EC.Idx → EReal) (wr : Spec.R1C.Idx → EReal) (bsh : Spec.V1.Idx → EReal) (g1 g2 : Spec.E2C.Idx → EReal)
    (wf ws : Spec.R1C.Idx → EReal) (bf bs : Spec.Cv.Idx → EReal) (e : Fin 600000) (j : Fin 128) :
    msgArrOf ea wr bsh g1 g2 wf ws bf bs (ix2 e j) = msgOf ea wr bsh g1 g2 wf ws bf bs e j := rfl

/-- If the nine loaded blocks are rows b·2000 … b·2000 + 1999 of the two-dimensional arrays and all of the small
    ones, the body's output block at (p, q) is the message array at (b·2000 + p, q). -/
theorem block_value
    (A0 : Spec.EC.Idx → EReal) (A1 : Spec.R1C.Idx → EReal) (A2 : Spec.V1.Idx → EReal) (A3 A4 : Spec.E2C.Idx → EReal)
    (A5 A6 : Spec.R1C.Idx → EReal) (A7 A8 : Spec.Cv.Idx → EReal) (b : Nat)
    (x0 : Vec Ideal S2000x128 .f32) (x1 : Vec Ideal S1x128 .f32) (x2 : Vec Ideal S1 .f32)
    (x3 x4 : Vec Ideal S2000x256 .f32) (x5 x6 : Vec Ideal S1x128 .f32) (x7 x8 : Vec Ideal S128 .f32)
    (h0 : ∀ (p : Fin 2000) (k : Fin 128) (r : Fin 600000), r.val = b * 2000 + p.val → x0 (ix2 p k) = A0 (ix2 r k))
    (h1 : ∀ k : Fin 128, x1 (ix2 (0 : Fin 1) k) = A1 (ix2 (0 : Fin 1) k))
    (h2 : x2 (ix1 (0 : Fin 1)) = A2 (ix1 (0 : Fin 1)))
    (h3 : ∀ (p : Fin 2000) (k : Fin 256) (r : Fin 600000), r.val = b * 2000 + p.val → x3 (ix2 p k) = A3 (ix2 r k))
    (h4 : ∀ (p : Fin 2000) (k : Fin 256) (r : Fin 600000), r.val = b * 2000 + p.val → x4 (ix2 p k) = A4 (ix2 r k))
    (h5 : ∀ k : Fin 128, x5 (ix2 (0 : Fin 1) k) = A5 (ix2 (0 : Fin 1) k))
    (h6 : ∀ k : Fin 128, x6 (ix2 (0 : Fin 1) k) = A6 (ix2 (0 : Fin 1) k))
    (h7 : ∀ k : Fin 128, x7 (ix1 k) = A7 (ix1 k))
    (h8 : ∀ k : Fin 128, x8 (ix1 k) = A8 (ix1 k))
    (p : Fin 2000) (q : Fin 128) (r : Fin 600000) (hr : r.val = b * 2000 + p.val) :
    out1_9 (F := Ideal) x0 x1 x2 x3 x4 x5 x6 x7 x8 (ix2 p q) = msgArrOf A0 A1 A2 A3 A4 A5 A6 A7 A8 (ix2 r q) := by
  rw [block_at, msgArrOf_ix2]
  unfold msgOf Spec.edgeG
  rw [h3 p ⟨q.val, by omega⟩ r hr, h4 p ⟨q.val, by omega⟩ r hr, h3 p ⟨128 + q.val, by omega⟩ r hr,
    h4 p ⟨128 + q.val, by omega⟩ r hr, h5 q, h6 q, h7 q, h8 q, h2]
  have hs : (∑ k : Fin 128, x0 (ix2 p k) * x1 (ix2 (0 : Fin 1) k)) = ∑ k : Fin 128, A0 (ix2 r k) * A1 (ix2 (0 : Fin 1) k) :=
    Finset.sum_congr rfl fun k _ => by rw [h0 p k r hr, h1 k]
  rw [hs]

/-! ## The blocks of a grid point -/

/-- The block index of every window at point t, decided over the 300 points: the four row-blocked windows (edge
    attributes, the two gathered tables, the messages) sit at block (t, 0); the small operands at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 1) = 0
    ∧ win1_9.index t (0 : Fin 2) = t.val ∧ win1_9.index t (1 : Fin 2) = 0 :=
  (by decide +kernel : ∀ t : Fin grid1.N, _)

section Region
variable (V : (c : Dev nD) → (b : Ref sig .tc) → Buf (Elt Ideal) ((c : Thread nD τ).loc b))

/-- Window 0's block at point t is rows 2000·t … of the edge attributes. -/
theorem ea_block (c : Dev nD) (t : Fin cfg1.N) (p : Fin 2000) (k : Fin 128) (r : Fin 600000) (hr : r.val = t.val * 2000 + p.val) :
    (iblk1 V c 0 t : Vec Ideal S2000x128 .f32) (ix2 p k) = (V c (Pipeline.arrRef spec1 0) : Spec.EC.Idx → EReal) (ix2 r k) := by
  obtain ⟨e0, e1, -⟩ := idx_facts t
  unfold iblk1
  rw [View.read_apply]
  show (V c (Pipeline.arrRef spec1 0) : Spec.EC.Idx → EReal) _ = _
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Window 1's block is the whole weight row of the edge scalar. -/
theorem wr_block (c : Dev nD) (t : Fin cfg1.N) (k : Fin 128) :
    (iblk1 V c 1 t : Vec Ideal S1x128 .f32) (ix2 (0 : Fin 1) k) = (V c (Pipeline.arrRef spec1 1) : Spec.R1C.Idx → EReal) (ix2 (0 : Fin 1) k) := by
  obtain ⟨-, -, e0, e1, -⟩ := idx_facts t
  unfold iblk1
  rw [View.read_apply]
  show (V c (Pipeline.arrRef spec1 1) : Spec.R1C.Idx → EReal) _ = _
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

/-- Window 2's block is the edge scalar's bias. -/
theorem bsh_block (c : Dev nD) (t : Fin cfg1.N) :
    (iblk1 V c 2 t : Vec Ideal S1 .f32) (ix1 (0 : Fin 1)) = (V c (Pipeline.arrRef spec1 2) : Spec.V1.Idx → EReal) (ix1 (0 : Fin 1)) := by
  obtain ⟨-, -, -, -, e0, -⟩ := idx_facts t
  unfold iblk1
  rw [View.read_apply]
  show (V c (Pipeline.arrRef spec1 2) : Spec.V1.Idx → EReal) _ = _
  refine congrArg _ (funext fun a => Fin.ext ?_)
  match a with
  | ⟨0, _⟩ => show win1_2.index t (0 : Fin 1) * 1 + 1 * 0 = 0; omega

/-- Window 3's block at point t is rows 2000·t … of the first gathered table. -/
theorem g1_block (c : Dev nD) (t : Fin cfg1.N) (p : Fin 2000) (k : Fin 256) (r : Fin 600000) (hr : r.val = t.val * 2000 + p.val) :
    (iblk1 V c 3 t : Vec Ideal S2000x256 .f32) (ix2 p k) = (V c (Pipeline.arrRef spec1 3) : Spec.E2C.Idx → EReal) (ix2 r k) := by
  obtain ⟨-, -, -, -, -, e0, e1, -⟩ := idx_facts t
  unfold iblk1
  rw [View.read_apply]
  show (V c (Pipeline.arrRef spec1 3) : Spec.E2C.Idx → EReal) _ = _
  refine congrArg _ (funext fun a => Fin.ext ?_)
  match a with
  | ⟨0, _⟩ => show win1_3.index t (0 : Fin 2) * 2000 + 1 * p.val = r.val; omega
  | ⟨1, _⟩ => show win1_3.index t (1 : Fin 2) * 256 + 1 * k.val = k.val; omega

/-- Window 4's block at point t is rows 2000·t … of the second gathered table. -/
theorem g2_block (c : Dev nD) (t : Fin cfg1.N) (p : Fin 2000) (k : Fin 256) (r : Fin 600000) (hr : r.val = t.val * 2000 + p.val) :
    (iblk1 V c 4 t : Vec Ideal S2000x256 .f32) (ix2 p k) = (V c (Pipeline.arrRef spec1 4) : Spec.E2C.Idx → EReal) (ix2 r k) := by
  obtain ⟨-, -, -, -, -, -, -, e0, e1, -⟩ := idx_facts t
  unfold iblk1
  rw [View.read_apply]
  show (V c (Pipeline.arrRef spec1 4) : Spec.E2C.Idx → EReal) _ = _
  refine congrArg _ (funext fun a => Fin.ext ?_)
  match a with
  | ⟨0, _⟩ => show win1_4.index t (0 : Fin 2) * 2000 + 1 * p.val = r.val; omega
  | ⟨1, _⟩ => show win1_4.index t (1 : Fin 2) * 256 + 1 * k.val = k.val; omega

/-- Window 5's block is the whole last row of the gate's weights. -/
theorem wf_block (c : Dev nD) (t : Fin cfg1.N) (k : Fin 128) :
    (iblk1 V c 5 t : Vec Ideal S1x128 .f32) (ix2 (0 : Fin 1) k) = (V c (Pipeline.arrRef spec1 5) : Spec.R1C.Idx → EReal) (ix2 (0 : Fin 1) k) := by
  obtain ⟨-, -, -, -, -, -, -, -, -, e0, e1, -⟩ := idx_facts t
  unfold iblk1
  rw [View.read_apply]
  show (V c (Pipeline.arrRef spec1 5) : Spec.R1C.Idx → EReal) _ = _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * k.val = k.val; omega

/-- Window 6's block is the whole last row of the core's weights. -/
theorem ws_block (c : Dev nD) (t : Fin cfg1.N) (k : Fin 128) :
    (iblk1 V c 6 t : Vec Ideal S1x128 .f32) (ix2 (0 : Fin 1) k) = (V c (Pipeline.arrRef spec1 6) : Spec.R1C.Idx → EReal) (ix2 (0 : Fin 1) k) := by
  obtain ⟨-, -, -, -, -, -, -, -, -, -, -, e0, e1, -⟩ := idx_facts t
  unfold iblk1
  rw [View.read_apply]
  show (V c (Pipeline.arrRef spec1 6) : Spec.R1C.Idx → EReal) _ = _
  refine congrArg _ (funext fun a => Fin.ext ?_)
  match a with
  | ⟨0, _⟩ => show win1_6.index t (0 : Fin 2) * 1 + 1 * 0 = 0; omega
  | ⟨1, _⟩ => show win1_6.index t (1 : Fin 2) * 128 + 1 * k.val = k.val; omega

/-- Window 7's block is the whole gate bias. -/
theorem bf_block (c : Dev nD) (t : Fin cfg1.N) (k : Fin 128) :
    (iblk1 V c 7 t : Vec Ideal S128 .f32) (ix1 k) = (V c (Pipeline.arrRef spec1 7) : Spec.Cv.Idx → EReal) (ix1 k) := by
  obtain ⟨-, -, -, -, -, -, -, -, -, -, -, -, -, e0, -⟩ := idx_facts t
  unfold iblk1
  rw [View.read_apply]
  show (V c (Pipeline.arrRef spec1 7) : Spec.Cv.Idx → EReal) _ = _
  refine congrArg _ (funext fun a => Fin.ext ?_)
  match a with
  | ⟨0, _⟩ => show win1_7.index t (0 : Fin 1) * 128 + 1 * k.val = k.val; omega

/-- Window 8's block is the whole core bias. -/
theorem bs_block (c : Dev nD) (t : Fin cfg1.N) (k : Fin 128) :
    (iblk1 V c 8 t : Vec Ideal S128 .f32) (ix1 k) = (V c (Pipeline.arrRef spec1 8) : Spec.Cv.Idx → EReal) (ix1 k) := by
  obtain ⟨-, -, -, -, -, -, -, -, -, -, -, -, -, -, e0, -⟩ := idx_facts t
  unfold iblk1
  rw [View.read_apply]
  show (V c (Pipeline.arrRef spec1 8) : Spec.Cv.Idx → EReal) _ = _
  refine congrArg _ (funext fun a => Fin.ext ?_)
  match a with
  | ⟨0, _⟩ => show win1_8.index t (0 : Fin 1) * 128 + 1 * k.val = k.val; omega

/-! ## From the 300 row blocks to the array -/

/-- The message array of the region's arrays as it finds them. -/
abbrev msgArr (c : Dev nD) : Spec.EC.Idx → EReal :=
  msgArrOf (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8))

/-- What point t writes back is rows 2000·t … 2000·t + 1999 of the message array. -/
theorem flushed_eq (c : Dev nD) (t : Fin cfg1.N) :
    (dat1 V c).flushed 9 t = ((cfg1.win 9).blk t).view.read (Elt Ideal) (msgArr V c) := by
  show (cfg1.win 9).cut (grid1.coords t) ((dat1 V c).after 9 t) = _
  rw [after1_9]
  obtain ⟨-, -, -, -, -, -, -, -, -, -, -, -, -, -, -, e0, e1⟩ := idx_facts t
  have hN : cfg1.N = 300 := N_1
  have ht : t.val < 300 := by have := t.isLt; omega
  funext y
  have hy0 : (y 0).val < 2000 := (y 0).isLt
  have hy1 : (y 1).val < 128 := (y 1).isLt
  have hx : ((cfg1.win 9).xinj (grid1.coords t) y : S2000x128.Idx) = ix2 (⟨(y 0).val, hy0⟩ : Fin 2000) (⟨(y 1).val, hy1⟩ : Fin 128) :=
    funext fun a => Fin.ext (by match a with | ⟨0, _⟩ => rfl | ⟨1, _⟩ => rfl)
  have hi : (((cfg1.win 9).blk t).view.emb y : Spec.EC.Idx)
      = ix2 (⟨t.val * 2000 + (y 0).val, by omega⟩ : Fin 600000) (⟨(y 1).val, hy1⟩ : Fin 128) :=
    funext fun a => Fin.ext (by
      match a with
      | ⟨0, _⟩ => show win1_9.index t (0 : Fin 2) * 2000 + 1 * (y 0).val = t.val * 2000 + (y 0).val; omega
      | ⟨1, _⟩ => show win1_9.index t (1 : Fin 2) * 128 + 1 * (y 1).val = (y 1).val; omega)
  show out1_9 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) ((cfg1.win 9).xinj (grid1.coords t) y)
    = msgArr V c (((cfg1.win 9).blk t).view.emb y)
  rw [hx, hi]
  exact block_value (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) (V c (Pipeline.arrRef spec1 8)) t.val
    (iblk1 V c 0 t) (iblk1 V c 1 t) (iblk1 V c 2 t) (iblk1 V c 3 t) (iblk1 V c 4 t) (iblk1 V c 5 t)
    (iblk1 V c 6 t) (iblk1 V c 7 t) (iblk1 V c 8 t)
    (fun p k r hr => ea_block V c t p k r hr) (fun k => wr_block V c t k) (bsh_block V c t)
    (fun p k r hr => g1_block V c t p k r hr) (fun p k r hr => g2_block V c t p k r hr)
    (fun k => wf_block V c t k) (fun k => ws_block V c t k) (fun k => bf_block V c t k) (fun k => bs_block V c t k)
    ⟨(y 0).val, hy0⟩ ⟨(y 1).val, hy1⟩ ⟨t.val * 2000 + (y 0).val, by omega⟩ rfl

/-- An index of the array is in point t's block iff its row is one of the block's 2000 rows (and its lane any). -/
theorem mem_blk (t : Fin cfg1.N) (i : Spec.EC.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v16).slice (win1_9.rect t)).set ↔ _
  rw [View.set_slice_whole, Rect.mem_set_unit]
  exact Iff.rfl

/-- Every entry of the array is written: row r by point r / 2000. -/
theorem covered (i : Spec.EC.Idx) : ∃ t : Fin cfg1.N, (cfg1.win 9).flush t = true ∧ i ∈ ((cfg1.win 9).blk t).view.set := by
  have hi0 : (i 0).val < 600000 := (i 0).isLt
  have hi1 : (i 1).val < 128 := (i 1).isLt
  have hN : cfg1.N = 300 := N_1
  obtain ⟨t, ht⟩ : ∃ t : Fin cfg1.N, t.val = (i 0).val / 2000 := ⟨⟨(i 0).val / 2000, by omega⟩, rfl⟩
  obtain ⟨-, -, -, -, -, -, -, -, -, -, -, -, -, -, -, e0, e1⟩ := idx_facts t
  refine ⟨t, flush1_9 t, ?_⟩
  rw [mem_blk]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

/-- The message array after the region. -/
theorem final (c : Dev nD) : (dat1 V c).arrAt 9 cfg1.N = msgArr V c :=
  (dat1 V c).arrAt_eq_of_cover 9 (msgArr V c) (fun t _ => flushed_eq V c t) covered

/-- Entry (e, j) of the message array after the region: the gated message of edge e at lane j. -/
theorem msg_at (c : Dev nD) (e : Fin 600000) (j : Fin 128) :
    ((dat1 (F := Ideal) V c).arrAt 9 cfg1.N : Spec.EC.Idx → EReal) (ix2 e j)
      = Spec.msgG ((V c (Pipeline.arrRef spec1 3) : Spec.E2C.Idx → EReal) (ix2 e ⟨j.val, by omega⟩))
          ((V c (Pipeline.arrRef spec1 4) : Spec.E2C.Idx → EReal) (ix2 e ⟨j.val, by omega⟩))
          ((V c (Pipeline.arrRef spec1 3) : Spec.E2C.Idx → EReal) (ix2 e ⟨128 + j.val, by omega⟩))
          ((V c (Pipeline.arrRef spec1 4) : Spec.E2C.Idx → EReal) (ix2 e ⟨128 + j.val, by omega⟩))
          (Spec.edgeG (V c (Pipeline.arrRef spec1 0) : Spec.EC.Idx → EReal)
            (fun k => (V c (Pipeline.arrRef spec1 1) : Spec.R1C.Idx → EReal) (ix2 (0 : Fin 1) k))
            ((V c (Pipeline.arrRef spec1 2) : Spec.V1.Idx → EReal) (ix1 (0 : Fin 1))) e)
          ((V c (Pipeline.arrRef spec1 5) : Spec.R1C.Idx → EReal) (ix2 (0 : Fin 1) j))
          ((V c (Pipeline.arrRef spec1 6) : Spec.R1C.Idx → EReal) (ix2 (0 : Fin 1) j))
          ((V c (Pipeline.arrRef spec1 7) : Spec.Cv.Idx → EReal) (ix1 j))
          ((V c (Pipeline.arrRef spec1 8) : Spec.Cv.Idx → EReal) (ix1 j)) := by
  rw [final V c]
  rfl

end Region

end Cert.KernelIdeal.Reg1

end
-- ==== Proof.Reg2Value.lean ====
/-
  The last region: the normalisation and the two residual additions, entry by entry.

  The region walks the 50000 rows in 25 blocks of 2000. At each block it reads the block of the summed messages and of the
  projected features, and the four column vectors (mean, variance, scale, shift) whole, and writes
  out + (((aggr − mean) · rsqrt (var + ε)) · gamma + beta + out) into the same block of the result. Here: the body's
  arithmetic at an entry, each input block as entries of its array, what a point writes back as a block of one
  whole-array function, the blocks covering the array, and so the result array at every entry (n, j).
-/
import proofs.«413223_j3856880632376_1_alg».proof.Proof.Gen.KernelIdeal.Frame
import proofs.«413223_j3856880632376_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.ShloMosaic.ValueIdx
open Idealize.ShloMosaic.Pipeline (Dat)

namespace Cert.KernelIdeal.Reg2

open Cert.KernelIdeal Cert.KernelIdeal.Gen

/-! ## The body's arithmetic at an entry -/

/-- The normalisation body at an entry: the row's sum minus the column mean, times the reciprocal root of the column
    variance plus the small constant, times the column scale, plus the column shift, plus the projection, added to the
    projection once more. -/
theorem pay_at (a o : FVec Ideal S2000x128 .f32) (mu va ga be : FVec Ideal S128 .f32) (p : Fin 2000) (q : Fin 128) :
    k2_pay1 (F := Ideal) a o mu va ga be (ix2 p q)
      = Spec.bnG (a (ix2 p q)) (o (ix2 p q)) (mu (ix1 q)) (va (ix1 q)) (ga (ix1 q)) (be (ix1 q)) := by
  unfold k2_pay1 Spec.bnG
  simp only [addf_apply, mulf_apply, subf_apply, shapeCast_self, broadcastTo_1b_ab_apply, shapeCast_a_1a_apply]
  rfl

/-! ## The whole result array and the index maps -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The column of an entry of a [50000, 128] array, as an index of a [128] array. -/
abbrev col (i : S50000x128.Idx) : S128.Idx := ix1 (⟨(i 1).val, idx2_lt1 i⟩ : Fin 128)

/-- The whole result array as one function of the six arrays the region reads: entry (n, j) is the normalisation
    of entry (n, j) of the sums and of the projection with entry j of the mean, variance, scale and shift. -/
abbrev bnArr (A O : S50000x128.Idx → Elt Ideal .f32) (M Va Ga Be : S128.Idx → Elt Ideal .f32) : S50000x128.Idx → Elt Ideal .f32 :=
  fun i => Spec.bnG (A i) (O i) (M (col i)) (Va (col i)) (Ga (col i)) (Be (col i))

/-- The printed index maps over the 25 grid points: the two row-blocked inputs move with the output (block t of
    2000 rows, all 128 columns); the four column vectors are read whole at every point. -/
theorem idx_facts : ∀ t : Fin cfg2.N, win2_0.index t (0 : Fin 2) = win2_6.index t (0 : Fin 2)
    ∧ win2_0.index t (1 : Fin 2) = win2_6.index t (1 : Fin 2)
    ∧ win2_1.index t (0 : Fin 2) = win2_6.index t (0 : Fin 2)
    ∧ win2_1.index t (1 : Fin 2) = win2_6.index t (1 : Fin 2)
    ∧ win2_2.index t (0 : Fin 1) = 0
    ∧ win2_3.index t (0 : Fin 1) = 0
    ∧ win2_4.index t (0 : Fin 1) = 0
    ∧ win2_5.index t (0 : Fin 1) = 0
    ∧ win2_6.index t (0 : Fin 2) = t.val
    ∧ win2_6.index t (1 : Fin 2) = 0 :=
  (by decide +kernel : ∀ t : Fin grid2.N, _)

/-! ## Each input block read where the output's block says

Entry (p, q) of point t's block of a row-blocked input is the array's entry at the output block's entry (p, q); entry q of a
column vector's block is the vector at that entry's column. -/

theorem sums_at (c : Dev nD) (t : Fin cfg2.N) (p : Fin 2000) (q : Fin 128) :
    (iblk2 V c 0 t : FVec Ideal S2000x128 .f32) (ix2 p q)
      = (V c (Pipeline.arrRef spec2 0) : S50000x128.Idx → Ideal .f32) (((cfg2.win 6).blk t).view.emb (ix2 p q)) := by
  obtain ⟨e0, e1, e2, e3, e4, e5, e6, e7, e8, e9⟩ := idx_facts t
  unfold iblk2
  rw [View.read_apply]
  refine congrArg (V c (Pipeline.arrRef spec2 0) : S50000x128.Idx → Ideal .f32) ?_
  funext a; apply Fin.ext
  match a with
  | ⟨0, _⟩ => show win2_0.index t (0 : Fin 2) * 2000 + 1 * p.val = win2_6.index t (0 : Fin 2) * 2000 + 1 * p.val; omega
  | ⟨1, _⟩ => show win2_0.index t (1 : Fin 2) * 128 + 1 * q.val = win2_6.index t (1 : Fin 2) * 128 + 1 * q.val; omega

theorem proj_at (c : Dev nD) (t : Fin cfg2.N) (p : Fin 2000) (q : Fin 128) :
    (iblk2 V c 1 t : FVec Ideal S2000x128 .f32) (ix2 p q)
      = (V c (Pipeline.arrRef spec2 1) : S50000x128.Idx → Ideal .f32) (((cfg2.win 6).blk t).view.emb (ix2 p q)) := by
  obtain ⟨e0, e1, e2, e3, e4, e5, e6, e7, e8, e9⟩ := idx_facts t
  unfold iblk2
  rw [View.read_apply]
  refine congrArg (V c (Pipeline.arrRef spec2 1) : S50000x128.Idx → Ideal .f32) ?_
  funext a; apply Fin.ext
  match a with
  | ⟨0, _⟩ => show win2_1.index t (0 : Fin 2) * 2000 + 1 * p.val = win2_6.index t (0 : Fin 2) * 2000 + 1 * p.val; omega
  | ⟨1, _⟩ => show win2_1.index t (1 : Fin 2) * 128 + 1 * q.val = win2_6.index t (1 : Fin 2) * 128 + 1 * q.val; omega

theorem mean_at (c : Dev nD) (t : Fin cfg2.N) (p : Fin 2000) (q : Fin 128) :
    (iblk2 V c 2 t : FVec Ideal S128 .f32) (ix1 q)
      = (V c (Pipeline.arrRef spec2 2) : S128.Idx → Ideal .f32) (col (((cfg2.win 6).blk t).view.emb (ix2 p q))) := by
  obtain ⟨e0, e1, e2, e3, e4, e5, e6, e7, e8, e9⟩ := idx_facts t
  unfold iblk2
  rw [View.read_apply]
  refine congrArg (V c (Pipeline.arrRef spec2 2) : S128.Idx → Ideal .f32) ?_
  funext a; apply Fin.ext
  match a with
  | ⟨0, _⟩ => show win2_2.index t (0 : Fin 1) * 128 + 1 * q.val = win2_6.index t (1 : Fin 2) * 128 + 1 * q.val; omega

theorem var_at (c : Dev nD) (t : Fin cfg2.N) (p : Fin 2000) (q : Fin 128) :
    (iblk2 V c 3 t : FVec Ideal S128 .f32) (ix1 q)
      = (V c (Pipeline.arrRef spec2 3) : S128.Idx → Ideal .f32) (col (((cfg2.win 6).blk t).view.emb (ix2 p q))) := by
  obtain ⟨e0, e1, e2, e3, e4, e5, e6, e7, e8, e9⟩ := idx_facts t
  unfold iblk2
  rw [View.read_apply]
  refine congrArg (V c (Pipeline.arrRef spec2 3) : S128.Idx → Ideal .f32) ?_
  funext a; apply Fin.ext
  match a with
  | ⟨0, _⟩ => show win2_3.index t (0 : Fin 1) * 128 + 1 * q.val = win2_6.index t (1 : Fin 2) * 128 + 1 * q.val; omega

theorem scale_at (c : Dev nD) (t : Fin cfg2.N) (p : Fin 2000) (q : Fin 128) :
    (iblk2 V c 4 t : FVec Ideal S128 .f32) (ix1 q)
      = (V c (Pipeline.arrRef spec2 4) : S128.Idx → Ideal .f32) (col (((cfg2.win 6).blk t).view.emb (ix2 p q))) := by
  obtain ⟨e0, e1, e2, e3, e4, e5, e6, e7, e8, e9⟩ := idx_facts t
  unfold iblk2
  rw [View.read_apply]
  refine congrArg (V c (Pipeline.arrRef spec2 4) : S128.Idx → Ideal .f32) ?_
  funext a; apply Fin.ext
  match a with
  | ⟨0, _⟩ => show win2_4.index t (0 : Fin 1) * 128 + 1 * q.val = win2_6.index t (1 : Fin 2) * 128 + 1 * q.val; omega

theorem shift_at (c : Dev nD) (t : Fin cfg2.N) (p : Fin 2000) (q : Fin 128) :
    (iblk2 V c 5 t : FVec Ideal S128 .f32) (ix1 q)
      = (V c (Pipeline.arrRef spec2 5) : S128.Idx → Ideal .f32) (col (((cfg2.win 6).blk t).view.emb (ix2 p q))) := by
  obtain ⟨e0, e1, e2, e3, e4, e5, e6, e7, e8, e9⟩ := idx_facts t
  unfold iblk2
  rw [View.read_apply]
  refine congrArg (V c (Pipeline.arrRef spec2 5) : S128.Idx → Ideal .f32) ?_
  funext a; apply Fin.ext
  match a with
  | ⟨0, _⟩ => show win2_5.index t (0 : Fin 1) * 128 + 1 * q.val = win2_6.index t (1 : Fin 2) * 128 + 1 * q.val; omega

/-- A block of the whole result array read at one of its entries. -/
theorem read_bnArr (t : Fin cfg2.N) (A O : S50000x128.Idx → Elt Ideal .f32) (M Va Ga Be : S128.Idx → Elt Ideal .f32) (y : S2000x128.Idx) :
    ((cfg2.win 6).blk t).view.read (Elt Ideal) (bnArr A O M Va Ga Be) y
      = Spec.bnG (A (((cfg2.win 6).blk t).view.emb y)) (O (((cfg2.win 6).blk t).view.emb y))
          (M (col (((cfg2.win 6).blk t).view.emb y))) (Va (col (((cfg2.win 6).blk t).view.emb y)))
          (Ga (col (((cfg2.win 6).blk t).view.emb y))) (Be (col (((cfg2.win 6).blk t).view.emb y))) := rfl

/-! ## What a point writes back -/

/-- What point t writes back is block t (rows 2000 t … 2000 t + 1999) of the whole result array. -/
theorem flushed_eq (c : Dev nD) (t : Fin cfg2.N) :
    (dat2 (F := Ideal) V c).flushed 6 t = ((cfg2.win 6).blk t).view.read (Elt Ideal)
      (bnArr (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 (F := Ideal) V c).after 6 t) = _
  rw [after2_6]
  unfold out2_6
  rw [View.canon_unit_zero hz2]
  simp only [View.ld_unit_zero (S := S2000x128) hz2, View.ld_unit_zero (S := S128) hz1]
  funext y
  obtain ⟨p, q, rfl⟩ : ∃ (p : Fin 2000) (q : Fin 128), y = ix2 p q := ⟨y 0, y 1, eq_ix2 y⟩
  show k2_pay1 (F := Ideal) (iblk2 V c 0 t) (iblk2 V c 1 t) (iblk2 V c 2 t) (iblk2 V c 3 t) (iblk2 V c 4 t) (iblk2 V c 5 t) (ix2 p q) = _
  refine (pay_at (iblk2 V c 0 t) (iblk2 V c 1 t) (iblk2 V c 2 t) (iblk2 V c 3 t) (iblk2 V c 4 t) (iblk2 V c 5 t) p q).trans ?_
  refine Eq.trans (congr (congr (congr (congr (congr (congrArg Spec.bnG (sums_at V c t p q)) (proj_at V c t p q)) (mean_at V c t p q)) (var_at V c t p q)) (scale_at V c t p q)) (shift_at V c t p q)) ?_
  exact (read_bnArr t (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (ix2 p q)).symm

/-! ## From blocks to the array -/

/-- An entry of the result array is in point t's block iff each coordinate is in the block's range on its axis. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v24).slice (win2_6.rect t)).set ↔ _
  rw [View.set_slice_whole, Rect.mem_set_unit]
  exact Iff.rfl

/-- Every entry is written back by some point: row r lies in the block of point r / 2000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hlt : (i 0).val / 2000 < 25 := by omega
  obtain ⟨t, ht⟩ : ∃ t : Fin cfg2.N, t.val = (i 0).val / 2000 := ⟨⟨(i 0).val / 2000, lt_of_lt_of_eq hlt N_2.symm⟩, rfl⟩
  obtain ⟨e0, e1, e2, e3, e4, e5, e6, e7, e8, e9⟩ := idx_facts t
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The result array after the region: the normalisation of the six arrays the region reads, entry by entry. -/
theorem res_eq (c : Dev nD) :
    (dat2 (F := Ideal) V c).arrAt 6 cfg2.N
      = bnArr (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 (F := Ideal) V c).arrAt_eq_of_cover 6 _ (fun t _ => flushed_eq V c t) cover

/-- Entry (n, j) of the result array after the region. -/
theorem res_at (c : Dev nD) (n : Fin 50000) (j : Fin 128) :
    ((dat2 (F := Ideal) V c).arrAt 6 cfg2.N : Spec.NC.Idx → EReal) (ix2 n j)
      = Spec.bnG ((V c (Pipeline.arrRef spec2 0) : Spec.NC.Idx → EReal) (ix2 n j))
          ((V c (Pipeline.arrRef spec2 1) : Spec.NC.Idx → EReal) (ix2 n j))
          ((V c (Pipeline.arrRef spec2 2) : Spec.Cv.Idx → EReal) (ix1 j))
          ((V c (Pipeline.arrRef spec2 3) : Spec.Cv.Idx → EReal) (ix1 j))
          ((V c (Pipeline.arrRef spec2 4) : Spec.Cv.Idx → EReal) (ix1 j))
          ((V c (Pipeline.arrRef spec2 5) : Spec.Cv.Idx → EReal) (ix1 j)) :=
  congrFun (res_eq V c) (ix2 n j)

end Cert.KernelIdeal.Reg2

end
-- ==== Proof.TailDefs.lean ====
/-
  The part of the computation both programs share after the per-edge messages: the messages are summed into
  their target nodes' rows, and each column of the sums gets its mean and its variance over the 50000 rows.

  Both programs state these steps with the same host operations, so they are carried here as three functions
  that are never opened: the sums per target node as a function of the messages and the edge index array,
  the column means and the column variances as functions of the sums.
-/
import proofs.«413223_j3856880632376_1_alg».proof.Proof.Gen.ReferenceIdeal
import proofs.«413223_j3856880632376_1_alg».proof.Proof.Spec
import Idealize.ShloMosaic.PureOps.Ideal

noncomputable section

namespace Cert.Tail

open Idealize.ShloMosaic Cert.ReferenceIdeal Cert.ReferenceIdeal.Facts₀

variable {F : FTy → Type} [FloatOps F]

/-- The target nodes' column of the edge index array: row 1, as a vector over the edges. -/
def targetsF (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- The messages summed per target node, the targets given as a vector over the edges: a scatter-add of the message
    rows into an array of zeros, each edge's row added at the row its target node names. -/
def aggrOfT (msg : (⟨S600000x128, .f32⟩ : BufTy).Contents (Elt F)) (tgt : (⟨S600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant (F := F) S_ .f32 0x00000000#32))
    (broadcastInDim S600000x1 ![0] bcast_S600000_S600000x1_0 tgt)
    msg

/-- The same from the edge index array: its row 1 holds the targets. -/
def aggrOfF (msg : (⟨S600000x128, .f32⟩ : BufTy).Contents (Elt F)) (ei : (⟨S2x600000, .i32⟩ : BufTy).Contents (Elt F)) :
    (⟨S50000x128, .f32⟩ : BufTy).Contents (Elt F) :=
  aggrOfT msg (targetsF (F := F) ei)

/-- The column means: each column's sum over the rows, divided by 50000. -/
def meanOfF (aggr : (⟨S50000x128, .f32⟩ : BufTy).Contents (Elt F)) : (⟨S128, .f32⟩ : BufTy).Contents (Elt F) :=
  Host.divf (Host.reduceAdd aggr (constant (F := F) S_ .f32 0x00000000#32) reducesTo_S50000x128_S128_d0 h_S_)
    (broadcastInDim S128 ![] bcast_S_S128 (constant (F := F) S_ .f32 0x47435000#32))

/-- The divisor of the variance: 50000 minus the correction 0, as a float. -/
def varDenF : (⟨S_, .f32⟩ : BufTy).Contents (Elt F) :=
  subf (constant (F := F) S_ .f32 0x47435000#32) (sitofp (F := F) .f32 (constantI S_ 32 0#32))

/-- The column variances: the squared deviations from the column mean summed over the rows and divided by
    50000 − 0, kept where that divisor is positive (it is) and a NaN elsewhere. -/
def varOfF (aggr : (⟨S50000x128, .f32⟩ : BufTy).Contents (Elt F)) : (⟨S128, .f32⟩ : BufTy).Contents (Elt F) :=
  select (broadcastInDim S128 ![] bcast_S_S128 (cmpf (F := F) .ogt (varDenF (F := F)) (constant (F := F) S_ .f32 0x00000000#32)))
    (Host.divf
      (Host.reduceAdd
        (mulf
          (subf aggr (broadcastInDim S50000x128 ![0, 1] bcast_S1x128_S50000x128_0_1
            (Host.divf (broadcastInDim S1x128 ![1] bcast_S128_S1x128_1
                (Host.reduceAdd aggr (constant (F := F) S_ .f32 0x00000000#32) reducesTo_S50000x128_S128_d0 h_S_))
              (broadcastInDim S1x128 ![] bcast_S_S1x128 (constant (F := F) S_ .f32 0x47435000#32)))))
          (subf aggr (broadcastInDim S50000x128 ![0, 1] bcast_S1x128_S50000x128_0_1
            (Host.divf (broadcastInDim S1x128 ![1] bcast_S128_S1x128_1
                (Host.reduceAdd aggr (constant (F := F) S_ .f32 0x00000000#32) reducesTo_S50000x128_S128_d0 h_S_))
              (broadcastInDim S1x128 ![] bcast_S_S1x128 (constant (F := F) S_ .f32 0x47435000#32))))))
        (constant (F := F) S_ .f32 0x00000000#32) reducesTo_S50000x128_S128_d0 h_S_)
      (broadcastInDim S128 ![] bcast_S_S128 (varDenF (F := F))))
    (broadcastInDim S128 ![] bcast_S_S128 (id (constant (F := F) S_ .f32 0x7FC00000#32)))

/-- The three functions over the extended reals, at the specification's shapes. -/
def aggrOf (msg : Spec.EC.Idx → EReal) (ei : Spec.EI.Idx → BitVec 32) : Spec.NC.Idx → EReal := aggrOfF (F := Ideal) msg ei
def meanOf (aggr : Spec.NC.Idx → EReal) : Spec.Cv.Idx → EReal := meanOfF (F := Ideal) aggr
def varOf (aggr : Spec.NC.Idx → EReal) : Spec.Cv.Idx → EReal := varOfF (F := Ideal) aggr

end Cert.Tail

end
-- ==== Proof.TailKernel.lean ====
/-
  The kernel program's shared tail. Between its second and its third region the kernel program sums the messages
  into their target nodes' rows and takes the column means and variances of the sums with the same host
  operations the reference uses; its third region then reads six arrays: the sums, the node projection its first
  region wrote, the means, the variances and the two affine parameters. Each of the six is identified here, as the
  region finds it, with the shared functions applied to what the second region left and to the launch contents.
-/
import proofs.«413223_j3856880632376_1_alg».proof.Proof.Gen.KernelIdeal.Frame
import proofs.«413223_j3856880632376_1_alg».proof.Proof.TailDefs
import Idealize.ShloMosaic.Lib.StableHlo.Run

noncomputable section

namespace Cert.Tail

open Idealize.ShloMosaic Idealize.ShloMosaic.TcCoe Idealize.ShloMosaic.StableHlo Idealize.SL.Sem
open Cert.KernelIdeal Cert.KernelIdeal.Gen

/-! ## The two programs' records of the scatter agree -/

/-- The kernel program's scatter dimension numbers are the reference's: the same four lists, the well-formedness a proof. -/
theorem scatter_eq : Cert.KernelIdeal.scatter_S50000x128_S600000x1_S600000x128_1_0_0_1
    = Cert.ReferenceIdeal.scatter_S50000x128_S600000x1_S600000x128_1_0_0_1 := rfl

section Stretches

variable {F : FTy → Type} [FloatOps F]

/-! ## The host stretches, from any entry contents -/

/-- The first stretch leaves in the targets' buffer row 1 of the edge index array as a vector. -/
theorem hostOps0_targets (V : Valuation τ sig (Elt F)) :
    StableHlo.after hostOps0 V (Proc.devRef .tc main_v3) = targetsF (F := F) (V (Proc.devRef .tc main_arg1)) := by
  after_results
  rfl

/-- The stretch before the third region writes the sums per target node from the messages' and the targets' buffers. -/
theorem hostOps2_aggr (V : Valuation τ sig (Elt F)) :
    StableHlo.after hostOps2 V (Proc.devRef .tc main_v19)
      = aggrOfT (F := F) (V (Proc.devRef .tc main_v16)) (V (Proc.devRef .tc main_v3)) := by
  after_results
  unfold aggrOfT
  rw [scatter_eq]

/-- The same stretch writes the column means of the sums it has just written. -/
theorem hostOps2_mean (V : Valuation τ sig (Elt F)) :
    StableHlo.after hostOps2 V (Proc.devRef .tc main_v22)
      = meanOfF (F := F) (StableHlo.after hostOps2 V (Proc.devRef .tc main_v19)) := by
  after_results
  rfl

/-- The variance stretch writes the column variances of the sums the stretch before it wrote. -/
theorem hostOps2_1_var (V : Valuation τ sig (Elt F)) :
    StableHlo.after hostOps2_1 (StableHlo.after hostOps2 V) (Proc.devRef .tc main_v23)
      = varOfF (F := F) (StableHlo.after hostOps2 V (Proc.devRef .tc main_v19)) := by
  after_results_simp
  rfl

end Stretches

/-! ## A buffer a stretch does not write keeps its contents -/

/-- Closes "no operation of this stretch writes the buffer": each operation writes one buffer, another one. -/
local macro "not_written" : tactic => `(tactic| (
  refine List.forall_iff_forall_mem.mp ?_
  simp only [hostOps0, hostOps1, hostOps1_1, hostOps2, hostOps2_1, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

section Walk

variable (m : (ℓ : Loc nD τ sig) → Buf (Elt Ideal) ℓ) (ρ : Dev nD → PrngReg)

/-! ## The six arrays the third region reads, walked back through the program -/

/-- The variance stretch leaves the sums as the stretch before it wrote them. -/
theorem W7_sums (c : Dev nD) : W7 m ρ c (Proc.devRef .tc main_v19) = W6 m ρ c (Proc.devRef .tc main_v19) :=
  StableHlo.after_of_forall_not_mem (b := Proc.devRef .tc main_v19) _ _ (by not_written)

/-- The variance stretch leaves the means as the stretch before it wrote them. -/
theorem W7_means (c : Dev nD) : W7 m ρ c (Proc.devRef .tc main_v22) = W6 m ρ c (Proc.devRef .tc main_v22) :=
  StableHlo.after_of_forall_not_mem (b := Proc.devRef .tc main_v22) _ _ (by not_written)

/-- The targets' vector the first stretch wrote is still there when the second region returns: no later stretch and
    neither region writes it. -/
theorem W5_targets (c : Dev nD) :
    W5 m ρ c (Proc.devRef .tc main_v3) = targetsF (F := Ideal) (m ((c.tc : Thread nD τ).loc main_arg1)) :=
  calc W5 m ρ c (Proc.devRef .tc main_v3)
    _ = W4 m ρ c (Proc.devRef .tc main_v3) := W5_of_ne m ρ c main_v3 (by decide)
    _ = W3 m ρ c (Proc.devRef .tc main_v3) := StableHlo.after_of_forall_not_mem (b := Proc.devRef .tc main_v3) _ _ (by not_written)
    _ = W2 m ρ c (Proc.devRef .tc main_v3) := StableHlo.after_of_forall_not_mem (b := Proc.devRef .tc main_v3) _ _ (by not_written)
    _ = W1 m ρ c (Proc.devRef .tc main_v3) := W2_of_ne m ρ c main_v3 (by decide)
    _ = targetsF (F := Ideal) (W0 m ρ c (Proc.devRef .tc main_arg1)) := hostOps0_targets (W0 m ρ c)
    _ = targetsF (F := Ideal) (m ((c.tc : Thread nD τ).loc main_arg1)) := rfl

/-- The sums the stretch before the third region writes: the second region's messages summed into the rows the
    launch's edge index array names. -/
theorem W6_sums (c : Dev nD) :
    W6 m ρ c (Proc.devRef .tc main_v19)
      = aggrOfT (F := Ideal) ((dat1 (F := Ideal) (V4 m ρ) c).arrAt 9 cfg1.N) (targetsF (F := Ideal) (m ((c.tc : Thread nD τ).loc main_arg1))) :=
  (hostOps2_aggr (W5 m ρ c)).trans (congr (congrArg (aggrOfT (F := Ideal)) (W5_arr m ρ c 9)) (W5_targets m ρ c))

/-- The sums, as the third region finds them. -/
theorem kernel_aggr (c : Dev nD) :
    (V7 m ρ c (Pipeline.arrRef spec2 0) : Spec.NC.Idx → EReal)
      = aggrOf ((dat1 (F := Ideal) (V4 m ρ) c).arrAt 9 cfg1.N) (m ((c.tc : Thread nD τ).loc main_arg1)) :=
  (W7_sums m ρ c).trans (W6_sums m ρ c)

/-- The node projection, as the third region finds it, is what the first region wrote. -/
theorem kernel_out (c : Dev nD) :
    V7 m ρ c (Pipeline.arrRef spec2 1) = (dat0 (F := Ideal) (V1 m ρ) c).arrAt 5 cfg0.N :=
  calc W7 m ρ c (Proc.devRef .tc main_v13_0)
    _ = W6 m ρ c (Proc.devRef .tc main_v13_0) := StableHlo.after_of_forall_not_mem (b := Proc.devRef .tc main_v13_0) _ _ (by not_written)
    _ = W5 m ρ c (Proc.devRef .tc main_v13_0) := StableHlo.after_of_forall_not_mem (b := Proc.devRef .tc main_v13_0) _ _ (by not_written)
    _ = W4 m ρ c (Proc.devRef .tc main_v13_0) := W5_of_ne m ρ c main_v13_0 (by decide)
    _ = W3 m ρ c (Proc.devRef .tc main_v13_0) := StableHlo.after_of_forall_not_mem (b := Proc.devRef .tc main_v13_0) _ _ (by not_written)
    _ = W2 m ρ c (Proc.devRef .tc main_v13_0) := StableHlo.after_of_forall_not_mem (b := Proc.devRef .tc main_v13_0) _ _ (by not_written)
    _ = (dat0 (F := Ideal) (V1 m ρ) c).arrAt 5 cfg0.N := W2_arr m ρ c 5

/-- The column means, as the third region finds them, are the means of the sums it finds. -/
theorem kernel_mean (c : Dev nD) :
    V7 m ρ c (Pipeline.arrRef spec2 2) = meanOf (V7 m ρ c (Pipeline.arrRef spec2 0)) :=
  calc W7 m ρ c (Proc.devRef .tc main_v22)
    _ = W6 m ρ c (Proc.devRef .tc main_v22) := W7_means m ρ c
    _ = meanOfF (F := Ideal) (W6 m ρ c (Proc.devRef .tc main_v19)) := hostOps2_mean (W5 m ρ c)
    _ = meanOfF (F := Ideal) (W7 m ρ c (Proc.devRef .tc main_v19)) := congrArg (meanOfF (F := Ideal)) (W7_sums m ρ c).symm

/-- The column variances, as the third region finds them, are the variances of the sums it finds. -/
theorem kernel_var (c : Dev nD) :
    V7 m ρ c (Pipeline.arrRef spec2 3) = varOf (V7 m ρ c (Pipeline.arrRef spec2 0)) :=
  calc W7 m ρ c (Proc.devRef .tc main_v23)
    _ = varOfF (F := Ideal) (W6 m ρ c (Proc.devRef .tc main_v19)) := hostOps2_1_var (W5 m ρ c)
    _ = varOfF (F := Ideal) (W7 m ρ c (Proc.devRef .tc main_v19)) := congrArg (varOfF (F := Ideal)) (W7_sums m ρ c).symm

/-- The scale, as the third region finds it, is the launch's. -/
theorem kernel_gamma (c : Dev nD) : V7 m ρ c (Pipeline.arrRef spec2 4) = m ((c.tc : Thread nD τ).loc main_arg12) :=
  ((W8_arr m ρ c 4).trans (((dat2 (V7 m ρ) c).arrAt_in 4 rfl _).trans (A_eq2 (V7 m ρ) c 4))).symm.trans (W8_main_arg12 m ρ c)

/-- The shift, as the third region finds it, is the launch's. -/
theorem kernel_beta (c : Dev nD) : V7 m ρ c (Pipeline.arrRef spec2 5) = m ((c.tc : Thread nD τ).loc main_arg13) :=
  ((W8_arr m ρ c 5).trans (((dat2 (V7 m ρ) c).arrAt_in 5 rfl _).trans (A_eq2 (V7 m ρ) c 5))).symm.trans (W8_main_arg13 m ρ c)

end Walk

end Cert.Tail

end
-- ==== Proof.TailRef.lean ====
/-
  The reference program's shared tail. The reference sums the per-edge messages into their target nodes' rows and
  takes the column means and variances of the sums with the host operations the shared functions are made of; read
  off its list of operations, the three buffers hold the shared functions applied to the buffers before them.
-/
import proofs.«413223_j3856880632376_1_alg».proof.Proof.RefOps
import proofs.«413223_j3856880632376_1_alg».proof.Proof.TailDefs
import Idealize.ShloMosaic.Lib.StableHlo.Run

noncomputable section

namespace Cert.Tail

open Idealize.ShloMosaic Idealize.ShloMosaic.TcCoe Idealize.ShloMosaic.StableHlo Idealize.SL.Sem
open Cert.ReferenceIdeal Cert.ReferenceIdeal.Run

section AnyFloats

variable {F : FTy → Type} [FloatOps F]

/-! ## The three buffers after the reference's operations, from any entry contents, at any float family

Each side of an equation is rewritten to the operations' composed term of the entry contents, the buffer a
shared function is applied to included; the two terms then differ only by the shared function's definition. -/

set_option maxHeartbeats 4000000 in
/-- The sums per target node are the scatter-add of the messages' buffer at row 1 of the edge index argument. -/
theorem ref_aggrF (L : Valuation τ sig (Elt F)) :
    StableHlo.after ops L (Proc.devRef .tc main_v74)
      = aggrOfF (F := F) (StableHlo.after ops L (Proc.devRef .tc main_v71)) (L (Proc.devRef .tc main_arg1)) := by
  after_results_simp
  rfl

set_option maxHeartbeats 4000000 in
/-- The column means are the sums' column sums divided by 50000. -/
theorem ref_meanF (L : Valuation τ sig (Elt F)) :
    StableHlo.after ops L (Proc.devRef .tc main_v77)
      = meanOfF (F := F) (StableHlo.after ops L (Proc.devRef .tc main_v74)) := by
  after_results_simp
  rfl

set_option maxHeartbeats 4000000 in
/-- The column variances are the variance function of the sums. -/
theorem ref_varF (L : Valuation τ sig (Elt F)) :
    StableHlo.after ops L (Proc.devRef .tc main_v78)
      = varOfF (F := F) (StableHlo.after ops L (Proc.devRef .tc main_v74)) := by
  after_results_simp
  rfl

end AnyFloats

/-! ## Over the extended reals -/

theorem ref_aggr (L : Valuation τ sig (Elt Ideal)) :
    StableHlo.after ops L (main_v74 : DevRef τ sig) = aggrOf (StableHlo.after ops L (main_v71 : DevRef τ sig)) (L (main_arg1 : DevRef τ sig)) :=
  ref_aggrF (F := Ideal) L

theorem ref_mean (L : Valuation τ sig (Elt Ideal)) :
    StableHlo.after ops L (main_v77 : DevRef τ sig) = meanOf (StableHlo.after ops L (main_v74 : DevRef τ sig)) :=
  ref_meanF (F := Ideal) L

theorem ref_var (L : Valuation τ sig (Elt Ideal)) :
    StableHlo.after ops L (main_v78 : DevRef τ sig) = varOf (StableHlo.after ops L (main_v74 : DevRef τ sig)) :=
  ref_varF (F := Ideal) L

end Cert.Tail

end
-- ==== Proof.RefNodes.lean ====
/-
  The reference's projected node features read at an index: the node features times the first weight table plus its
  bias row, through the outlined softplus, as the specification's function of the argument arrays.
-/
import proofs.«413223_j3856880632376_1_alg».proof.Proof.RefOps
import proofs.«413223_j3856880632376_1_alg».proof.Proof.Spec
import Idealize.ShloMosaic.Lib.ValueIdx
import Idealize.ShloMosaic.Lib.Pipeline.Value
import Idealize.ShloMosaic.PureOps.Ideal.Laws
import Idealize.ShloMosaic.Lib.IdealHost
import Idealize.ShloMosaic.Lib.StableHlo.Run

noncomputable section

namespace Cert.ReferenceIdeal.ReadNodes

open Cert.ReferenceIdeal Cert.ReferenceIdeal.Gen Cert.ReferenceIdeal.Run
open Idealize.ShloMosaic Idealize.ShloMosaic.ValueIdx Idealize.ShloMosaic.TcCoe Idealize.SL.Sem Idealize.ShloMosaic.StableHlo
open scoped BigOperators

/-! ## Softplus over an array -/

/-- The outlined softplus applied to an array `x`: with `z` the zero array and `d = x - z`, the array
    `select (d ≠ d) (x + z) (max x z + log1p (exp (-|d|)))`. -/
def spVec {s : Shape} (h : S_.BroadcastsInDim s (![] : Fin 0 → Fin s.rank)) (x : FVec Ideal s .f32) : FVec Ideal s .f32 :=
  select
    (cmpf .une (subf x (broadcastInDim s ![] h (constant S_ .f32 0x00000000#32)))
      (subf x (broadcastInDim s ![] h (constant S_ .f32 0x00000000#32))))
    (addf x (broadcastInDim s ![] h (constant S_ .f32 0x00000000#32)))
    (addf (maximumf x (broadcastInDim s ![] h (constant S_ .f32 0x00000000#32)))
      (Host.log1p (Host.exp (Host.negf (Host.absf (subf x (broadcastInDim s ![] h (constant S_ .f32 0x00000000#32))))))))

/-- At an index it is the scalar softplus of the entry: the comparison `d ≠ d` is never true on the extended reals. -/
theorem spVec_apply {s : Shape} (h : S_.BroadcastsInDim s (![] : Fin 0 → Fin s.rank)) (x : FVec Ideal s .f32) (i : s.Idx) :
    spVec h x i = Spec.sp (x i) := by
  have hz : broadcastInDim s ![] h (constant (F := Ideal) S_ .f32 0x00000000#32) i = 0 := by
    rw [broadcastInDim_scalar_apply, constant_apply, Ideal.ofBits_zero_f32]
  show Scalar.select
      (Ideal.cmp .une (x i - broadcastInDim s ![] h (constant (F := Ideal) S_ .f32 0x00000000#32) i)
        (x i - broadcastInDim s ![] h (constant (F := Ideal) S_ .f32 0x00000000#32) i))
      (x i + broadcastInDim s ![] h (constant (F := Ideal) S_ .f32 0x00000000#32) i)
      (max (x i) (broadcastInDim s ![] h (constant (F := Ideal) S_ .f32 0x00000000#32) i)
        + Ideal.log1p (Ideal.exp (-(max (x i - broadcastInDim s ![] h (constant (F := Ideal) S_ .f32 0x00000000#32) i)
            (-(x i - broadcastInDim s ![] h (constant (F := Ideal) S_ .f32 0x00000000#32) i)))))) = _
  rw [hz, sub_zero]
  have hc : Ideal.cmp .une (x i) (x i) = 0#1 := by simp [Ideal.cmp]
  rw [hc, select_zero]
  rfl

/-! ## The matrix product at an index -/

theorem lhs_nc_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_nc_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_nc_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_nc_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
/-- An [N, 128] array times a [128, 128] table, at (p, c): the sum over the shared axis. -/
theorem dot_nc_apply (l : FVec Ideal S50000x128 .f32) (r : FVec Ideal S128x128 .f32) (p : Fin 50000) (c : Fin 128) :
    Host.dotGeneral dot_S50000x128_S128x128_S50000x128_1_0_0_1_n_n none l r (ix2 p c) = ∑ k : Fin 128, l (ix2 p k) * r (ix2 k c) := by
  show FloatOps.dotGeneral dot_S50000x128_S128x128_S50000x128_1_0_0_1_n_n none .single l r (ix2 p c) = _
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p c) ((ValueIdx.contrEquiv1 dot_S50000x128_S128x128_S50000x128_1_0_0_1_n_n 128 rfl rfl).symm k) = ix2 p k := funext fun a => Fin.ext (by
    match a with
    | ⟨0, _⟩ => exact lhs_nc_0 _ _
    | ⟨1, _⟩ => exact (lhs_nc_1 _ _).trans hk)
  have er : dot_S50000x128_S128x128_S50000x128_1_0_0_1_n_n.rhsIdx (ix2 p c) ((ValueIdx.contrEquiv1 dot_S50000x128_S128x128_S50000x128_1_0_0_1_n_n 128 rfl rfl).symm k) = ix2 k c := funext fun a => Fin.ext (by
    match a with
    | ⟨0, _⟩ => exact (rhs_nc_0 _ _).trans hk
    | ⟨1, _⟩ => exact rhs_nc_1 _ _)
  rw [el, er]

/-! ## The bias row at an index -/

/-- A length-128 vector broadcast to one row and then to every row of an [N, 128] array reads the vector at the column. -/
theorem biasNC_apply (h1 : S128.BroadcastsInDim S1x128 (![1] : Fin 1 → Fin S1x128.rank))
    (h2 : S1x128.BroadcastsInDim S50000x128 (![0, 1] : Fin 2 → Fin S50000x128.rank))
    (b : FVec Ideal S128 .f32) (n : Fin 50000) (j : Fin 128) :
    broadcastInDim S50000x128 ![0, 1] h2 (broadcastInDim S1x128 ![1] h1 b) (ix2 n j) = b (ix1 j) := by
  refine (broadcastInDim_apply _ h2 _ (ix2 n j) (ix2 0 j) (fun a => ?_)).trans ?_
  · match a with
    | ⟨0, _⟩ => rfl
    | ⟨1, _⟩ => rfl
  · exact broadcastInDim_apply _ h1 b (ix2 0 j) (ix1 j) (fun a => by match a with | ⟨0, _⟩ => rfl)

/-! ## The fold read stage by stage -/

section Fold
variable (L : Valuation τ sig (Elt Ideal))

set_option maxRecDepth 8192 in
set_option maxHeartbeats 1000000 in
/-- The projected node features: the outlined softplus of the features times the first weight table plus its bias row. -/
theorem stage_v8 :
    (after (ops (F := Ideal)) L (main_v8 : DevRef τ sig) : FVec Ideal S50000x128 .f32)
      = spVec bcast_S_S50000x128
          (addf (Host.dotGeneral (F := Ideal) (φ₁ := .f32) (φ₂ := .f32) dot_S50000x128_S128x128_S50000x128_1_0_0_1_n_n none (L (main_arg0 : DevRef τ sig)) (L (main_arg4 : DevRef τ sig)))
            (broadcastInDim S50000x128 ![0, 1] bcast_S1x128_S50000x128_0_1
              (broadcastInDim S1x128 ![1] bcast_S128_S1x128_1 (L (main_arg5 : DevRef τ sig) : FVec Ideal S128 .f32)))) := by
  after_results_simp
  rfl

end Fold

/-! ## The projected node features at an index -/

section Read
variable (L : Valuation τ sig (Elt Ideal))

/-- Entry (n, j) of the projected node features. -/
theorem ref_out_at (n : Fin 50000) (j : Fin 128) :
    (after (ops (F := Ideal)) L (main_v8 : DevRef τ sig) : Spec.NC.Idx → EReal) (ix2 n j)
      = Spec.outG (L (main_arg0 : DevRef τ sig)) (L (main_arg4 : DevRef τ sig)) (L (main_arg5 : DevRef τ sig)) n j := by
  rw [stage_v8 L, spVec_apply, addf_apply, dot_nc_apply, biasNC_apply]
  rfl

end Read

end Cert.ReferenceIdeal.ReadNodes

end
-- ==== Proof.RefNodesProj.lean ====
/-
  The reference's four products of the projected node features with the 128-row blocks of the two gate tables, read at
  an index as the specification's row-block product.
-/
import proofs.«413223_j3856880632376_1_alg».proof.Proof.RefNodes

noncomputable section

namespace Cert.ReferenceIdeal.ReadNodes

open Cert.ReferenceIdeal Cert.ReferenceIdeal.Gen Cert.ReferenceIdeal.Run
open Idealize.ShloMosaic Idealize.ShloMosaic.ValueIdx Idealize.ShloMosaic.TcCoe Idealize.SL.Sem Idealize.ShloMosaic.StableHlo
open scoped BigOperators

/-! ## The table slices at an index -/

/-- The 128 rows of a 257-row table from row `off` on, at (k, j): the table at (off + k, j). -/
theorem sliceCC_apply (off : Nat) (hoff : off + 128 ≤ 257) (h : S257x128.Slices ![off, 0] S128x128)
    (W : FVec Ideal S257x128 .f32) (k j : Fin 128) :
    extractStridedSlice S128x128 ![off, 0] W h (ix2 k j) = W (ix2 ⟨off + k.val, by omega⟩ j) := by
  refine extractStridedSlice_apply _ W h (ix2 k j) (ix2 ⟨off + k.val, by omega⟩ j) (fun a => ?_)
  match a with
  | ⟨0, _⟩ => rfl
  | ⟨1, _⟩ => exact (Nat.zero_add _).symm

/-! ## The four products as stages of the fold -/

section Fold
variable (L : Valuation τ sig (Elt Ideal))

set_option maxRecDepth 8192 in
set_option maxHeartbeats 1000000 in
/-- The product of the projected features with rows 0–127 of the table in argument 8. -/
theorem stage_v15 :
    (after (ops (F := Ideal)) L (main_v15 : DevRef τ sig) : FVec Ideal S50000x128 .f32)
      = Host.dotGeneral (F := Ideal) (φ₁ := .f32) (φ₂ := .f32) dot_S50000x128_S128x128_S50000x128_1_0_0_1_n_n none
          (after (ops (F := Ideal)) L (main_v8 : DevRef τ sig))
          (extractStridedSlice S128x128 ![0, 0] (L (main_arg8 : DevRef τ sig) : FVec Ideal S257x128 .f32) slices_S257x128_S128x128_0_0) := by
  after_results_simp

set_option maxRecDepth 8192 in
set_option maxHeartbeats 1000000 in
/-- The product of the projected features with rows 128–255 of the table in argument 8. -/
theorem stage_v17 :
    (after (ops (F := Ideal)) L (main_v17 : DevRef τ sig) : FVec Ideal S50000x128 .f32)
      = Host.dotGeneral (F := Ideal) (φ₁ := .f32) (φ₂ := .f32) dot_S50000x128_S128x128_S50000x128_1_0_0_1_n_n none
          (after (ops (F := Ideal)) L (main_v8 : DevRef τ sig))
          (extractStridedSlice S128x128 ![128, 0] (L (main_arg8 : DevRef τ sig) : FVec Ideal S257x128 .f32) slices_S257x128_S128x128_128_0) := by
  after_results_simp

set_option maxRecDepth 8192 in
set_option maxHeartbeats 1000000 in
/-- The product of the projected features with rows 0–127 of the table in argument 10. -/
theorem stage_v19 :
    (after (ops (F := Ideal)) L (main_v19 : DevRef τ sig) : FVec Ideal S50000x128 .f32)
      = Host.dotGeneral (F := Ideal) (φ₁ := .f32) (φ₂ := .f32) dot_S50000x128_S128x128_S50000x128_1_0_0_1_n_n none
          (after (ops (F := Ideal)) L (main_v8 : DevRef τ sig))
          (extractStridedSlice S128x128 ![0, 0] (L (main_arg10 : DevRef τ sig) : FVec Ideal S257x128 .f32) slices_S257x128_S128x128_0_0) := by
  after_results_simp

set_option maxRecDepth 8192 in
set_option maxHeartbeats 1000000 in
/-- The product of the projected features with rows 128–255 of the table in argument 10. -/
theorem stage_v21 :
    (after (ops (F := Ideal)) L (main_v21 : DevRef τ sig) : FVec Ideal S50000x128 .f32)
      = Host.dotGeneral (F := Ideal) (φ₁ := .f32) (φ₂ := .f32) dot_S50000x128_S128x128_S50000x128_1_0_0_1_n_n none
          (after (ops (F := Ideal)) L (main_v8 : DevRef τ sig))
          (extractStridedSlice S128x128 ![128, 0] (L (main_arg10 : DevRef τ sig) : FVec Ideal S257x128 .f32) slices_S257x128_S128x128_128_0) := by
  after_results_simp

end Fold

/-! ## The four products at an index -/

section Read
variable (L : Valuation τ sig (Elt Ideal))

/-- Entry (n, j) of the projected features times rows 0–127 of the first gate table. -/
theorem ref_pif_at (n : Fin 50000) (j : Fin 128) :
    (after (ops (F := Ideal)) L (main_v15 : DevRef τ sig) : Spec.NC.Idx → EReal) (ix2 n j)
      = Spec.projG (fun n k => (after (ops (F := Ideal)) L (main_v8 : DevRef τ sig) : Spec.NC.Idx → EReal) (ix2 n k))
          (L (main_arg8 : DevRef τ sig)) 0 (by omega) n j := by
  rw [stage_v15 L, dot_nc_apply]
  show @Eq EReal _ _
  unfold Spec.projG
  exact Finset.sum_congr rfl fun k _ => by rw [sliceCC_apply 0 (by omega)]

/-- Entry (n, j) of the projected features times rows 128–255 of the first gate table. -/
theorem ref_pjf_at (n : Fin 50000) (j : Fin 128) :
    (after (ops (F := Ideal)) L (main_v17 : DevRef τ sig) : Spec.NC.Idx → EReal) (ix2 n j)
      = Spec.projG (fun n k => (after (ops (F := Ideal)) L (main_v8 : DevRef τ sig) : Spec.NC.Idx → EReal) (ix2 n k))
          (L (main_arg8 : DevRef τ sig)) 128 (by omega) n j := by
  rw [stage_v17 L, dot_nc_apply]
  show @Eq EReal _ _
  unfold Spec.projG
  exact Finset.sum_congr rfl fun k _ => by rw [sliceCC_apply 128 (by omega)]

/-- Entry (n, j) of the projected features times rows 0–127 of the second gate table. -/
theorem ref_pis_at (n : Fin 50000) (j : Fin 128) :
    (after (ops (F := Ideal)) L (main_v19 : DevRef τ sig) : Spec.NC.Idx → EReal) (ix2 n j)
      = Spec.projG (fun n k => (after (ops (F := Ideal)) L (main_v8 : DevRef τ sig) : Spec.NC.Idx → EReal) (ix2 n k))
          (L (main_arg10 : DevRef τ sig)) 0 (by omega) n j := by
  rw [stage_v19 L, dot_nc_apply]
  show @Eq EReal _ _
  unfold Spec.projG
  exact Finset.sum_congr rfl fun k _ => by rw [sliceCC_apply 0 (by omega)]

/-- Entry (n, j) of the projected features times rows 128–255 of the second gate table. -/
theorem ref_pjs_at (n : Fin 50000) (j : Fin 128) :
    (after (ops (F := Ideal)) L (main_v21 : DevRef τ sig) : Spec.NC.Idx → EReal) (ix2 n j)
      = Spec.projG (fun n k => (after (ops (F := Ideal)) L (main_v8 : DevRef τ sig) : Spec.NC.Idx → EReal) (ix2 n k))
          (L (main_arg10 : DevRef τ sig)) 128 (by omega) n j := by
  rw [stage_v21 L, dot_nc_apply]
  show @Eq EReal _ _
  unfold Spec.projG
  exact Finset.sum_congr rfl fun k _ => by rw [sliceCC_apply 128 (by omega)]

end Read

end Cert.ReferenceIdeal.ReadNodes

end
-- ==== Proof.RefScalar.lean ====
import proofs.«413223_j3856880632376_1_alg».proof.Proof.RefOps
import proofs.«413223_j3856880632376_1_alg».proof.Proof.Spec
import Idealize.ShloMosaic.Lib.ValueIdx
import Idealize.ShloMosaic.Lib.Pipeline.Value
import Idealize.ShloMosaic.PureOps.Ideal.Laws

/-! The reference's edge scalar and its two products, read at an index.

    The edge scalar is softplus of (edge attributes · weight column + bias), an [E, 1] array; the reference spells
    softplus in its stable form, max x 0 + log1p (exp (-|x|)), guarded by a test "x is not equal to itself" that never
    fires on the extended reals. Each of its two products is a contraction over ONE index with the last row (row 256)
    of a 257-row weight table: entry (e, j) is the edge scalar times that row's entry j. -/

noncomputable section

namespace Cert.ReferenceIdeal.ReadScalar

open Cert.ReferenceIdeal Cert.ReferenceIdeal.Gen Cert.ReferenceIdeal.Run Idealize.ShloMosaic Idealize.ShloMosaic.TcCoe
  Idealize.SL.Sem Idealize.ShloMosaic.StableHlo Idealize.ShloMosaic.ValueIdx

/-! ## Softplus of an array, as the reference spells it -/

/-- The stable softplus over an array x, with z the array of zeros it is written against: where x - z differs from
    itself take x + z, else max x z + log1p (exp (-|x - z|)). -/
def spArr {s : Shape} (z x : FVec Ideal s .f32) : FVec Ideal s .f32 :=
  select (cmpf .une (subf x z) (subf x z)) (addf x z)
    (addf (maximumf x z) (Host.log1p (Host.exp (Host.negf (Host.absf (subf x z))))))

/-- At an index where z is zero it is the scalar softplus of the element: nothing differs from itself, so the guard
    takes its second branch, and subtracting or adding zero changes nothing. -/
theorem spArr_apply {s : Shape} (z x : FVec Ideal s .f32) (i : s.Idx) (hz : z i = 0) : spArr z x i = Spec.sp (x i) := by
  show Scalar.select (Ideal.cmp .une (x i - z i) (x i - z i)) (x i + z i)
      (max (x i) (z i) + Ideal.log1p (Ideal.exp (-(max (x i - z i) (-(x i - z i)))))) = _
  rw [hz, sub_zero]
  have hne : Ideal.cmp .une (x i) (x i) = 0#1 := by simp [Ideal.cmp]
  rw [hne, select_zero]
  rfl

/-- The zeros the edge scalar's softplus is written against. -/
abbrev zerosE1 : FVec Ideal S600000x1 .f32 :=
  broadcastInDim S600000x1 ![] bcast_S_S600000x1 (constant (F := Ideal) S_ .f32 0x00000000#32)

theorem zerosE1_apply (i : S600000x1.Idx) : zerosE1 i = 0 :=
  (show zerosE1 i = Ideal.ofBits .f32 0x00000000#32 from rfl).trans Ideal.ofBits_zero_f32

/-! ## The contraction over the 128 attribute columns -/

section Dot128

theorem lhs_attr_0 (i : S600000x1.Idx) (q : dot_S600000x128_S128x1_S600000x1_1_0_0_1_n_n.contr.Idx) : (dot_S600000x128_S128x1_S600000x1_1_0_0_1_n_n.lhsIdx i q 0).val = (i 0).val := by
  unfold DotDims.lhsIdx
  rw [dif_neg (show ¬(0 : Fin S600000x128.rank) ∈ dot_S600000x128_S128x1_S600000x1_1_0_0_1_n_n.lhsBatch by decide),
    dif_pos (show (0 : Fin S600000x128.rank) ∈ dot_S600000x128_S128x1_S600000x1_1_0_0_1_n_n.lhsNonContracting by decide)]
  rfl
theorem lhs_attr_1 (i : S600000x1.Idx) (q : dot_S600000x128_S128x1_S600000x1_1_0_0_1_n_n.contr.Idx) : (dot_S600000x128_S128x1_S600000x1_1_0_0_1_n_n.lhsIdx i q 1).val = (q ⟨0, by decide⟩).val :=
  dot_S600000x128_S128x1_S600000x1_1_0_0_1_n_n.lhsIdx_val_of_single rfl i q
theorem rhs_attr_0 (i : S600000x1.Idx) (q : dot_S600000x128_S128x1_S600000x1_1_0_0_1_n_n.contr.Idx) : (dot_S600000x128_S128x1_S600000x1_1_0_0_1_n_n.rhsIdx i q 0).val = (q ⟨0, by decide⟩).val :=
  dot_S600000x128_S128x1_S600000x1_1_0_0_1_n_n.rhsIdx_val_of_single rfl i q
theorem rhs_attr_1 (i : S600000x1.Idx) (q : dot_S600000x128_S128x1_S600000x1_1_0_0_1_n_n.contr.Idx) : (dot_S600000x128_S128x1_S600000x1_1_0_0_1_n_n.rhsIdx i q 1).val = (i 1).val := by
  unfold DotDims.rhsIdx
  rw [dif_neg (show ¬(1 : Fin S128x1.rank) ∈ dot_S600000x128_S128x1_S600000x1_1_0_0_1_n_n.rhsBatch by decide),
    dif_pos (show (1 : Fin S128x1.rank) ∈ dot_S600000x128_S128x1_S600000x1_1_0_0_1_n_n.rhsNonContracting by decide)]
  rfl

/-- Entry (e, 0) of the product [E, 128] · [128, 1]: the sum over the 128 columns. -/
theorem dot_attr_apply (A : FVec Ideal S600000x128 .f32) (B : FVec Ideal S128x1 .f32) (e : Fin 600000) :
    Host.dotGeneral (F := Ideal) dot_S600000x128_S128x1_S600000x1_1_0_0_1_n_n none A B (ix2 e 0) = ∑ k : Fin 128, A (ix2 e k) * B (ix2 k 0) := by
  simp only [Host.dotGeneral]
  rw [Ideal.dotGeneral_apply, ← Equiv.sum_comp (ValueIdx.contrEquiv1 dot_S600000x128_S128x1_S600000x1_1_0_0_1_n_n 128 rfl rfl).symm]
  refine Finset.sum_congr rfl fun k _ => ?_
  have hk := ValueIdx.contrEquiv1_symm_val dot_S600000x128_S128x1_S600000x1_1_0_0_1_n_n 128 rfl rfl k
  have el : dot_S600000x128_S128x1_S600000x1_1_0_0_1_n_n.lhsIdx (ix2 e 0) ((ValueIdx.contrEquiv1 dot_S600000x128_S128x1_S600000x1_1_0_0_1_n_n 128 rfl rfl).symm k) = ix2 e k := funext fun a => Fin.ext (by
    match a with
    | ⟨0, _⟩ => exact lhs_attr_0 _ _
    | ⟨1, _⟩ => exact (lhs_attr_1 _ _).trans hk)
  have er : dot_S600000x128_S128x1_S600000x1_1_0_0_1_n_n.rhsIdx (ix2 e 0) ((ValueIdx.contrEquiv1 dot_S600000x128_S128x1_S600000x1_1_0_0_1_n_n 128 rfl rfl).symm k) = ix2 k 0 := funext fun a => Fin.ext (by
    match a with
    | ⟨0, _⟩ => exact (rhs_attr_0 _ _).trans hk
    | ⟨1, _⟩ => exact rhs_attr_1 _ _)
  rw [el, er]

end Dot128

/-- The one-entry bias, broadcast to [1, 1] and then down the E rows, reads its one entry everywhere. -/
theorem bias_apply (b : FVec Ideal S1 .f32) (e : Fin 600000) :
    broadcastInDim S600000x1 ![0, 1] bcast_S1x1_S600000x1_0_1 (broadcastInDim S1x1 ![1] bcast_S1_S1x1_1 b) (ix2 e 0)
      = b (ix1 0) := by
  rw [broadcastInDim_apply _ _ _ _ (ix2 (0 : Fin 1) (0 : Fin 1)) (fun a => by match a with | ⟨0, _⟩ => rfl | ⟨1, _⟩ => rfl),
    broadcastInDim_apply _ _ _ _ (ix1 (0 : Fin 1)) (fun a => by match a with | ⟨0, _⟩ => rfl)]

/-! ## The edge scalar -/

set_option maxRecDepth 8192 in
set_option maxHeartbeats 4000000 in
/-- The edge scalar's buffer after the whole line, as a term of the arguments. -/
theorem edge_term (L : Valuation τ sig (Elt Ideal)) :
    after (ops (F := Ideal)) L (main_v13 : DevRef τ sig)
      = spArr zerosE1 (addf (Host.dotGeneral (F := Ideal) (φ₁ := .f32) (φ₂ := .f32) dot_S600000x128_S128x1_S600000x1_1_0_0_1_n_n none
            (L (main_arg3 : DevRef τ sig)) (L (main_arg6 : DevRef τ sig)))
          (broadcastInDim S600000x1 ![0, 1] bcast_S1x1_S600000x1_0_1
            (broadcastInDim S1x1 ![1] bcast_S1_S1x1_1 (L (main_arg7 : DevRef τ sig) : FVec Ideal S1 .f32)))) := by
  after_results_simp
  rfl

/-- Entry e of the edge scalar: softplus of the edge's attribute row times the weight column, plus the bias. -/
theorem ref_edge_at (L : Valuation τ sig (Elt Ideal)) (e : Fin 600000) :
    (after (ops (F := Ideal)) L (main_v13 : DevRef τ sig) : S600000x1.Idx → EReal) (ix2 e 0)
      = Spec.edgeG (L (main_arg3 : DevRef τ sig)) (fun k => (L (main_arg6 : DevRef τ sig) : S128x1.Idx → EReal) (ix2 k 0))
          ((L (main_arg7 : DevRef τ sig) : S1.Idx → EReal) (ix1 0)) e := by
  rw [edge_term, spArr_apply _ _ _ (zerosE1_apply _), addf_apply, dot_attr_apply, bias_apply]
  rfl

/-! ## The two products with a table's last row -/

section Dot1

theorem lhs_row_0 (i : S600000x128.Idx) (q : dot_S600000x1_S1x128_S600000x128_1_0_0_1_n_n.contr.Idx) : (dot_S600000x1_S1x128_S600000x128_1_0_0_1_n_n.lhsIdx i q 0).val = (i 0).val := by
  unfold DotDims.lhsIdx
  rw [dif_neg (show ¬(0 : Fin S600000x1.rank) ∈ dot_S600000x1_S1x128_S600000x128_1_0_0_1_n_n.lhsBatch by decide),
    dif_pos (show (0 : Fin S600000x1.rank) ∈ dot_S600000x1_S1x128_S600000x128_1_0_0_1_n_n.lhsNonContracting by decide)]
  rfl
theorem lhs_row_1 (i : S600000x128.Idx) (q : dot_S600000x1_S1x128_S600000x128_1_0_0_1_n_n.contr.Idx) : (dot_S600000x1_S1x128_S600000x128_1_0_0_1_n_n.lhsIdx i q 1).val = (q ⟨0, by decide⟩).val :=
  dot_S600000x1_S1x128_S600000x128_1_0_0_1_n_n.lhsIdx_val_of_single rfl i q
theorem rhs_row_0 (i : S600000x128.Idx) (q : dot_S600000x1_S1x128_S600000x128_1_0_0_1_n_n.contr.Idx) : (dot_S600000x1_S1x128_S600000x128_1_0_0_1_n_n.rhsIdx i q 0).val = (q ⟨0, by decide⟩).val :=
  dot_S600000x1_S1x128_S600000x128_1_0_0_1_n_n.rhsIdx_val_of_single rfl i q
theorem rhs_row_1 (i : S600000x128.Idx) (q : dot_S600000x1_S1x128_S600000x128_1_0_0_1_n_n.contr.Idx) : (dot_S600000x1_S1x128_S600000x128_1_0_0_1_n_n.rhsIdx i q 1).val = (i 1).val := by
  unfold DotDims.rhsIdx
  rw [dif_neg (show ¬(1 : Fin S1x128.rank) ∈ dot_S600000x1_S1x128_S600000x128_1_0_0_1_n_n.rhsBatch by decide),
    dif_pos (show (1 : Fin S1x128.rank) ∈ dot_S600000x1_S1x128_S600000x128_1_0_0_1_n_n.rhsNonContracting by decide)]
  rfl

/-- Entry (e, j) of the product [E, 1] · [1, 128]: a contraction over one index, so one product. -/
theorem dot_row_apply (Y : FVec Ideal S600000x1 .f32) (W : FVec Ideal S1x128 .f32) (e : Fin 600000) (j : Fin 128) :
    Host.dotGeneral (F := Ideal) dot_S600000x1_S1x128_S600000x128_1_0_0_1_n_n none Y W (ix2 e j) = Y (ix2 e 0) * W (ix2 0 j) := by
  simp only [Host.dotGeneral]
  rw [Ideal.dotGeneral_apply, ← Equiv.sum_comp (ValueIdx.contrEquiv1 dot_S600000x1_S1x128_S600000x128_1_0_0_1_n_n 1 rfl rfl).symm, Fin.sum_univ_one]
  have hk := ValueIdx.contrEquiv1_symm_val dot_S600000x1_S1x128_S600000x128_1_0_0_1_n_n 1 rfl rfl 0
  have el : dot_S600000x1_S1x128_S600000x128_1_0_0_1_n_n.lhsIdx (ix2 e j) ((ValueIdx.contrEquiv1 dot_S600000x1_S1x128_S600000x128_1_0_0_1_n_n 1 rfl rfl).symm 0) = ix2 e 0 := funext fun a => Fin.ext (by
    match a with
    | ⟨0, _⟩ => exact lhs_row_0 _ _
    | ⟨1, _⟩ => exact (lhs_row_1 _ _).trans hk)
  have er : dot_S600000x1_S1x128_S600000x128_1_0_0_1_n_n.rhsIdx (ix2 e j) ((ValueIdx.contrEquiv1 dot_S600000x1_S1x128_S600000x128_1_0_0_1_n_n 1 rfl rfl).symm 0) = ix2 0 j := funext fun a => Fin.ext (by
    match a with
    | ⟨0, _⟩ => exact (rhs_row_0 _ _).trans hk
    | ⟨1, _⟩ => exact rhs_row_1 _ _)
  rw [el, er]

end Dot1

/-- The one-row slice of a 257-row table that starts at row 256 reads the table's row 256. -/
theorem lastRow_apply (X : FVec Ideal S257x128 .f32) (j : Fin 128) :
    extractStridedSlice S1x128 ![256, 0] X slices_S257x128_S1x128_256_0 (ix2 (0 : Fin 1) j) = X (ix2 (256 : Fin 257) j) := by
  unfold extractStridedSlice
  refine congrArg X (funext fun a => Fin.ext ?_)
  match a with
  | ⟨0, _⟩ => rfl
  | ⟨1, _⟩ => exact Nat.zero_add _

set_option maxRecDepth 8192 in
set_option maxHeartbeats 4000000 in
/-- The sigmoid factor's edge term after the whole line: the edge scalar's buffer times the last row of its table. -/
theorem ef_term (L : Valuation τ sig (Elt Ideal)) :
    (after (ops (F := Ideal)) L (main_v23 : DevRef τ sig) : FVec Ideal S600000x128 .f32)
      = Host.dotGeneral (F := Ideal) (φ₁ := .f32) (φ₂ := .f32) dot_S600000x1_S1x128_S600000x128_1_0_0_1_n_n none
          (after (ops (F := Ideal)) L (main_v13 : DevRef τ sig))
          (extractStridedSlice S1x128 ![256, 0] (L (main_arg8 : DevRef τ sig) : FVec Ideal S257x128 .f32) slices_S257x128_S1x128_256_0) := by
  after_results_simp <;> rfl

set_option maxRecDepth 8192 in
set_option maxHeartbeats 4000000 in
/-- The softplus factor's edge term after the whole line: the edge scalar's buffer times the last row of its table. -/
theorem es_term (L : Valuation τ sig (Elt Ideal)) :
    (after (ops (F := Ideal)) L (main_v25 : DevRef τ sig) : FVec Ideal S600000x128 .f32)
      = Host.dotGeneral (F := Ideal) (φ₁ := .f32) (φ₂ := .f32) dot_S600000x1_S1x128_S600000x128_1_0_0_1_n_n none
          (after (ops (F := Ideal)) L (main_v13 : DevRef τ sig))
          (extractStridedSlice S1x128 ![256, 0] (L (main_arg10 : DevRef τ sig) : FVec Ideal S257x128 .f32) slices_S257x128_S1x128_256_0) := by
  after_results_simp <;> rfl

/-- Entry (e, j) of the sigmoid factor's edge term: the edge scalar times entry j of its table's row 256. -/
theorem ref_ef_at (L : Valuation τ sig (Elt Ideal)) (e : Fin 600000) (j : Fin 128) :
    (after (ops (F := Ideal)) L (main_v23 : DevRef τ sig) : S600000x128.Idx → EReal) (ix2 e j)
      = HMul.hMul (α := EReal) (β := EReal) (γ := EReal)
          ((after (ops (F := Ideal)) L (main_v13 : DevRef τ sig) : S600000x1.Idx → EReal) (ix2 e 0))
          ((L (main_arg8 : DevRef τ sig) : S257x128.Idx → EReal) (ix2 (256 : Fin 257) j)) := by
  rw [ef_term, dot_row_apply, lastRow_apply]

/-- Entry (e, j) of the softplus factor's edge term: the edge scalar times entry j of its table's row 256. -/
theorem ref_es_at (L : Valuation τ sig (Elt Ideal)) (e : Fin 600000) (j : Fin 128) :
    (after (ops (F := Ideal)) L (main_v25 : DevRef τ sig) : S600000x128.Idx → EReal) (ix2 e j)
      = HMul.hMul (α := EReal) (β := EReal) (γ := EReal)
          ((after (ops (F := Ideal)) L (main_v13 : DevRef τ sig) : S600000x1.Idx → EReal) (ix2 e 0))
          ((L (main_arg10 : DevRef τ sig) : S257x128.Idx → EReal) (ix2 (256 : Fin 257) j)) := by
  rw [es_term, dot_row_apply, lastRow_apply]

end Cert.ReferenceIdeal.ReadScalar

end
-- ==== Proof.RefFinal.lean ====
/-
  The reference's last stage, read at an index.

  The reference ends with eighteen operations that normalise the per-node aggregate: the column means and the column
  variances (row vectors of 128 entries) are laid along the rows of the [50000, 128] rectangle, the aggregate minus the
  mean is multiplied by the reciprocal square root of the variance plus a small constant, scaled by gamma, shifted by beta,
  and the node projection is added twice. Composed, they are one function of six arrays; at entry (n, j) that function
  is `Spec.bnG` of the six arrays' entries at (n, j) or at j.

  The line of 171 operations is cut after the 153rd. The last eighteen, run from ANY contents `W`, leave the six arrays
  they read from before them as `W` has them and write the composed function of those into the result; taking for `W`
  what the first 153 leave, and reading the six arrays back through the same eighteen, states the result in terms of the
  whole line's own values. No operation writes an argument, so the two scale arguments are as launched.
-/
import proofs.«413223_j3856880632376_1_alg».proof.Proof.RefOps
import proofs.«413223_j3856880632376_1_alg».proof.Proof.Spec
import Idealize.ShloMosaic.Lib.StableHlo.Run
import Idealize.ShloMosaic.Lib.StableHlo.Predicate
import Idealize.ShloMosaic.Lib.ValueIdx
import Idealize.ShloMosaic.PureOps.Ideal

noncomputable section

namespace Cert.ReferenceIdeal.ReadFinal

open Cert.ReferenceIdeal Cert.ReferenceIdeal.Gen Cert.ReferenceIdeal.Run
open Idealize.ShloMosaic Idealize.ShloMosaic.TcCoe Idealize.SL.Sem Idealize.ShloMosaic.StableHlo Idealize.ShloMosaic.ValueIdx

/-! ## Broadcasts read at an index -/

/-- A row vector laid along the second axis of the [50000, 128] rectangle (through a [1, 128] row) reads, at (n, j), the
    vector at j. -/
theorem bcast_row_apply {α : Type} (v : S128.Idx → α) (n : Fin 50000) (j : Fin 128) :
    broadcastInDim S50000x128 ![0, 1] bcast_S1x128_S50000x128_0_1 (broadcastInDim S1x128 ![1] bcast_S128_S1x128_1 v) (ix2 n j)
      = v (ix1 j) := by
  have e1 : StableHlo.Predicate.ij n j = ix2 n j := by
    funext a; match a with | ⟨0, _⟩ => rfl | ⟨1, _⟩ => rfl
  have e2 : (Shape.Idx.ofFin j : S128.Idx) = ix1 j := by
    funext a; match a with | ⟨0, _⟩ => rfl
  rw [← e1, ← e2]
  exact StableHlo.Predicate.bcast_cols bcast_S128_S1x128_1 bcast_S1x128_S50000x128_0_1 v n j

/-- A scalar laid along a vector of 128 reads the scalar everywhere. -/
theorem bcast_scalar_apply {α : Type} (v : S_.Idx → α) (j : Fin 128) :
    broadcastInDim S128 ![] bcast_S_S128 v (ix1 j) = v ix0 :=
  (StableHlo.Predicate.bcast_scalar bcast_S_S128 h_S_ v (ix1 j)).trans (congrArg v (eq_ix0 _))

/-! ## The last stage as one function of six arrays -/

variable {F : FTy → Type} [FloatOps F]

/-- The last eighteen operations composed: out + ((((aggr − mean) · rsqrt (var + ε)) · gamma + beta) + out), the row
    vectors laid along the second axis. -/
def bnTail (aggr out : FVec F S50000x128 .f32) (mean var gamma beta : FVec F S128 .f32) : FVec F S50000x128 .f32 :=
  addf out
    (addf
      (addf
        (mulf
          (mulf
            (subf aggr (broadcastInDim S50000x128 ![0, 1] bcast_S1x128_S50000x128_0_1 (broadcastInDim S1x128 ![1] bcast_S128_S1x128_1 mean)))
            (broadcastInDim S50000x128 ![0, 1] bcast_S1x128_S50000x128_0_1 (broadcastInDim S1x128 ![1] bcast_S128_S1x128_1
              (Host.rsqrt (addf var (broadcastInDim S128 ![] bcast_S_S128 (constant S_ .f32 0x3727C5AC#32)))))))
          (broadcastInDim S50000x128 ![0, 1] bcast_S1x128_S50000x128_0_1 (broadcastInDim S1x128 ![1] bcast_S128_S1x128_1 gamma)))
        (broadcastInDim S50000x128 ![0, 1] bcast_S1x128_S50000x128_0_1 (broadcastInDim S1x128 ![1] bcast_S128_S1x128_1 beta)))
      out)

/-- Read at (n, j) over the extended reals: the four row vectors are read at j, the sums, products and the difference
    entry by entry, the host's reciprocal square root is the extended reals', the constant is its word's value. -/
theorem bnTail_apply (aggr out : FVec Ideal S50000x128 .f32) (mean var gamma beta : FVec Ideal S128 .f32)
    (n : Fin 50000) (j : Fin 128) :
    bnTail aggr out mean var gamma beta (ix2 n j)
      = Cert.Spec.bnG (aggr (ix2 n j)) (out (ix2 n j)) (mean (ix1 j)) (var (ix1 j)) (gamma (ix1 j)) (beta (ix1 j)) := by
  unfold bnTail Cert.Spec.bnG
  simp only [addf_apply, mulf_apply, subf_apply]
  rw [bcast_row_apply mean n j, bcast_row_apply gamma n j, bcast_row_apply beta n j, bcast_row_apply _ n j]
  simp only [Host.rsqrt, Ideal.hostUnary_rsqrt_def, addf_apply]
  rw [bcast_scalar_apply]
  rfl

/-! ## The fold through the operations -/

/-- A line run in two pieces. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The 171 operations as the first 153, then the last eighteen. -/
theorem after_split (L : Valuation τ sig (Elt F)) :
    after ops L = after (ops.drop 153) (after (ops.take 153) L) := by
  rw [← after_append', List.take_append_drop]

/-- The last eighteen operations, from any contents, leave the composed last stage in the result array. -/
theorem tail_v95 (W : Valuation τ sig (Elt F)) :
    after (ops.drop 153) W (main_v95 : DevRef τ sig)
      = bnTail (W (main_v74 : DevRef τ sig)) (W (main_v8 : DevRef τ sig)) (W (main_v77 : DevRef τ sig))
          (W (main_v78 : DevRef τ sig)) (W (main_arg12 : DevRef τ sig)) (W (main_arg13 : DevRef τ sig)) := by
  simp only [ops, List.drop_succ_cons, List.drop_zero]
  after_results_simp
  rfl

/-- The last eighteen operations write none of the six arrays they read from before them. -/
theorem tail_keep (W : Valuation τ sig (Elt F)) :
    after (ops.drop 153) W (main_v74 : DevRef τ sig) = W (main_v74 : DevRef τ sig)
    ∧ after (ops.drop 153) W (main_v8 : DevRef τ sig) = W (main_v8 : DevRef τ sig)
    ∧ after (ops.drop 153) W (main_v77 : DevRef τ sig) = W (main_v77 : DevRef τ sig)
    ∧ after (ops.drop 153) W (main_v78 : DevRef τ sig) = W (main_v78 : DevRef τ sig)
    ∧ after (ops.drop 153) W (main_arg12 : DevRef τ sig) = W (main_arg12 : DevRef τ sig)
    ∧ after (ops.drop 153) W (main_arg13 : DevRef τ sig) = W (main_arg13 : DevRef τ sig) := by
  simp only [ops, List.drop_succ_cons, List.drop_zero]
  after_results_simp
  exact ⟨trivial, trivial, trivial, trivial, trivial, trivial⟩

/-- The result array is the last stage applied to the aggregate, the projection, the mean, the variance and the two
    scale arguments, each as the whole line leaves it. -/
theorem res_eq (L : Valuation τ sig (Elt F)) :
    after ops L (main_v95 : DevRef τ sig)
      = bnTail (after ops L (main_v74 : DevRef τ sig)) (after ops L (main_v8 : DevRef τ sig))
          (after ops L (main_v77 : DevRef τ sig)) (after ops L (main_v78 : DevRef τ sig))
          (after ops L (main_arg12 : DevRef τ sig)) (after ops L (main_arg13 : DevRef τ sig)) := by
  rw [after_split L]
  generalize after (ops.take 153) L = W
  obtain ⟨h1, h2, h3, h4, h5, h6⟩ := tail_keep W
  rw [h1, h2, h3, h4, h5, h6]
  exact tail_v95 W

/-- No operation of the line writes an argument array. -/
theorem arg_keep (L : Valuation τ sig (Elt F)) :
    after ops L (main_arg12 : DevRef τ sig) = L (main_arg12 : DevRef τ sig)
    ∧ after ops L (main_arg13 : DevRef τ sig) = L (main_arg13 : DevRef τ sig) := by
  refine ⟨?_, ?_⟩
  all_goals
    refine after_of_forall_not_mem _ _ (List.forall_iff_forall_mem.mp ?_)
    simp only [ops, List.Forall, nullary_writes, unary_writes, binary_writes, ternary_writes, quaternary_writes, reshape_writes,
      Finset.mem_singleton]
    repeat' apply And.intro
    all_goals exact devRef_ne_of_ne (by decide)

/-! ## The result at an index -/

/-- THE LAST STAGE AT (n, j): the reference's result is `Spec.bnG` of the aggregate and the projection at (n, j), the
    mean and the variance at j, and gamma and beta as launched at j. -/
theorem ref_res_at (L : Valuation τ sig (Elt Ideal)) (n : Fin 50000) (j : Fin 128) :
    (after ops L (main_v95 : DevRef τ sig) : Cert.Spec.NC.Idx → EReal) (ix2 n j)
      = Cert.Spec.bnG ((after ops L (main_v74 : DevRef τ sig) : Cert.Spec.NC.Idx → EReal) (ix2 n j))
          ((after ops L (main_v8 : DevRef τ sig) : Cert.Spec.NC.Idx → EReal) (ix2 n j))
          ((after ops L (main_v77 : DevRef τ sig) : Cert.Spec.Cv.Idx → EReal) (ix1 j))
          ((after ops L (main_v78 : DevRef τ sig) : Cert.Spec.Cv.Idx → EReal) (ix1 j))
          ((L (main_arg12 : DevRef τ sig) : Cert.Spec.Cv.Idx → EReal) (ix1 j))
          ((L (main_arg13 : DevRef τ sig) : Cert.Spec.Cv.Idx → EReal) (ix1 j)) := by
  obtain ⟨e12, e13⟩ := arg_keep L
  rw [← e12, ← e13]
  refine (congrFun (res_eq L) (ix2 n j)).trans ?_
  exact bnTail_apply _ _ _ _ _ _ n j

end Cert.ReferenceIdeal.ReadFinal

end
-- ==== Proof.RefEdges.lean ====
/-
  The reference's per-edge message, read at an edge and a column.

  For every edge the reference gathers, from four node tables, the row of the edge's target node and the row of its source
  node, adds the edge's own term and a bias vector, and multiplies the logistic function of one such sum (the gate) by the
  softplus of the other (the core). Here that stretch of the program is written once as a function of the arrays it reads;
  the function is read at an index (a gather of rows reads the table at the index word, signed and clamped into the node
  range; on index words that are nodes the wrap of negative words does nothing; the sigmoid written as 1 / (1 + e^(-x)) is the
  logistic function and the softplus written with a select on x ≠ x is the stable softplus, because an extended real never
  differs from itself); and the run of the whole line of operations is shown to leave that function's value in the message
  buffer, by cutting the line once in front of the stretch.
-/
import proofs.«413223_j3856880632376_1_alg».proof.Proof.RefOps
import proofs.«413223_j3856880632376_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.Lib.StableHlo.Run

noncomputable section

namespace Cert.ReferenceIdeal.ReadEdges

open Cert.ReferenceIdeal Cert.ReferenceIdeal.Gen Cert.ReferenceIdeal.Run Idealize.ShloMosaic Idealize.ShloMosaic.TcCoe
  Idealize.SL.Sem Idealize.ShloMosaic.StableHlo Idealize.ShloMosaic.ValueIdx

/-! ## The message as one function of the stage arrays

The per-edge stretch of the reference, written once as a function of the arrays it reads: the four node tables, the two
edge tables, the two rows of the index array and the two bias vectors. -/

/-- The zero index word, over the edges. -/
abbrev zI : IVec S600000 32 := broadcastInDim S600000 ![] bcast_S_S600000 (constantI S_ 32 0#32)
/-- The node count as an index word, over the edges. -/
abbrev nI : IVec S600000 32 := broadcastInDim S600000 ![] bcast_S_S600000 (constantI S_ 32 50000#32)
/-- A negative index word counts from the end: `idx < 0 ? idx + 50000 : idx`. -/
abbrev wrapV (v : IVec S600000 32) : IVec S600000 32 := select (cmpi .slt v zI) (addi v nI) v
/-- The rows of a node table that the (wrapped) index words name, one per edge. -/
abbrev rowsV (t : FVec Ideal S50000x128 .f32) (v : IVec S600000 32) : FVec Ideal S600000x128 .f32 :=
  Host.gather gather_S50000x128_S600000x1_S600000x128_1_0_n_n_0_1_1128 t
    (broadcastInDim S600000x1 ![0] bcast_S600000_S600000x1_0 (wrapV v))
/-- A bias vector repeated over the edges. -/
abbrev biasV (b : FVec Ideal S128 .f32) : FVec Ideal S600000x128 .f32 :=
  broadcastInDim S600000x128 ![0, 1] bcast_S1x128_S600000x128_0_1 (broadcastInDim S1x128 ![1] bcast_S128_S1x128_1 b)
/-- The argument of the gate (or of the core): target rows + source rows + the edge's own term + the bias. -/
abbrev preV (t1 t2 : FVec Ideal S50000x128 .f32) (ed : FVec Ideal S600000x128 .f32) (b : FVec Ideal S128 .f32)
    (vd vs : IVec S600000 32) : FVec Ideal S600000x128 .f32 :=
  addf (addf (addf (rowsV t1 vd) (rowsV t2 vs)) ed) (biasV b)
/-- The constant one over the edge array. -/
abbrev oneV : FVec Ideal S600000x128 .f32 :=
  broadcastInDim S600000x128 ![] bcast_S_S600000x128 (constant (F := Ideal) S_ .f32 0x3F800000#32)
/-- The constant zero over the edge array. -/
abbrev zeroV : FVec Ideal S600000x128 .f32 :=
  broadcastInDim S600000x128 ![] bcast_S_S600000x128 (constant (F := Ideal) S_ .f32 0x00000000#32)
/-- The sigmoid as it is printed: 1 / (1 + e^(-x)). -/
abbrev sigV (x : FVec Ideal S600000x128 .f32) : FVec Ideal S600000x128 .f32 :=
  Host.divf oneV (addf oneV (Host.exp (Host.negf x)))
/-- The softplus as it is printed: where x - 0 differs from itself, x + 0; elsewhere max x 0 + log1p (e^(-|x - 0|)). -/
abbrev splusV (x : FVec Ideal S600000x128 .f32) : FVec Ideal S600000x128 .f32 :=
  select (cmpf .une (subf x zeroV) (subf x zeroV)) (addf x zeroV)
    (addf (maximumf x zeroV) (Host.log1p (Host.exp (Host.negf (Host.absf (subf x zeroV))))))
/-- The message array: gate times core. -/
abbrev msgV (t15 t17 t19 t21 : FVec Ideal S50000x128 .f32) (e23 e25 : FVec Ideal S600000x128 .f32)
    (vd vs : IVec S600000 32) (bf bs : FVec Ideal S128 .f32) : FVec Ideal S600000x128 .f32 :=
  mulf (sigV (preV t15 t17 e23 bf vd vs)) (splusV (preV t19 t21 e25 bs vd vs))
/-- Row 0 of the index array (the source nodes) as a flat vector. -/
abbrev idxRow0 (ei : IVec S2x600000 32) : IVec S600000 32 :=
  shapeCast S600000 (extractStridedSlice S1x600000 ![0, 0] ei slices_S2x600000_S1x600000_0_0) shapeCasts_S1x600000_S600000
/-- Row 1 of the index array (the target nodes) as a flat vector. -/
abbrev idxRow1 (ei : IVec S2x600000 32) : IVec S600000 32 :=
  shapeCast S600000 (extractStridedSlice S1x600000 ![1, 0] ei slices_S2x600000_S1x600000_1_0) shapeCasts_S1x600000_S600000

/-! ## The pieces read at an index -/

/-- Row 0 of the index array at edge `e`. -/
theorem idxRow0_apply (ei : IVec S2x600000 32) (e : Fin 600000) : idxRow0 ei (ix1 e) = ei (ix2 (0 : Fin 2) e) :=
  (shapeCast_1a_a_apply _ shapeCasts_S1x600000_S600000 e).trans
    (slice2_axis0_apply 0 ei slices_S2x600000_S1x600000_0_0 (0 : Fin 1) e (0 : Fin 2) rfl)

/-- Row 1 of the index array at edge `e`. -/
theorem idxRow1_apply (ei : IVec S2x600000 32) (e : Fin 600000) : idxRow1 ei (ix1 e) = ei (ix2 (1 : Fin 2) e) :=
  (shapeCast_1a_a_apply _ shapeCasts_S1x600000_S600000 e).trans
    (slice2_axis0_apply 1 ei slices_S2x600000_S1x600000_1_0 (0 : Fin 1) e (1 : Fin 2) rfl)

/-- A word that reads as a non-negative integer is not below zero. -/
theorem cmpi_slt_zero_of_nonneg (x : BitVec 32) (h : 0 ≤ x.toInt) : IntOp.cmpi .slt x 0#32 = 0#1 := by
  have hz : (0#32 : BitVec 32).toInt = 0 := by decide
  have hs : x.slt 0#32 = false := by
    show decide (x.toInt < (0#32 : BitVec 32).toInt) = false
    rw [hz]
    exact decide_eq_false (by omega)
  show BitVec.ofBool (x.slt 0#32) = 0#1
  rw [hs]
  rfl

/-- On a non-negative index word the wrap does nothing. -/
theorem wrapV_apply (v : IVec S600000 32) (e : Fin 600000) (h0 : 0 ≤ (v (ix1 e)).toInt) : wrapV v (ix1 e) = v (ix1 e) := by
  show Scalar.select (IntOp.cmpi .slt (v (ix1 e)) 0#32) (IntOp.addi (v (ix1 e)) 50000#32) (v (ix1 e)) = v (ix1 e)
  rw [cmpi_slt_zero_of_nonneg _ h0, select_zero]

/-- The gather of one table row per edge, read at `(e, j)`: the table at the row the edge's index word names — read signed and
    clamped into the node range — and column `j`. -/
theorem gatherRow_apply (t : FVec Ideal S50000x128 .f32) (idx : IVec S600000x1 32) (e : Fin 600000) (j : Fin 128) :
    Host.gather gather_S50000x128_S600000x1_S600000x128_1_0_n_n_0_1_1128 t idx (ix2 e j)
      = t (ix2 (⟨min (idx (ix2 e (0 : Fin 1))).toInt.toNat 49999, by omega⟩ : Fin 50000) j) := by
  unfold Host.gather
  congr 1
  funext a
  refine Fin.ext ?_
  match a with
  | ⟨0, _⟩ =>
    show gather_S50000x128_S600000x1_S600000x128_1_0_n_n_0_1_1128.start (ix2 e j) idx 0
        + gather_S50000x128_S600000x1_S600000x128_1_0_n_n_0_1_1128.batchCoord (ix2 e j) 0
        + gather_S50000x128_S600000x1_S600000x128_1_0_n_n_0_1_1128.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x128_S600000x1_S600000x128_1_0_n_n_0_1_1128.startIndexMap from
      List.mem_singleton.mpr rfl)]
    have hsi : gather_S50000x128_S600000x1_S600000x128_1_0_n_n_0_1_1128.siIdx (ix2 e j)
        ⟨List.idxOf (0 : Fin 2) gather_S50000x128_S600000x1_S600000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S50000x128_S600000x1_S600000x128_1_0_n_n_0_1_1128.start (ix2 e j) idx 1
        + gather_S50000x128_S600000x1_S600000x128_1_0_n_n_0_1_1128.batchCoord (ix2 e j) 1
        + gather_S50000x128_S600000x1_S600000x128_1_0_n_n_0_1_1128.offCoord (ix2 e j) 1 = j.val
    rw [GatherDims.batchCoord_eq_zero _ _ _ List.not_mem_nil]
    have hst : gather_S50000x128_S600000x1_S600000x128_1_0_n_n_0_1_1128.start (ix2 e j) idx 1 = 0 := by
      unfold GatherDims.start
      rw [dif_neg (show ¬ (1 : Fin 2) ∈ gather_S50000x128_S600000x1_S600000x128_1_0_n_n_0_1_1128.startIndexMap from by
        intro h; exact absurd (List.mem_singleton.mp h) (by decide))]
    rw [hst]
    have hk : (1 : Fin 2) ∈ gather_S50000x128_S600000x1_S600000x128_1_0_n_n_0_1_1128.sKept :=
      (GatherDims.mem_sKept _ _).mpr ⟨fun h => absurd (List.mem_singleton.mp h) (by decide), List.not_mem_nil⟩
    unfold GatherDims.offCoord
    rw [dif_pos hk]
    simp only [Nat.zero_add]
    have hall : ∀ (n : Nat) (h : n < gather_S50000x128_S600000x1_S600000x128_1_0_n_n_0_1_1128.offsetDims.length),
        gather_S50000x128_S600000x1_S600000x128_1_0_n_n_0_1_1128.offsetDims[n]'h = (1 : Fin S600000x128.rank) := by
      intro n h
      have hl : gather_S50000x128_S600000x1_S600000x128_1_0_n_n_0_1_1128.offsetDims.length = 1 := rfl
      have hn : n = 0 := by omega
      subst hn
      rfl
    have key : ∀ a : Fin S600000x128.rank, a = 1 → ((ix2 e j : S600000x128.Idx) a).val = j.val := by
      intro a ha; subst ha; rfl
    exact key _ (hall _ _)

/-- A bias vector repeated over the edges reads its entry at the column. -/
theorem biasV_apply (b : FVec Ideal S128 .f32) (e : Fin 600000) (j : Fin 128) : biasV b (ix2 e j) = b (ix1 j) := by
  refine (broadcastInDim_apply _ _ _ (ix2 e j) (ix2 (0 : Fin 1) j) ?_).trans ?_
  · intro a
    match a with
    | ⟨0, _⟩ => rfl
    | ⟨1, _⟩ => rfl
  · refine (broadcastInDim_apply _ _ _ (ix2 (0 : Fin 1) j) (ix1 j) ?_).trans rfl
    intro a
    match a with
    | ⟨0, _⟩ => rfl

/-- The table rows gathered for edge `e`, under the index range: the table at the node the index word names. -/
theorem rowsV_apply (t : FVec Ideal S50000x128 .f32) (v : IVec S600000 32) (e : Fin 600000) (j : Fin 128)
    (h0 : 0 ≤ (v (ix1 e)).toInt) :
    rowsV t v (ix2 e j) = t (ix2 (⟨min (v (ix1 e)).toInt.toNat 49999, by omega⟩ : Fin 50000) j) := by
  have hb : broadcastInDim S600000x1 ![0] bcast_S600000_S600000x1_0 (wrapV v) (ix2 e (0 : Fin 1)) = v (ix1 e) := by
    refine (broadcastInDim_apply _ _ _ (ix2 e (0 : Fin 1)) (ix1 e) ?_).trans (wrapV_apply v e h0)
    intro a
    match a with
    | ⟨0, _⟩ => rfl
  refine (gatherRow_apply t _ e j).trans (congrArg (fun n : Fin 50000 => t (ix2 n j)) (Fin.ext ?_))
  show min (broadcastInDim S600000x1 ![0] bcast_S600000_S600000x1_0 (wrapV v) (ix2 e (0 : Fin 1))).toInt.toNat 49999
    = min (v (ix1 e)).toInt.toNat 49999
  rw [hb]

/-- The printed sigmoid at an index is the logistic function of the entry. -/
theorem sigV_apply (x : FVec Ideal S600000x128 .f32) (i : S600000x128.Idx) : sigV x i = Ideal.logistic (x i) := by
  show Ideal.div (Ideal.ofBits .f32 0x3F800000#32) (Ideal.ofBits .f32 0x3F800000#32 + Ideal.exp (-(x i))) = Ideal.logistic (x i)
  rw [Ideal.ofBits_one_f32]
  rfl

/-- The printed softplus at an index is the stable softplus of the entry: an extended real never differs from itself, so the
    select takes its second branch. -/
theorem splusV_apply (x : FVec Ideal S600000x128 .f32) (i : S600000x128.Idx) : splusV x i = Spec.sp (x i) := by
  show Scalar.select (Ideal.cmp .une (x i - Ideal.ofBits .f32 0x00000000#32) (x i - Ideal.ofBits .f32 0x00000000#32))
      (x i + Ideal.ofBits .f32 0x00000000#32)
      (max (x i) (Ideal.ofBits .f32 0x00000000#32)
        + Ideal.log1p (Ideal.exp (-(max (x i - Ideal.ofBits .f32 0x00000000#32) (-(x i - Ideal.ofBits .f32 0x00000000#32))))))
    = Spec.sp (x i)
  rw [Ideal.ofBits_zero_f32, sub_zero]
  have hc : Ideal.cmp .une (x i) (x i) = 0#1 := by simp [Ideal.cmp]
  rw [hc, select_zero]
  rfl

/-- THE MESSAGE AT AN EDGE AND A COLUMN, under the index range: the gate's logistic times the core's softplus, each of the
    two end nodes' table rows plus the edge's own term plus the bias. -/
theorem msgV_apply (t15 t17 t19 t21 : FVec Ideal S50000x128 .f32) (e23 e25 : FVec Ideal S600000x128 .f32)
    (ei : IVec S2x600000 32) (bf bs : FVec Ideal S128 .f32)
    (hr : ∀ i : Spec.EI.Idx, 0 ≤ (ei i).toInt ∧ (ei i).toInt < 50000) (e : Fin 600000) (j : Fin 128) :
    msgV t15 t17 t19 t21 e23 e25 (idxRow1 ei) (idxRow0 ei) bf bs (ix2 e j)
      = Ideal.logistic (t15 (ix2 (Spec.nodeOf ei 1 e) j) + t17 (ix2 (Spec.nodeOf ei 0 e) j) + e23 (ix2 e j) + bf (ix1 j))
        * Spec.sp (t19 (ix2 (Spec.nodeOf ei 1 e) j) + t21 (ix2 (Spec.nodeOf ei 0 e) j) + e25 (ix2 e j) + bs (ix1 j)) := by
  have h1 : 0 ≤ (idxRow1 ei (ix1 e)).toInt := by rw [idxRow1_apply]; exact (hr _).1
  have h0 : 0 ≤ (idxRow0 ei (ix1 e)).toInt := by rw [idxRow0_apply]; exact (hr _).1
  have n1 : (⟨min (idxRow1 ei (ix1 e)).toInt.toNat 49999, by omega⟩ : Fin 50000) = Spec.nodeOf ei 1 e := by
    refine Fin.ext ?_
    show min (idxRow1 ei (ix1 e)).toInt.toNat 49999 = min (ei (ix2 1 e)).toInt.toNat 49999
    rw [idxRow1_apply]
  have n0 : (⟨min (idxRow0 ei (ix1 e)).toInt.toNat 49999, by omega⟩ : Fin 50000) = Spec.nodeOf ei 0 e := by
    refine Fin.ext ?_
    show min (idxRow0 ei (ix1 e)).toInt.toNat 49999 = min (ei (ix2 0 e)).toInt.toNat 49999
    rw [idxRow0_apply]
  show sigV (preV t15 t17 e23 bf (idxRow1 ei) (idxRow0 ei)) (ix2 e j)
      * splusV (preV t19 t21 e25 bs (idxRow1 ei) (idxRow0 ei)) (ix2 e j) = _
  rw [sigV_apply, splusV_apply]
  have hp : ∀ (ta tb : FVec Ideal S50000x128 .f32) (ed : FVec Ideal S600000x128 .f32) (b : FVec Ideal S128 .f32),
      preV ta tb ed b (idxRow1 ei) (idxRow0 ei) (ix2 e j)
        = ta (ix2 (Spec.nodeOf ei 1 e) j) + tb (ix2 (Spec.nodeOf ei 0 e) j) + ed (ix2 e j) + b (ix1 j) := by
    intro ta tb ed b
    show rowsV ta (idxRow1 ei) (ix2 e j) + rowsV tb (idxRow0 ei) (ix2 e j) + ed (ix2 e j) + biasV b (ix2 e j) = _
    rw [rowsV_apply ta _ e j h1, rowsV_apply tb _ e j h0, biasV_apply, n1, n0]
  rw [hp, hp]

/-! ## Reading the run

The reference's line of operations is cut once, in front of the first operation of the per-edge stretch (the first index
constant): what the stretch reads was written before the cut and is not written again, and what it computes is one
function of those arrays. -/

/-- A line of operations run from `V` is its first `k` operations run from `V`, then the rest run from there. -/
theorem after_take_drop {τ : Topo} {sig : RefSig} {Val : EltTy → Type} (k : Nat) :
    ∀ (l : List (HloOp τ sig Val)) (V : Valuation τ sig Val), after l V = after (l.drop k) (after (l.take k) V) := by
  induction k with
  | zero => intro l V; rfl
  | succ k ih =>
    intro l V
    cases l with
    | nil => rfl
    | cons op l => exact ih l (op.result V)

attribute [local irreducible] Host.gather in
set_option maxHeartbeats 4000000 in
/-- From the cut on, the message buffer is the message function of the arrays found at the cut. -/
theorem tail_msg (W : Valuation τ sig (Elt Ideal)) :
    (after (List.drop 52 (ops (F := Ideal))) W (main_v71 : DevRef τ sig) : FVec Ideal S600000x128 .f32)
      = msgV (W (main_v15 : DevRef τ sig)) (W (main_v17 : DevRef τ sig)) (W (main_v19 : DevRef τ sig)) (W (main_v21 : DevRef τ sig))
          (W (main_v23 : DevRef τ sig)) (W (main_v25 : DevRef τ sig)) (W (main_v3 : DevRef τ sig)) (W (main_v1 : DevRef τ sig))
          (W (main_arg9 : DevRef τ sig)) (W (main_arg11 : DevRef τ sig)) := by
  dsimp only [ops, List.drop]
  after_results_simp
  rfl

set_option maxHeartbeats 4000000 in
/-- No operation from the cut on writes a table the message reads. -/
theorem tail_keep (W : Valuation τ sig (Elt Ideal)) :
    after (List.drop 52 (ops (F := Ideal))) W (main_v15 : DevRef τ sig) = W (main_v15 : DevRef τ sig)
    ∧ after (List.drop 52 (ops (F := Ideal))) W (main_v17 : DevRef τ sig) = W (main_v17 : DevRef τ sig)
    ∧ after (List.drop 52 (ops (F := Ideal))) W (main_v19 : DevRef τ sig) = W (main_v19 : DevRef τ sig)
    ∧ after (List.drop 52 (ops (F := Ideal))) W (main_v21 : DevRef τ sig) = W (main_v21 : DevRef τ sig)
    ∧ after (List.drop 52 (ops (F := Ideal))) W (main_v23 : DevRef τ sig) = W (main_v23 : DevRef τ sig)
    ∧ after (List.drop 52 (ops (F := Ideal))) W (main_v25 : DevRef τ sig) = W (main_v25 : DevRef τ sig) := by
  dsimp only [ops, List.drop]
  refine ⟨?_, ?_, ?_, ?_, ?_, ?_⟩ <;> after_results_simp

attribute [local irreducible] Host.gather in
set_option maxHeartbeats 4000000 in
/-- Up to the cut: the two flat index vectors are the two rows of the index array, and the bias vectors are untouched. -/
theorem head_reads (L : Valuation τ sig (Elt Ideal)) :
    (after (List.take 52 (ops (F := Ideal))) L (main_v3 : DevRef τ sig) : IVec S600000 32) = idxRow1 (L (main_arg1 : DevRef τ sig))
    ∧ (after (List.take 52 (ops (F := Ideal))) L (main_v1 : DevRef τ sig) : IVec S600000 32) = idxRow0 (L (main_arg1 : DevRef τ sig))
    ∧ after (List.take 52 (ops (F := Ideal))) L (main_arg9 : DevRef τ sig) = L (main_arg9 : DevRef τ sig)
    ∧ after (List.take 52 (ops (F := Ideal))) L (main_arg11 : DevRef τ sig) = L (main_arg11 : DevRef τ sig) := by
  dsimp only [ops, List.take]
  refine ⟨?_, ?_, ?_, ?_⟩
  · after_results_simp
    rfl
  · after_results_simp
    rfl
  · after_results_simp
  · after_results_simp

/-- THE MESSAGE BUFFER after the whole run: the message function of the six stage tables after the run, the two rows of the
    index array and the two bias vectors. -/
theorem msg_fold (L : Valuation τ sig (Elt Ideal)) :
    (after (ops (F := Ideal)) L (main_v71 : DevRef τ sig) : FVec Ideal S600000x128 .f32)
      = msgV (after (ops (F := Ideal)) L (main_v15 : DevRef τ sig)) (after (ops (F := Ideal)) L (main_v17 : DevRef τ sig))
          (after (ops (F := Ideal)) L (main_v19 : DevRef τ sig)) (after (ops (F := Ideal)) L (main_v21 : DevRef τ sig))
          (after (ops (F := Ideal)) L (main_v23 : DevRef τ sig)) (after (ops (F := Ideal)) L (main_v25 : DevRef τ sig))
          (idxRow1 (L (main_arg1 : DevRef τ sig))) (idxRow0 (L (main_arg1 : DevRef τ sig)))
          (L (main_arg9 : DevRef τ sig)) (L (main_arg11 : DevRef τ sig)) := by
  obtain ⟨k15, k17, k19, k21, k23, k25⟩ := tail_keep (after (List.take 52 (ops (F := Ideal))) L)
  obtain ⟨h3, h1, h9, h11⟩ := head_reads L
  rw [after_take_drop 52 ops L, tail_msg, k15, k17, k19, k21, k23, k25, h3, h1, h9, h11]

/-! ## The statement -/

/-- The message law over the eight entries it reads: the logistic function of the gate's sum times the softplus of the core's. -/
abbrev msgRaw (a1 a2 c1 c2 ef es bf bs : EReal) : EReal := Ideal.logistic (a1 + a2 + ef + bf) * Spec.sp (c1 + c2 + es + bs)

/-- THE REFERENCE'S MESSAGE AT EDGE `e`, COLUMN `j`, where every index word is a node: the logistic function of
    (the target node's row of the first table + the source node's row of the second + the edge's own gate term + the gate bias)
    times the softplus of the same sum over the core's tables, edge term and bias. -/
theorem ref_msg_raw_at (L : Valuation τ sig (Elt Ideal))
    (hr : ∀ i : Spec.EI.Idx, 0 ≤ ((L (main_arg1 : DevRef τ sig) : Spec.EI.Idx → BitVec 32) i).toInt
      ∧ ((L (main_arg1 : DevRef τ sig) : Spec.EI.Idx → BitVec 32) i).toInt < 50000)
    (e : Fin 600000) (j : Fin 128) :
    (after (ops (F := Ideal)) L (main_v71 : DevRef τ sig) : Spec.EC.Idx → EReal) (ix2 e j)
      = msgRaw
          ((after (ops (F := Ideal)) L (main_v15 : DevRef τ sig) : Spec.NC.Idx → EReal) (ix2 (Spec.nodeOf (L (main_arg1 : DevRef τ sig)) 1 e) j))
          ((after (ops (F := Ideal)) L (main_v17 : DevRef τ sig) : Spec.NC.Idx → EReal) (ix2 (Spec.nodeOf (L (main_arg1 : DevRef τ sig)) 0 e) j))
          ((after (ops (F := Ideal)) L (main_v19 : DevRef τ sig) : Spec.NC.Idx → EReal) (ix2 (Spec.nodeOf (L (main_arg1 : DevRef τ sig)) 1 e) j))
          ((after (ops (F := Ideal)) L (main_v21 : DevRef τ sig) : Spec.NC.Idx → EReal) (ix2 (Spec.nodeOf (L (main_arg1 : DevRef τ sig)) 0 e) j))
          ((after (ops (F := Ideal)) L (main_v23 : DevRef τ sig) : Spec.EC.Idx → EReal) (ix2 e j))
          ((after (ops (F := Ideal)) L (main_v25 : DevRef τ sig) : Spec.EC.Idx → EReal) (ix2 e j))
          ((L (main_arg9 : DevRef τ sig) : Spec.Cv.Idx → EReal) (ix1 j))
          ((L (main_arg11 : DevRef τ sig) : Spec.Cv.Idx → EReal) (ix1 j)) :=
  (congrFun (msg_fold L) (ix2 e j)).trans
    (msgV_apply _ _ _ _ _ _ (L (main_arg1 : DevRef τ sig)) (L (main_arg9 : DevRef τ sig)) (L (main_arg11 : DevRef τ sig)) hr e j)

/-- The same with the edge's two own terms given as products `s · wf` and `s · ws`: the specification's gated message. -/
theorem ref_msg_at (L : Valuation τ sig (Elt Ideal))
    (hr : ∀ i : Spec.EI.Idx, 0 ≤ ((L (main_arg1 : DevRef τ sig) : Spec.EI.Idx → BitVec 32) i).toInt
      ∧ ((L (main_arg1 : DevRef τ sig) : Spec.EI.Idx → BitVec 32) i).toInt < 50000)
    (e : Fin 600000) (j : Fin 128) (s wf ws : EReal)
    (hef : (after (ops (F := Ideal)) L (main_v23 : DevRef τ sig) : Spec.EC.Idx → EReal) (ix2 e j) = s * wf)
    (hes : (after (ops (F := Ideal)) L (main_v25 : DevRef τ sig) : Spec.EC.Idx → EReal) (ix2 e j) = s * ws) :
    (after (ops (F := Ideal)) L (main_v71 : DevRef τ sig) : Spec.EC.Idx → EReal) (ix2 e j)
      = Spec.msgG
          ((after (ops (F := Ideal)) L (main_v15 : DevRef τ sig) : Spec.NC.Idx → EReal) (ix2 (Spec.nodeOf (L (main_arg1 : DevRef τ sig)) 1 e) j))
          ((after (ops (F := Ideal)) L (main_v17 : DevRef τ sig) : Spec.NC.Idx → EReal) (ix2 (Spec.nodeOf (L (main_arg1 : DevRef τ sig)) 0 e) j))
          ((after (ops (F := Ideal)) L (main_v19 : DevRef τ sig) : Spec.NC.Idx → EReal) (ix2 (Spec.nodeOf (L (main_arg1 : DevRef τ sig)) 1 e) j))
          ((after (ops (F := Ideal)) L (main_v21 : DevRef τ sig) : Spec.NC.Idx → EReal) (ix2 (Spec.nodeOf (L (main_arg1 : DevRef τ sig)) 0 e) j))
          s wf ws
          ((L (main_arg9 : DevRef τ sig) : Spec.Cv.Idx → EReal) (ix1 j))
          ((L (main_arg11 : DevRef τ sig) : Spec.Cv.Idx → EReal) (ix1 j)) := by
  rw [ref_msg_raw_at L hr e j, hef, hes]
  rfl

end Cert.ReferenceIdeal.ReadEdges

end
-- ==== Proof.KernelHost.lean ====
/-
  The kernel program's host stretches before its first two pallas regions, read at an index.

  Before region 0 the program slices the two 257-row weight tables into their row blocks 0..127 and 128..255
  (concatenated side by side into two [128, 256] tables) and their last rows, transposes the edge weight column into a
  row, and splits the edge index array into its two rows. Between regions 0 and 1 it gathers, for every edge, the rows
  of region 0's two projected tables at the edge's target and source node (a row take: the index wrapped when negative,
  clamped into the table, the result masked by the index's validity). Under the hypothesis that every index word lies in
  [0, 50000) the wrap, the clamp and the mask do nothing, and the gathered entry is the table's entry at the node.
-/
import proofs.«413223_j3856880632376_1_alg».proof.Proof.Gen.KernelIdeal.Frame
import proofs.«413223_j3856880632376_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate
import Idealize.ShloMosaic.Lib.Affine

set_option maxRecDepth 16384

noncomputable section

namespace Cert.KernelIdeal.HostRead

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg)

/-! ## Region 0's inputs -/

theorem V1_arr0 (c : Dev nD) : Gen.V1 m ρ c (Pipeline.arrRef spec0 0) = m ((c : Thread nD τ).loc main_arg0) := by
  show StableHlo.after hostOps0 (W0 m ρ c) (Proc.devRef .tc main_arg0) = _
  after_results

theorem V1_arr1 (c : Dev nD) : Gen.V1 m ρ c (Pipeline.arrRef spec0 1) = m ((c : Thread nD τ).loc main_arg4) := by
  show StableHlo.after hostOps0 (W0 m ρ c) (Proc.devRef .tc main_arg4) = _
  after_results

theorem V1_arr2 (c : Dev nD) : Gen.V1 m ρ c (Pipeline.arrRef spec0 2) = m ((c : Thread nD τ).loc main_arg5) := by
  show StableHlo.after hostOps0 (W0 m ρ c) (Proc.devRef .tc main_arg5) = _
  after_results

/-- Two [128, 128] row blocks starting at row `o` of two 257-row tables, side by side: column j < 128 reads the first
    table, column j ≥ 128 the second at j − 128, both at row o + k. -/
theorem concat_blocks_apply (o : Nat) (ho : o + 128 ≤ 257) (X Y : Spec.WW.Idx → EReal)
    (hs : S257x128.Slices ![o, 0] S128x128) (k : Fin 128) (j : Fin 256) :
    concatenate S128x256 1 [⟨S128x128, extractStridedSlice S128x128 ![o, 0] X hs⟩,
        ⟨S128x128, extractStridedSlice S128x128 ![o, 0] Y hs⟩] concatenates_S128x128_S128x128_S128x256_d1 (ix2 k j)
      = if h : j.val < 128 then X (ix2 ⟨o + k.val, by omega⟩ ⟨j.val, h⟩)
        else Y (ix2 ⟨o + k.val, by omega⟩ ⟨j.val - 128, by omega⟩) := by
  by_cases h : j.val < 128
  · rw [dif_pos h]
    refine (concatenate_pair_apply_left (t := S128x256) (s₁ := S128x128) (s₂ := S128x128) (1 : Fin 2) _ _ _ (ix2 k j) rfl
      (ix2 k (⟨j.val, h⟩ : Fin 128)) ?_).trans ?_
    · intro b
      match b with
      | ⟨0, _⟩ => rfl
      | ⟨1, _⟩ => rfl
    · refine extractStridedSlice_apply _ _ _ _ _ ?_
      intro a
      match a with
      | ⟨0, _⟩ => rfl
      | ⟨1, _⟩ => exact (Nat.zero_add _).symm
  · rw [dif_neg h]
    refine (concatenate_pair_apply_right (t := S128x256) (s₁ := S128x128) (s₂ := S128x128) (1 : Fin 2) _ _ _ (ix2 k j) rfl rfl
      (ix2 k (⟨j.val - 128, by omega⟩ : Fin 128)) ?_ ?_).trans ?_
    · intro b hb
      match b with
      | ⟨0, _⟩ => rfl
      | ⟨1, _⟩ => exact absurd rfl hb
    · show (j.val - 128) + 128 = j.val
      omega
    · refine extractStridedSlice_apply _ _ _ _ _ ?_
      intro a
      match a with
      | ⟨0, _⟩ => rfl
      | ⟨1, _⟩ => exact (Nat.zero_add _).symm

/-- Window 3 of region 0: rows 0..127 of the two weight tables, side by side. -/
theorem V1_arr3 (c : Dev nD) (k : Fin 128) (j : Fin 256) :
    (Gen.V1 m ρ c (Pipeline.arrRef spec0 3) : Spec.C2C.Idx → EReal) (ix2 k j)
      = if h : j.val < 128 then (m ((c : Thread nD τ).loc main_arg8) : Spec.WW.Idx → EReal) (ix2 ⟨k.val, by omega⟩ ⟨j.val, h⟩)
        else (m ((c : Thread nD τ).loc main_arg10) : Spec.WW.Idx → EReal) (ix2 ⟨k.val, by omega⟩ ⟨j.val - 128, by omega⟩) := by
  have e : (Gen.V1 m ρ c (Pipeline.arrRef spec0 3) : Spec.C2C.Idx → EReal)
      = concatenate S128x256 1
          [⟨S128x128, extractStridedSlice S128x128 ![0, 0] (m ((c : Thread nD τ).loc main_arg8) : Spec.WW.Idx → EReal) slices_S257x128_S128x128_0_0⟩,
           ⟨S128x128, extractStridedSlice S128x128 ![0, 0] (m ((c : Thread nD τ).loc main_arg10) : Spec.WW.Idx → EReal) slices_S257x128_S128x128_0_0⟩]
          concatenates_S128x128_S128x128_S128x256_d1 := by
    show StableHlo.after hostOps0 (W0 m ρ c) (Proc.devRef .tc main_v6) = _
    after_results
  rw [e, concat_blocks_apply 0 (by omega)]
  by_cases h : j.val < 128
  · rw [dif_pos h, dif_pos h]
    exact congrArg _ (congrArg (fun r : Fin 257 => ix2 r (⟨j.val, h⟩ : Fin 128)) (Fin.ext (Nat.zero_add _)))
  · rw [dif_neg h, dif_neg h]
    exact congrArg _ (congrArg (fun r : Fin 257 => ix2 r (⟨j.val - 128, by omega⟩ : Fin 128)) (Fin.ext (Nat.zero_add _)))

/-- Window 4 of region 0: rows 128..255 of the two weight tables, side by side. -/
theorem V1_arr4 (c : Dev nD) (k : Fin 128) (j : Fin 256) :
    (Gen.V1 m ρ c (Pipeline.arrRef spec0 4) : Spec.C2C.Idx → EReal) (ix2 k j)
      = if h : j.val < 128 then (m ((c : Thread nD τ).loc main_arg8) : Spec.WW.Idx → EReal) (ix2 ⟨128 + k.val, by omega⟩ ⟨j.val, h⟩)
        else (m ((c : Thread nD τ).loc main_arg10) : Spec.WW.Idx → EReal) (ix2 ⟨128 + k.val, by omega⟩ ⟨j.val - 128, by omega⟩) := by
  have e : (Gen.V1 m ρ c (Pipeline.arrRef spec0 4) : Spec.C2C.Idx → EReal)
      = concatenate S128x256 1
          [⟨S128x128, extractStridedSlice S128x128 ![128, 0] (m ((c : Thread nD τ).loc main_arg8) : Spec.WW.Idx → EReal) slices_S257x128_S128x128_128_0⟩,
           ⟨S128x128, extractStridedSlice S128x128 ![128, 0] (m ((c : Thread nD τ).loc main_arg10) : Spec.WW.Idx → EReal) slices_S257x128_S128x128_128_0⟩]
          concatenates_S128x128_S128x128_S128x256_d1 := by
    show StableHlo.after hostOps0 (W0 m ρ c) (Proc.devRef .tc main_v9) = _
    after_results
  rw [e, concat_blocks_apply 128 (by omega)]

/-! ## The take of table rows by index words, as the program prints it, read at an index -/

/-- The start indices: negative words wrapped by the table's length, laid out as a column. -/
def takeIdx (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

/-- The validity mask: the start index lies in [0, 49999], reduced by "and" over the unit axis. -/
def takeMask (idx : IVec S600000 32) : IVec S600000 1 :=
  Host.reduce IntOp.andi
    (andi (cmpi .sge (takeIdx idx) (broadcastInDim S600000x1 ![] bcast_S_S600000x1 (constantI S_ 32 0#32)))
      (cmpi .sle (takeIdx idx) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The gathered rows where the mask holds, the fill value elsewhere. -/
def takeRows (T : S50000x256.Idx → EReal) (idx : IVec S600000 32) : S600000x256.Idx → EReal :=
  select (broadcastInDim S600000x256 ![0] bcast_S600000_S600000x256_0 (takeMask idx))
    (Host.gather gather_S50000x256_S600000x1_S600000x256_1_0_n_n_0_1_1256 T (takeIdx idx))
    (broadcastInDim S600000x256 ![] bcast_S_S600000x256 (constant (F := Ideal) S_ .f32 0x7FC00000#32))

/-- A left fold by "and" from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_one f l _ ?_ (fun n hn => hl n (List.mem_cons_of_mem _ hn))
    exact IntOp.andi_eq_one.2 ⟨h, hl a List.mem_cons_self⟩

/-- An index word that is not negative is not wrapped. -/
theorem takeIdx_apply (idx : IVec S600000 32) (e : Fin 600000) (h0 : 0 ≤ (idx (ix1 e)).toInt) :
    takeIdx idx (ix2 e (0 : Fin 1)) = idx (ix1 e) := by
  unfold takeIdx
  refine (broadcastInDim_apply _ _ _ (ix2 e (0 : Fin 1)) (ix1 e) ?_).trans ?_
  · intro a
    match a with
    | ⟨0, _⟩ => exact (if_neg (show ¬ (600000 : Nat) = 1 by decide)).symm
  · rw [select_apply]
    have hn : ¬ (cmpi .slt idx (broadcastInDim S600000 ![] bcast_S_S600000 (constantI S_ 32 0#32)) (ix1 e) = 1#1) := by
      show ¬ (IntOp.cmpi .slt (idx (ix1 e)) 0#32 = 1#1)
      rw [IntOp.cmpi_slt]
      have z : (0#32 : BitVec 32).toInt = 0 := by decide
      omega
    rw [eq_zero_of_ne_one hn, select_zero]

/-- The mask at an index word in range is 1. -/
theorem takeMask_apply (idx : IVec S600000 32) (e : Fin 600000) (h0 : 0 ≤ (idx (ix1 e)).toInt)
    (h1 : (idx (ix1 e)).toInt < 50000) : takeMask idx (ix1 e) = 1#1 := by
  unfold takeMask
  rw [Host.reduce_eq_foldl]
  refine foldl_andi_one _ _ _ rfl ?_
  intro i hi
  have hdrop : reducesTo_S600000x1_S600000_d1.drop i = ix1 e := of_decide_eq_true (List.mem_filter.1 hi).2
  have hi0 : (i 0).val = e.val := by
    have := Shape.ReducesTo.drop_apply_val_of_eq reducesTo_S600000x1_S600000_d1 i 0 0
    rw [hdrop] at this
    exact this.symm
  have hi : i = ix2 e (0 : Fin 1) := by
    funext a
    match a with
    | ⟨0, _⟩ => exact Fin.ext hi0
    | ⟨1, _⟩ => exact Subsingleton.elim (α := Fin 1) _ _
  subst hi
  show IntOp.andi (IntOp.cmpi .sge (takeIdx idx (ix2 e (0 : Fin 1))) 0#32) (IntOp.cmpi .sle (takeIdx idx (ix2 e (0 : Fin 1))) 49999#32) = 1#1
  rw [takeIdx_apply idx e h0, IntOp.andi_eq_one, IntOp.cmpi_sge, IntOp.cmpi_sle]
  have z : (0#32 : BitVec 32).toInt = 0 := by decide
  have z' : (49999#32 : BitVec 32).toInt = 49999 := by decide
  omega

/-- The gather reads the table's row at the start word, read signed and clamped into the table, column by column. -/
theorem gather_rows_apply {α : Type} (T : S50000x256.Idx → α) (ix : IVec S600000x1 32) (e : Fin 600000) (j : Fin 256) :
    Host.gather gather_S50000x256_S600000x1_S600000x256_1_0_n_n_0_1_1256 T ix (ix2 e j)
      = T (ix2 (⟨min (ix (ix2 e (0 : Fin 1))).toInt.toNat 49999, by omega⟩ : Fin 50000) j) := by
  unfold Host.gather
  congr 1
  funext a
  refine Fin.ext ?_
  match a with
  | ⟨0, _⟩ =>
    show GatherDims.start _ (ix2 e j) ix 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x256_S600000x1_S600000x256_1_0_n_n_0_1_1256.startIndexMap from List.mem_singleton.mpr rfl)]
    have hsi : gather_S50000x256_S600000x1_S600000x256_1_0_n_n_0_1_1256.siIdx (ix2 e j)
        ⟨List.idxOf (0 : Fin 2) gather_S50000x256_S600000x1_S600000x256_1_0_n_n_0_1_1256.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e j) ix 1 + GatherDims.batchCoord _ (ix2 e j) 1 + GatherDims.offCoord _ (ix2 e j) 1 = j.val
    rw [GatherDims.batchCoord_eq_zero _ _ _ List.not_mem_nil]
    unfold GatherDims.start
    rw [dif_neg (show (1 : Fin 2) ∉ gather_S50000x256_S600000x1_S600000x256_1_0_n_n_0_1_1256.startIndexMap by decide)]
    unfold GatherDims.offCoord
    rw [dif_pos (show (1 : Fin 2) ∈ gather_S50000x256_S600000x1_S600000x256_1_0_n_n_0_1_1256.sKept by decide)]
    simp only [Nat.zero_add, Nat.add_zero]
    rfl

/-- The take at an edge whose index word is in range: the table's row at that word. -/
theorem takeRows_apply (T : S50000x256.Idx → EReal) (idx : IVec S600000 32) (e : Fin 600000) (j : Fin 256)
    (h0 : 0 ≤ (idx (ix1 e)).toInt) (h1 : (idx (ix1 e)).toInt < 50000) :
    takeRows T idx (ix2 e j) = T (ix2 (⟨min (idx (ix1 e)).toInt.toNat 49999, by omega⟩ : Fin 50000) j) := by
  unfold takeRows
  rw [select_apply]
  have hm : broadcastInDim S600000x256 ![0] bcast_S600000_S600000x256_0 (takeMask idx) (ix2 e j) = 1#1 := by
    refine (broadcastInDim_apply _ _ _ (ix2 e j) (ix1 e) ?_).trans (takeMask_apply idx e h0 h1)
    intro a
    match a with
    | ⟨0, _⟩ => exact (if_neg (show ¬ (600000 : Nat) = 1 by decide)).symm
  rw [hm, select_one, gather_rows_apply]
  have hr : (⟨min (takeIdx idx (ix2 e (0 : Fin 1))).toInt.toNat 49999, by omega⟩ : Fin 50000)
      = ⟨min (idx (ix1 e)).toInt.toNat 49999, by omega⟩ :=
    Fin.ext (by show min _ 49999 = min _ 49999; rw [takeIdx_apply idx e h0])
  rw [hr]

/-! ## Region 1's gathered inputs as the take of rows of region 0's output arrays -/

theorem W4_main_v14 (c : Dev nD) :
    (Gen.W4 m ρ c (Proc.devRef .tc main_v14) : S600000x256.Idx → EReal)
      = takeRows (Gen.W2 m ρ c (Proc.devRef .tc main_v13_1)) (Gen.W2 m ρ c (Proc.devRef .tc main_v3)) := by
  show StableHlo.after hostOps1_1 (StableHlo.after hostOps1 (W2 m ρ c)) (Proc.devRef .tc main_v14) = _
  after_results_simp
  simp only [StableHlo.TRef.ofBuf, StableHlo.TRef.toBuf, cast_eq]
  rfl

theorem W4_main_v15 (c : Dev nD) :
    (Gen.W4 m ρ c (Proc.devRef .tc main_v15) : S600000x256.Idx → EReal)
      = takeRows (Gen.W2 m ρ c (Proc.devRef .tc main_v13_2)) (Gen.W2 m ρ c (Proc.devRef .tc main_v1)) := by
  show StableHlo.after hostOps1_1 (StableHlo.after hostOps1 (W2 m ρ c)) (Proc.devRef .tc main_v15) = _
  after_results_simp
  simp only [StableHlo.TRef.ofBuf, StableHlo.TRef.toBuf, cast_eq]
  rfl

/-! ## The edge index's two rows, as region 0 leaves them -/

/-- Row 1 (the target nodes), flattened, as the buffers stand at region 0's exit. -/
theorem W2_main_v3 (c : Dev nD) (e : Fin 600000) :
    (Gen.W2 m ρ c (Proc.devRef .tc main_v3) : S600000.Idx → BitVec 32) (ix1 e)
      = (m ((c : Thread nD τ).loc main_arg1) : Spec.EI.Idx → BitVec 32) (ix2 (1 : Fin 2) e) := by
  have e1 : (Gen.W2 m ρ c (Proc.devRef .tc main_v3) : S600000.Idx → BitVec 32)
      = shapeCast S600000 (extractStridedSlice S1x600000 ![1, 0]
          (m ((c : Thread nD τ).loc main_arg1) : Spec.EI.Idx → BitVec 32) slices_S2x600000_S1x600000_1_0) shapeCasts_S1x600000_S600000 := by
    refine (W2_of_ne m ρ c main_v3 (by decide)).trans ?_
    show StableHlo.after hostOps0 (W0 m ρ c) (Proc.devRef .tc main_v3) = _
    after_results
    rfl
  rw [e1]
  refine (shapeCast_1a_a_apply _ _ e).trans ?_
  exact slice2_axis0_apply 1 _ _ (0 : Fin 1) e (1 : Fin 2) rfl

/-- Row 0 (the source nodes), flattened, as the buffers stand at region 0's exit. -/
theorem W2_main_v1 (c : Dev nD) (e : Fin 600000) :
    (Gen.W2 m ρ c (Proc.devRef .tc main_v1) : S600000.Idx → BitVec 32) (ix1 e)
      = (m ((c : Thread nD τ).loc main_arg1) : Spec.EI.Idx → BitVec 32) (ix2 (0 : Fin 2) e) := by
  have e1 : (Gen.W2 m ρ c (Proc.devRef .tc main_v1) : S600000.Idx → BitVec 32)
      = shapeCast S600000 (extractStridedSlice S1x600000 ![0, 0]
          (m ((c : Thread nD τ).loc main_arg1) : Spec.EI.Idx → BitVec 32) slices_S2x600000_S1x600000_0_0) shapeCasts_S1x600000_S600000 := by
    refine (W2_of_ne m ρ c main_v1 (by decide)).trans ?_
    show StableHlo.after hostOps0 (W0 m ρ c) (Proc.devRef .tc main_v1) = _
    after_results
    rfl
  rw [e1]
  refine (shapeCast_1a_a_apply _ _ e).trans ?_
  exact slice2_axis0_apply 0 _ _ (0 : Fin 1) e (0 : Fin 2) rfl

/-! ## Region 1's two gathered inputs -/

/-- Window 3 of region 1: row (target node of edge e) of region 0's second output array. -/
theorem V4_arr3 (c : Dev nD)
    (hr : ∀ i : Spec.EI.Idx, 0 ≤ ((m ((c : Thread nD τ).loc main_arg1) : Spec.EI.Idx → BitVec 32) i).toInt
      ∧ ((m ((c : Thread nD τ).loc main_arg1) : Spec.EI.Idx → BitVec 32) i).toInt < 50000)
    (e : Fin 600000) (j : Fin 256) :
    (Gen.V4 m ρ c (Pipeline.arrRef spec1 3) : Spec.E2C.Idx → EReal) (ix2 e j)
      = ((Gen.dat0 (F := Ideal) (Gen.V1 m ρ) c).arrAt 6 cfg0.N : Spec.N2C.Idx → EReal)
          (ix2 (Spec.nodeOf (m ((c : Thread nD τ).loc main_arg1)) 1 e) j) := by
  have h := hr (ix2 (1 : Fin 2) e)
  rw [← W2_main_v3 m ρ c e] at h
  refine (congrFun (W4_main_v14 m ρ c) (ix2 e j)).trans ?_
  refine (takeRows_apply _ _ e j h.1 h.2).trans ?_
  have hrow : (⟨min ((Gen.W2 m ρ c (Proc.devRef .tc main_v3) : S600000.Idx → BitVec 32) (ix1 e)).toInt.toNat 49999, by omega⟩ : Fin 50000)
      = Spec.nodeOf (m ((c : Thread nD τ).loc main_arg1)) 1 e :=
    Fin.ext (by show min _ 49999 = min _ 49999; rw [W2_main_v3 m ρ c e])
  rw [hrow]
  exact congrFun (W2_arr m ρ c 6) _

/-- Window 4 of region 1: row (source node of edge e) of region 0's third output array. -/
theorem V4_arr4 (c : Dev nD)
    (hr : ∀ i : Spec.EI.Idx, 0 ≤ ((m ((c : Thread nD τ).loc main_arg1) : Spec.EI.Idx → BitVec 32) i).toInt
      ∧ ((m ((c : Thread nD τ).loc main_arg1) : Spec.EI.Idx → BitVec 32) i).toInt < 50000)
    (e : Fin 600000) (j : Fin 256) :
    (Gen.V4 m ρ c (Pipeline.arrRef spec1 4) : Spec.E2C.Idx → EReal) (ix2 e j)
      = ((Gen.dat0 (F := Ideal) (Gen.V1 m ρ) c).arrAt 7 cfg0.N : Spec.N2C.Idx → EReal)
          (ix2 (Spec.nodeOf (m ((c : Thread nD τ).loc main_arg1)) 0 e) j) := by
  have h := hr (ix2 (0 : Fin 2) e)
  rw [← W2_main_v1 m ρ c e] at h
  refine (congrFun (W4_main_v15 m ρ c) (ix2 e j)).trans ?_
  refine (takeRows_apply _ _ e j h.1 h.2).trans ?_
  have hrow : (⟨min ((Gen.W2 m ρ c (Proc.devRef .tc main_v1) : S600000.Idx → BitVec 32) (ix1 e)).toInt.toNat 49999, by omega⟩ : Fin 50000)
      = Spec.nodeOf (m ((c : Thread nD τ).loc main_arg1)) 0 e :=
    Fin.ext (by show min _ 49999 = min _ 49999; rw [W2_main_v1 m ρ c e])
  rw [hrow]
  exact congrFun (W2_arr m ρ c 7) _

end Cert.KernelIdeal.HostRead

end
-- ==== Proof.KernelEdgeIn.lean ====
/-
  The arrays region 1 reads besides the two gathered tables, as the launch left them.

  Between the launch and region 1 the program runs a first stretch of host operations (slices of the index array and
  of the two 257-row weight tables, a transpose of the edge scalar's weight column), region 0, and the two gather
  stretches. None of these writes an argument buffer, and the three small operands the first stretch prepares are not
  touched afterwards, so at region 1's entry:
    the edge attributes and the three biases are the launch arrays themselves;
    the edge scalar's weight row, at (0, k), is the weight column at (k, 0);
    the gate's and the core's last-row weights, at (0, j), are row 256 of the two weight tables at (256, j).
-/
import proofs.«413223_j3856880632376_1_alg».proof.Proof.Gen.KernelIdeal.Frame
import proofs.«413223_j3856880632376_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.ValueIdx

namespace Cert.KernelIdeal.EdgeIn

open Cert.KernelIdeal Cert.KernelIdeal.Gen

variable (m : (ℓ : Loc nD τ sig) → Buf (Elt Ideal) ℓ) (ρ : Dev nD → PrngReg)

/-- No operation of the named stretch writes the buffer: each operation's one result buffer is another reference. -/
local macro "not_written_by " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Walking a buffer back to region 0's entry, and to the launch -/

/-- A buffer that neither gather stretch writes and that is not one of region 0's arrays holds at region 1's entry
    what it held at region 0's entry. -/
theorem W4_eq_W1 (c : Dev nD) (b : Ref sig .tc)
    (h11 : ∀ op ∈ (hostOps1_1 : List (HloOp τ sig (Elt Ideal))), Proc.devRef .tc b ∉ op.writes)
    (h1 : ∀ op ∈ (hostOps1 : List (HloOp τ sig (Elt Ideal))), Proc.devRef .tc b ∉ op.writes)
    (h0 : ∀ w, Pipeline.arrRef spec0 w ≠ b) :
    W4 m ρ c (Proc.devRef .tc b) = W1 m ρ c (Proc.devRef .tc b) :=
  calc W4 m ρ c (Proc.devRef .tc b)
    _ = W3 m ρ c (Proc.devRef .tc b) := StableHlo.after_of_forall_not_mem (b := Proc.devRef .tc b) _ _ h11
    _ = W2 m ρ c (Proc.devRef .tc b) := StableHlo.after_of_forall_not_mem (b := Proc.devRef .tc b) _ _ h1
    _ = W1 m ρ c (Proc.devRef .tc b) := W2_of_ne m ρ c b h0

/-- If moreover the first stretch does not write it, it holds what the launch left. -/
theorem W4_eq_launch (c : Dev nD) (b : Ref sig .tc)
    (h11 : ∀ op ∈ (hostOps1_1 : List (HloOp τ sig (Elt Ideal))), Proc.devRef .tc b ∉ op.writes)
    (h1 : ∀ op ∈ (hostOps1 : List (HloOp τ sig (Elt Ideal))), Proc.devRef .tc b ∉ op.writes)
    (h0 : ∀ w, Pipeline.arrRef spec0 w ≠ b)
    (hh : ∀ op ∈ (hostOps0 : List (HloOp τ sig (Elt Ideal))), Proc.devRef .tc b ∉ op.writes) :
    W4 m ρ c (Proc.devRef .tc b) = m ((c : Thread nD τ).loc b) :=
  calc W4 m ρ c (Proc.devRef .tc b)
    _ = W1 m ρ c (Proc.devRef .tc b) := W4_eq_W1 m ρ c b h11 h1 h0
    _ = W0 m ρ c (Proc.devRef .tc b) := StableHlo.after_of_forall_not_mem (b := Proc.devRef .tc b) _ _ hh
    _ = m ((c : Thread nD τ).loc b) := rfl

/-! ## The argument buffers region 1 reads directly -/

/-- The edge attributes. -/
theorem in0 (c : Dev nD) : V4 m ρ c (Pipeline.arrRef spec1 0) = m ((c : Thread nD τ).loc main_arg3) :=
  W4_eq_launch m ρ c main_arg3 (by not_written_by hostOps1_1) (by not_written_by hostOps1) (by decide) (by not_written_by hostOps0)

/-- The edge scalar's bias. -/
theorem in2 (c : Dev nD) : V4 m ρ c (Pipeline.arrRef spec1 2) = m ((c : Thread nD τ).loc main_arg7) :=
  W4_eq_launch m ρ c main_arg7 (by not_written_by hostOps1_1) (by not_written_by hostOps1) (by decide) (by not_written_by hostOps0)

/-- The gate's bias. -/
theorem in7 (c : Dev nD) : V4 m ρ c (Pipeline.arrRef spec1 7) = m ((c : Thread nD τ).loc main_arg9) :=
  W4_eq_launch m ρ c main_arg9 (by not_written_by hostOps1_1) (by not_written_by hostOps1) (by decide) (by not_written_by hostOps0)

/-- The core's bias. -/
theorem in8 (c : Dev nD) : V4 m ρ c (Pipeline.arrRef spec1 8) = m ((c : Thread nD τ).loc main_arg11) :=
  W4_eq_launch m ρ c main_arg11 (by not_written_by hostOps1_1) (by not_written_by hostOps1) (by decide) (by not_written_by hostOps0)

/-! ## The three operands the first stretch prepares -/

/-- The first stretch leaves the transposed weight column in the weight row's buffer … -/
theorem first_stretch_wr (V : Valuation τ sig (Elt Ideal)) :
    (StableHlo.after hostOps0 V (Proc.devRef .tc main_v12) : S1x128.Idx → EReal)
      = transpose S1x128 [1, 0] (V (Proc.devRef .tc main_arg6)) transposes_S128x1_S1x128_1_0 := by
  after_results

/-- … row 256 of the gate's weight table in its last-row buffer … -/
theorem first_stretch_wf (V : Valuation τ sig (Elt Ideal)) :
    (StableHlo.after hostOps0 V (Proc.devRef .tc main_v10) : S1x128.Idx → EReal)
      = extractStridedSlice S1x128 ![256, 0] (V (Proc.devRef .tc main_arg8)) slices_S257x128_S1x128_256_0 := by
  after_results

/-- … and row 256 of the core's weight table in its last-row buffer. -/
theorem first_stretch_ws (V : Valuation τ sig (Elt Ideal)) :
    (StableHlo.after hostOps0 V (Proc.devRef .tc main_v11) : S1x128.Idx → EReal)
      = extractStridedSlice S1x128 ![256, 0] (V (Proc.devRef .tc main_arg10)) slices_S257x128_S1x128_256_0 := by
  after_results

/-- The edge scalar's weight row at (0, k) is the launch's weight column at (k, 0). -/
theorem in1 (c : Dev nD) (k : Fin 128) :
    (V4 m ρ c (Pipeline.arrRef spec1 1) : Spec.R1C.Idx → EReal) (ix2 (0 : Fin 1) k)
      = (m ((c : Thread nD τ).loc main_arg6) : Spec.C1.Idx → EReal) (ix2 k (0 : Fin 1)) := by
  show (W4 m ρ c (Proc.devRef .tc main_v12) : S1x128.Idx → EReal) (ix2 (0 : Fin 1) k) = _
  rw [W4_eq_W1 m ρ c main_v12 (by not_written_by hostOps1_1) (by not_written_by hostOps1) (by decide)]
  show (StableHlo.after hostOps0 (W0 m ρ c) (Proc.devRef .tc main_v12) : S1x128.Idx → EReal) (ix2 (0 : Fin 1) k) = _
  rw [first_stretch_wr]
  exact transpose_ix2_apply _ _ (0 : Fin 1) k

/-- The gate's last-row weights at (0, j) are row 256 of the launch's gate table. -/
theorem in5 (c : Dev nD) (j : Fin 128) :
    (V4 m ρ c (Pipeline.arrRef spec1 5) : Spec.R1C.Idx → EReal) (ix2 (0 : Fin 1) j)
      = (m ((c : Thread nD τ).loc main_arg8) : Spec.WW.Idx → EReal) (ix2 (256 : Fin 257) j) := by
  show (W4 m ρ c (Proc.devRef .tc main_v10) : S1x128.Idx → EReal) (ix2 (0 : Fin 1) j) = _
  rw [W4_eq_W1 m ρ c main_v10 (by not_written_by hostOps1_1) (by not_written_by hostOps1) (by decide)]
  show (StableHlo.after hostOps0 (W0 m ρ c) (Proc.devRef .tc main_v10) : S1x128.Idx → EReal) (ix2 (0 : Fin 1) j) = _
  rw [first_stretch_wf]
  exact slice2_axis0_apply 256 _ _ (0 : Fin 1) j (256 : Fin 257) rfl

/-- The core's last-row weights at (0, j) are row 256 of the launch's core table. -/
theorem in6 (c : Dev nD) (j : Fin 128) :
    (V4 m ρ c (Pipeline.arrRef spec1 6) : Spec.R1C.Idx → EReal) (ix2 (0 : Fin 1) j)
      = (m ((c : Thread nD τ).loc main_arg10) : Spec.WW.Idx → EReal) (ix2 (256 : Fin 257) j) := by
  show (W4 m ρ c (Proc.devRef .tc main_v11) : S1x128.Idx → EReal) (ix2 (0 : Fin 1) j) = _
  rw [W4_eq_W1 m ρ c main_v11 (by not_written_by hostOps1_1) (by not_written_by hostOps1) (by decide)]
  show (StableHlo.after hostOps0 (W0 m ρ c) (Proc.devRef .tc main_v11) : S1x128.Idx → EReal) (ix2 (0 : Fin 1) j) = _
  rw [first_stretch_ws]
  exact slice2_axis0_apply 256 _ _ (0 : Fin 1) j (256 : Fin 257) rfl

end Cert.KernelIdeal.EdgeIn

end
-- ==== Proof.KernelMsg.lean ====
/-
  The kernel program's message array and its node projection as functions of the launch arrays.

  The second region's output, entry by entry, is the gated message of the nine arrays the region reads; those nine
  are launch arrays, rows of them, or rows — picked by the edge's end nodes — of the two wide tables the first region
  wrote; the tables are the projected features times side-by-side joins of the weight blocks. Put together, the entry
  is the message function of the launch arrays alone. The first region's first output is the projection itself.
-/
import proofs.«413223_j3856880632376_1_alg».proof.Proof.Reg0Value
import proofs.«413223_j3856880632376_1_alg».proof.Proof.Reg1Value
import proofs.«413223_j3856880632376_1_alg».proof.Proof.Whole
import proofs.«413223_j3856880632376_1_alg».proof.Proof.KernelHost
import proofs.«413223_j3856880632376_1_alg».proof.Proof.KernelEdgeIn

noncomputable section

namespace Cert.KernelIdeal.Msg

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The launch arrays at the specification's shapes -/

/-- Launch array 0: the node features. -/
abbrev A0 (c : Dev nD) : Spec.NC.Idx → EReal := m ((c.tc : Thread nD τ).loc main_arg0)
/-- Launch array 1: the edge index array. -/
abbrev A1 (c : Dev nD) : Spec.EI.Idx → BitVec 32 := m ((c.tc : Thread nD τ).loc main_arg1)
/-- Launch array 3: the edge attributes. -/
abbrev A3 (c : Dev nD) : Spec.EC.Idx → EReal := m ((c.tc : Thread nD τ).loc main_arg3)
/-- Launch array 4: the projection's weight. -/
abbrev A4 (c : Dev nD) : Spec.CC.Idx → EReal := m ((c.tc : Thread nD τ).loc main_arg4)
/-- Launch array 5: the projection's bias. -/
abbrev A5 (c : Dev nD) : Spec.Cv.Idx → EReal := m ((c.tc : Thread nD τ).loc main_arg5)
/-- Launch array 6: the edge scalar's weight column. -/
abbrev A6 (c : Dev nD) : Spec.C1.Idx → EReal := m ((c.tc : Thread nD τ).loc main_arg6)
/-- Launch array 7: the edge scalar's bias. -/
abbrev A7 (c : Dev nD) : Spec.V1.Idx → EReal := m ((c.tc : Thread nD τ).loc main_arg7)
/-- Launch array 8: the gate's weight table. -/
abbrev A8 (c : Dev nD) : Spec.WW.Idx → EReal := m ((c.tc : Thread nD τ).loc main_arg8)
/-- Launch array 9: the gate's bias. -/
abbrev A9 (c : Dev nD) : Spec.Cv.Idx → EReal := m ((c.tc : Thread nD τ).loc main_arg9)
/-- Launch array 10: the core's weight table. -/
abbrev A10 (c : Dev nD) : Spec.WW.Idx → EReal := m ((c.tc : Thread nD τ).loc main_arg10)
/-- Launch array 11: the core's bias. -/
abbrev A11 (c : Dev nD) : Spec.Cv.Idx → EReal := m ((c.tc : Thread nD τ).loc main_arg11)

/-! ## The glue, over any arrays

Nothing here mentions a program: the nine arrays the second region reads and the five the first region reads are
variables, each tied to the launch arrays by a hypothesis. -/

section Glue

variable (a0 : Spec.NC.Idx → EReal) (a1 : Spec.EI.Idx → BitVec 32) (a3 : Spec.EC.Idx → EReal) (a4 : Spec.CC.Idx → EReal)
  (a5 : Spec.Cv.Idx → EReal) (a6 : Spec.C1.Idx → EReal) (a7 : Spec.V1.Idx → EReal) (a8 : Spec.WW.Idx → EReal)
  (a9 : Spec.Cv.Idx → EReal) (a10 : Spec.WW.Idx → EReal) (a11 : Spec.Cv.Idx → EReal)

/-- The projection of the first region's three inputs is the projection of the launch arrays they hold. -/
theorem out_glue (o0 : Spec.NC.Idx → EReal) (o1 : Spec.CC.Idx → EReal) (o2 : Spec.Cv.Idx → EReal)
    (h0 : o0 = a0) (h1 : o1 = a4) (h2 : o2 = a5) (n : Fin 50000) (j : Fin 128) :
    Spec.outG o0 o1 o2 n j = Spec.outG a0 a4 a5 n j := by
  subst h0 h1 h2; rfl

/-- The gated message of the second region's nine inputs is the message function of the launch arrays, when: the two
    gathered inputs are rows (by the edges' end nodes) of two tables; the tables are the projection of the first region's
    inputs times its two weight inputs; those are the joins of the weight tables' blocks at rows 0 … 127 and 128 … 255;
    and the other inputs are launch arrays or rows of them. -/
theorem msg_glue (o0 : Spec.NC.Idx → EReal) (o1 : Spec.CC.Idx → EReal) (o2 : Spec.Cv.Idx → EReal)
    (WA WB : Spec.C2C.Idx → EReal) (tA tB : Spec.N2C.Idx → EReal)
    (v0 : Spec.EC.Idx → EReal) (v1 : Spec.R1C.Idx → EReal) (v2 : Spec.V1.Idx → EReal) (g1 g2 : Spec.E2C.Idx → EReal)
    (wf ws : Spec.R1C.Idx → EReal) (bf bs : Spec.Cv.Idx → EReal)
    (h0 : o0 = a0) (h1 : o1 = a4) (h2 : o2 = a5)
    (h3 : ∀ (k : Fin 128) (j : Fin 256), WA (ix2 k j)
      = if h : j.val < 128 then a8 (ix2 ⟨k.val, by omega⟩ ⟨j.val, h⟩) else a10 (ix2 ⟨k.val, by omega⟩ ⟨j.val - 128, by omega⟩))
    (h4 : ∀ (k : Fin 128) (j : Fin 256), WB (ix2 k j)
      = if h : j.val < 128 then a8 (ix2 ⟨128 + k.val, by omega⟩ ⟨j.val, h⟩) else a10 (ix2 ⟨128 + k.val, by omega⟩ ⟨j.val - 128, by omega⟩))
    (htA : ∀ (n : Fin 50000) (j : Fin 256), tA (ix2 n j) = Spec.projWideG (Spec.outG o0 o1 o2) WA n j)
    (htB : ∀ (n : Fin 50000) (j : Fin 256), tB (ix2 n j) = Spec.projWideG (Spec.outG o0 o1 o2) WB n j)
    (e0 : v0 = a3)
    (e1 : ∀ k : Fin 128, v1 (ix2 (0 : Fin 1) k) = a6 (ix2 k (0 : Fin 1)))
    (e2 : v2 = a7)
    (e3 : ∀ (e : Fin 600000) (j : Fin 256), g1 (ix2 e j) = tA (ix2 (Spec.nodeOf a1 1 e) j))
    (e4 : ∀ (e : Fin 600000) (j : Fin 256), g2 (ix2 e j) = tB (ix2 (Spec.nodeOf a1 0 e) j))
    (e5 : ∀ j : Fin 128, wf (ix2 (0 : Fin 1) j) = a8 (ix2 (256 : Fin 257) j))
    (e6 : ∀ j : Fin 128, ws (ix2 (0 : Fin 1) j) = a10 (ix2 (256 : Fin 257) j))
    (e7 : bf = a9) (e8 : bs = a11)
    (e : Fin 600000) (j : Fin 128) :
    Spec.msgG (g1 (ix2 e ⟨j.val, by omega⟩)) (g2 (ix2 e ⟨j.val, by omega⟩))
        (g1 (ix2 e ⟨128 + j.val, by omega⟩)) (g2 (ix2 e ⟨128 + j.val, by omega⟩))
        (Spec.edgeG v0 (fun k => v1 (ix2 (0 : Fin 1) k)) (v2 (ix1 (0 : Fin 1))) e)
        (wf (ix2 (0 : Fin 1) j)) (ws (ix2 (0 : Fin 1) j)) (bf (ix1 j)) (bs (ix1 j))
      = Cert.Whole.msgW a0 a1 a3 a4 a5 a6 a7 a8 a9 a10 a11 e j := by
  subst h0 h1 h2 e0 e2 e7 e8
  have hWA : Cert.Bridge.IsJoin WA a8 a10 0 (by omega) := by
    intro k j
    simp only [Nat.zero_add]
    exact h3 k j
  have hWB : Cert.Bridge.IsJoin WB a8 a10 128 (by omega) := fun k j => h4 k j
  exact Cert.Whole.wide_route o0 a1 v0 o1 o2 a6 v2 a8 bf a10 bs tA tB WA WB g1 g2 v1 wf ws hWA hWB htA htB e3 e4 e1 e5 e6 e j

end Glue

/-! ## The two arrays, from the launch arrays alone -/

/-- Entry (n, j) of the node projection the first region leaves. -/
theorem out_at (c : Dev nD) (n : Fin 50000) (j : Fin 128) :
    ((Gen.dat0 (F := Ideal) (Gen.V1 m ρ) c).arrAt 5 cfg0.N : Spec.NC.Idx → EReal) (ix2 n j)
      = Spec.outG (A0 m c) (A4 m c) (A5 m c) n j :=
  (Reg0.out_at (Gen.V1 m ρ) c n j).trans
    (out_glue (A0 m c) (A4 m c) (A5 m c)
      (Gen.V1 m ρ c (Pipeline.arrRef spec0 0)) (Gen.V1 m ρ c (Pipeline.arrRef spec0 1)) (Gen.V1 m ρ c (Pipeline.arrRef spec0 2))
      (HostRead.V1_arr0 m ρ c) (HostRead.V1_arr1 m ρ c) (HostRead.V1_arr2 m ρ c) n j)

/-- Entry (e, j) of the message array the second region leaves, when every word of the edge index array names a node. -/
theorem msg_at (c : Dev nD) (hr : ∀ i : Spec.EI.Idx, 0 ≤ (A1 m c i).toInt ∧ (A1 m c i).toInt < 50000)
    (e : Fin 600000) (j : Fin 128) :
    ((Gen.dat1 (F := Ideal) (Gen.V4 m ρ) c).arrAt 9 cfg1.N : Spec.EC.Idx → EReal) (ix2 e j)
      = Cert.Whole.msgW (A0 m c) (A1 m c) (A3 m c) (A4 m c) (A5 m c) (A6 m c) (A7 m c) (A8 m c) (A9 m c) (A10 m c) (A11 m c) e j :=
  (Reg1.msg_at (Gen.V4 m ρ) c e j).trans
    (msg_glue (A0 m c) (A1 m c) (A3 m c) (A4 m c) (A5 m c) (A6 m c) (A7 m c) (A8 m c) (A9 m c) (A10 m c) (A11 m c)
      (Gen.V1 m ρ c (Pipeline.arrRef spec0 0)) (Gen.V1 m ρ c (Pipeline.arrRef spec0 1)) (Gen.V1 m ρ c (Pipeline.arrRef spec0 2))
      (Gen.V1 m ρ c (Pipeline.arrRef spec0 3)) (Gen.V1 m ρ c (Pipeline.arrRef spec0 4))
      ((Gen.dat0 (F := Ideal) (Gen.V1 m ρ) c).arrAt 6 cfg0.N) ((Gen.dat0 (F := Ideal) (Gen.V1 m ρ) c).arrAt 7 cfg0.N)
      (Gen.V4 m ρ c (Pipeline.arrRef spec1 0)) (Gen.V4 m ρ c (Pipeline.arrRef spec1 1)) (Gen.V4 m ρ c (Pipeline.arrRef spec1 2))
      (Gen.V4 m ρ c (Pipeline.arrRef spec1 3)) (Gen.V4 m ρ c (Pipeline.arrRef spec1 4))
      (Gen.V4 m ρ c (Pipeline.arrRef spec1 5)) (Gen.V4 m ρ c (Pipeline.arrRef spec1 6))
      (Gen.V4 m ρ c (Pipeline.arrRef spec1 7)) (Gen.V4 m ρ c (Pipeline.arrRef spec1 8))
      (HostRead.V1_arr0 m ρ c) (HostRead.V1_arr1 m ρ c) (HostRead.V1_arr2 m ρ c) (HostRead.V1_arr3 m ρ c) (HostRead.V1_arr4 m ρ c)
      (Reg0.tableA_at (Gen.V1 m ρ) c) (Reg0.tableB_at (Gen.V1 m ρ) c)
      (EdgeIn.in0 m ρ c) (EdgeIn.in1 m ρ c) (EdgeIn.in2 m ρ c) (HostRead.V4_arr3 m ρ c hr) (HostRead.V4_arr4 m ρ c hr) (EdgeIn.in5 m ρ c) (EdgeIn.in6 m ρ c) (EdgeIn.in7 m ρ c) (EdgeIn.in8 m ρ c) e j)

end Cert.KernelIdeal.Msg

end
-- ==== Proof.Final.lean ====
/-
  The two programs end with equal results: the kernel program's last region writes, entry by entry, what the
  reference's last host stage computes.
-/
import proofs.«413223_j3856880632376_1_alg».proof.Defs
import proofs.«413223_j3856880632376_1_alg».proof.Proof.Gen.KernelIdeal
import proofs.«413223_j3856880632376_1_alg».proof.Proof.Gen.ReferenceIdeal
import proofs.«413223_j3856880632376_1_alg».proof.Proof.Gen.Pre_finite_inputs
import proofs.«413223_j3856880632376_1_alg».proof.Proof.KernelRun
import proofs.«413223_j3856880632376_1_alg».proof.Proof.RefRun
import proofs.«413223_j3856880632376_1_alg».proof.Proof.RefArgs
import proofs.«413223_j3856880632376_1_alg».proof.Proof.IndexRange
import proofs.«413223_j3856880632376_1_alg».proof.Proof.Whole
import proofs.«413223_j3856880632376_1_alg».proof.Proof.Reg0Value
import proofs.«413223_j3856880632376_1_alg».proof.Proof.Reg1Value
import proofs.«413223_j3856880632376_1_alg».proof.Proof.Reg2Value
import proofs.«413223_j3856880632376_1_alg».proof.Proof.TailDefs
import proofs.«413223_j3856880632376_1_alg».proof.Proof.TailKernel
import proofs.«413223_j3856880632376_1_alg».proof.Proof.TailRef
import proofs.«413223_j3856880632376_1_alg».proof.Proof.RefNodes
import proofs.«413223_j3856880632376_1_alg».proof.Proof.RefNodesProj
import proofs.«413223_j3856880632376_1_alg».proof.Proof.RefScalar
import proofs.«413223_j3856880632376_1_alg».proof.Proof.RefFinal
import proofs.«413223_j3856880632376_1_alg».proof.Proof.RefEdges
import proofs.«413223_j3856880632376_1_alg».proof.Proof.KernelMsg

noncomputable section

namespace Cert.Final

open Idealize.ShloMosaic Idealize.ShloMosaic.TcCoe Idealize.SL.Sem Idealize.ShloMosaic.StableHlo

attribute [local instance] Cert.KernelIdeal.Gen.facts Cert.ReferenceIdeal.Gen.facts Cert.Pre_finite_inputs.Gen.facts

/-! ## Notation for the two programs' arrays -/

/-- `bnG` respects equality of each argument. -/
theorem bnG_congr {a b c d e f a' b' c' d' e' f' : EReal} (h1 : a = a') (h2 : b = b') (h3 : c = c') (h4 : d = d')
    (h5 : e = e') (h6 : f = f') : Spec.bnG a b c d e f = Spec.bnG a' b' c' d' e' f' := by
  subst h1 h2 h3 h4 h5 h6; rfl

section
variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

/-- The kernel program's launch arrays, at the specification's shapes. -/
abbrev A0 : Spec.NC.Idx → EReal := m ((c.tc : Thread Cert.KernelIdeal.nD Cert.KernelIdeal.τ).loc Cert.KernelIdeal.main_arg0)
abbrev A1 : Spec.EI.Idx → BitVec 32 := m ((c.tc : Thread Cert.KernelIdeal.nD Cert.KernelIdeal.τ).loc Cert.KernelIdeal.main_arg1)
abbrev A3 : Spec.EC.Idx → EReal := m ((c.tc : Thread Cert.KernelIdeal.nD Cert.KernelIdeal.τ).loc Cert.KernelIdeal.main_arg3)
abbrev A4 : Spec.CC.Idx → EReal := m ((c.tc : Thread Cert.KernelIdeal.nD Cert.KernelIdeal.τ).loc Cert.KernelIdeal.main_arg4)
abbrev A5 : Spec.Cv.Idx → EReal := m ((c.tc : Thread Cert.KernelIdeal.nD Cert.KernelIdeal.τ).loc Cert.KernelIdeal.main_arg5)
abbrev A6 : Spec.C1.Idx → EReal := m ((c.tc : Thread Cert.KernelIdeal.nD Cert.KernelIdeal.τ).loc Cert.KernelIdeal.main_arg6)
abbrev A7 : Spec.V1.Idx → EReal := m ((c.tc : Thread Cert.KernelIdeal.nD Cert.KernelIdeal.τ).loc Cert.KernelIdeal.main_arg7)
abbrev A8 : Spec.WW.Idx → EReal := m ((c.tc : Thread Cert.KernelIdeal.nD Cert.KernelIdeal.τ).loc Cert.KernelIdeal.main_arg8)
abbrev A9 : Spec.Cv.Idx → EReal := m ((c.tc : Thread Cert.KernelIdeal.nD Cert.KernelIdeal.τ).loc Cert.KernelIdeal.main_arg9)
abbrev A10 : Spec.WW.Idx → EReal := m ((c.tc : Thread Cert.KernelIdeal.nD Cert.KernelIdeal.τ).loc Cert.KernelIdeal.main_arg10)
abbrev A11 : Spec.Cv.Idx → EReal := m ((c.tc : Thread Cert.KernelIdeal.nD Cert.KernelIdeal.τ).loc Cert.KernelIdeal.main_arg11)
abbrev A12 : Spec.Cv.Idx → EReal := m ((c.tc : Thread Cert.KernelIdeal.nD Cert.KernelIdeal.τ).loc Cert.KernelIdeal.main_arg12)
abbrev A13 : Spec.Cv.Idx → EReal := m ((c.tc : Thread Cert.KernelIdeal.nD Cert.KernelIdeal.τ).loc Cert.KernelIdeal.main_arg13)

/-- The kernel program's message array. -/
abbrev msgK : Spec.EC.Idx → EReal := (Cert.KernelIdeal.Gen.dat1 (F := Ideal) (Cert.KernelIdeal.Gen.V4 m ρ) c).arrAt 9 Cert.KernelIdeal.cfg1.N
/-- The kernel program's projected node features. -/
abbrev outK : Spec.NC.Idx → EReal := (Cert.KernelIdeal.Gen.dat0 (F := Ideal) (Cert.KernelIdeal.Gen.V1 m ρ) c).arrAt 5 Cert.KernelIdeal.cfg0.N

end

set_option maxHeartbeats 4000000 in
/-- The reference's result buffer ends at the kernel program's result array. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (c : Dev Cert.ReferenceIdeal.nD) :
    after Cert.ReferenceIdeal.Run.ops (launchContents m' c) (Cert.ReferenceIdeal.main_v95 : DevRef Cert.ReferenceIdeal.τ Cert.ReferenceIdeal.sig)
      = (Cert.KernelIdeal.Gen.dat2 (F := Ideal) (Cert.KernelIdeal.Gen.V7 m ρ) c).arrAt 6 Cert.KernelIdeal.cfg2.N := by
  -- the edge indices are node numbers
  have hr : ∀ i : Spec.EI.Idx, 0 ≤ ((A1 m c) i).toInt ∧ ((A1 m c) i).toInt < 50000 :=
    fun i => Cert.IndexRange.index_range (F := Ideal) (hpre c) i
  obtain ⟨e0, e1, e2, e3, e4, e5, e6, e7, e8, e9, e10, e11, e12, e13⟩ := hagree c
  -- the reference's launch contents are the kernel program's launch arrays
  have l0 : (launchContents m' c (Cert.ReferenceIdeal.main_arg0 : DevRef Cert.ReferenceIdeal.τ Cert.ReferenceIdeal.sig) : Spec.NC.Idx → EReal) = A0 m c := e0
  have l1 : (launchContents m' c (Cert.ReferenceIdeal.main_arg1 : DevRef Cert.ReferenceIdeal.τ Cert.ReferenceIdeal.sig) : Spec.EI.Idx → BitVec 32) = A1 m c := e1
  have l3 : (launchContents m' c (Cert.ReferenceIdeal.main_arg3 : DevRef Cert.ReferenceIdeal.τ Cert.ReferenceIdeal.sig) : Spec.EC.Idx → EReal) = A3 m c := e3
  have l4 : (launchContents m' c (Cert.ReferenceIdeal.main_arg4 : DevRef Cert.ReferenceIdeal.τ Cert.ReferenceIdeal.sig) : Spec.CC.Idx → EReal) = A4 m c := e4
  have l5 : (launchContents m' c (Cert.ReferenceIdeal.main_arg5 : DevRef Cert.ReferenceIdeal.τ Cert.ReferenceIdeal.sig) : Spec.Cv.Idx → EReal) = A5 m c := e5
  have l6 : (launchContents m' c (Cert.ReferenceIdeal.main_arg6 : DevRef Cert.ReferenceIdeal.τ Cert.ReferenceIdeal.sig) : Spec.C1.Idx → EReal) = A6 m c := e6
  have l7 : (launchContents m' c (Cert.ReferenceIdeal.main_arg7 : DevRef Cert.ReferenceIdeal.τ Cert.ReferenceIdeal.sig) : Spec.V1.Idx → EReal) = A7 m c := e7
  have l8 : (launchContents m' c (Cert.ReferenceIdeal.main_arg8 : DevRef Cert.ReferenceIdeal.τ Cert.ReferenceIdeal.sig) : Spec.WW.Idx → EReal) = A8 m c := e8
  have l9 : (launchContents m' c (Cert.ReferenceIdeal.main_arg9 : DevRef Cert.ReferenceIdeal.τ Cert.ReferenceIdeal.sig) : Spec.Cv.Idx → EReal) = A9 m c := e9
  have l10 : (launchContents m' c (Cert.ReferenceIdeal.main_arg10 : DevRef Cert.ReferenceIdeal.τ Cert.ReferenceIdeal.sig) : Spec.WW.Idx → EReal) = A10 m c := e10
  have l11 : (launchContents m' c (Cert.ReferenceIdeal.main_arg11 : DevRef Cert.ReferenceIdeal.τ Cert.ReferenceIdeal.sig) : Spec.Cv.Idx → EReal) = A11 m c := e11
  have l12 : (launchContents m' c (Cert.ReferenceIdeal.main_arg12 : DevRef Cert.ReferenceIdeal.τ Cert.ReferenceIdeal.sig) : Spec.Cv.Idx → EReal) = A12 m c := e12
  have l13 : (launchContents m' c (Cert.ReferenceIdeal.main_arg13 : DevRef Cert.ReferenceIdeal.τ Cert.ReferenceIdeal.sig) : Spec.Cv.Idx → EReal) = A13 m c := e13
  -- the two message arrays and the two projected feature arrays agree
  have hmsg : (after Cert.ReferenceIdeal.Run.ops (launchContents m' c) (Cert.ReferenceIdeal.main_v71 : DevRef Cert.ReferenceIdeal.τ Cert.ReferenceIdeal.sig) : Spec.EC.Idx → EReal)
      = msgK m ρ c := by
    funext i
    obtain ⟨e, j, rfl⟩ : ∃ (e : Fin 600000) (j : Fin 128), i = ValueIdx.ix2 e j := ⟨i 0, i 1, ValueIdx.eq_ix2 i⟩
    refine (Cert.ReferenceIdeal.ReadEdges.ref_msg_raw_at (launchContents m' c) (fun i => by rw [l1]; exact hr i) e j).trans ?_
    refine (Cert.Whole.narrow_route (launchContents m' c (Cert.ReferenceIdeal.main_arg0 : DevRef Cert.ReferenceIdeal.τ Cert.ReferenceIdeal.sig)) (launchContents m' c (Cert.ReferenceIdeal.main_arg1 : DevRef Cert.ReferenceIdeal.τ Cert.ReferenceIdeal.sig)) (launchContents m' c (Cert.ReferenceIdeal.main_arg3 : DevRef Cert.ReferenceIdeal.τ Cert.ReferenceIdeal.sig)) (launchContents m' c (Cert.ReferenceIdeal.main_arg4 : DevRef Cert.ReferenceIdeal.τ Cert.ReferenceIdeal.sig)) (launchContents m' c (Cert.ReferenceIdeal.main_arg5 : DevRef Cert.ReferenceIdeal.τ Cert.ReferenceIdeal.sig)) (launchContents m' c (Cert.ReferenceIdeal.main_arg6 : DevRef Cert.ReferenceIdeal.τ Cert.ReferenceIdeal.sig)) (launchContents m' c (Cert.ReferenceIdeal.main_arg7 : DevRef Cert.ReferenceIdeal.τ Cert.ReferenceIdeal.sig)) (launchContents m' c (Cert.ReferenceIdeal.main_arg8 : DevRef Cert.ReferenceIdeal.τ Cert.ReferenceIdeal.sig)) (launchContents m' c (Cert.ReferenceIdeal.main_arg9 : DevRef Cert.ReferenceIdeal.τ Cert.ReferenceIdeal.sig)) (launchContents m' c (Cert.ReferenceIdeal.main_arg10 : DevRef Cert.ReferenceIdeal.τ Cert.ReferenceIdeal.sig)) (launchContents m' c (Cert.ReferenceIdeal.main_arg11 : DevRef Cert.ReferenceIdeal.τ Cert.ReferenceIdeal.sig))
      (after Cert.ReferenceIdeal.Run.ops (launchContents m' c) (Cert.ReferenceIdeal.main_v8 : DevRef Cert.ReferenceIdeal.τ Cert.ReferenceIdeal.sig) : Spec.NC.Idx → EReal) (after Cert.ReferenceIdeal.Run.ops (launchContents m' c) (Cert.ReferenceIdeal.main_v15 : DevRef Cert.ReferenceIdeal.τ Cert.ReferenceIdeal.sig) : Spec.NC.Idx → EReal) (after Cert.ReferenceIdeal.Run.ops (launchContents m' c) (Cert.ReferenceIdeal.main_v17 : DevRef Cert.ReferenceIdeal.τ Cert.ReferenceIdeal.sig) : Spec.NC.Idx → EReal)
      (after Cert.ReferenceIdeal.Run.ops (launchContents m' c) (Cert.ReferenceIdeal.main_v19 : DevRef Cert.ReferenceIdeal.τ Cert.ReferenceIdeal.sig) : Spec.NC.Idx → EReal) (after Cert.ReferenceIdeal.Run.ops (launchContents m' c) (Cert.ReferenceIdeal.main_v21 : DevRef Cert.ReferenceIdeal.τ Cert.ReferenceIdeal.sig) : Spec.NC.Idx → EReal) (after Cert.ReferenceIdeal.Run.ops (launchContents m' c) (Cert.ReferenceIdeal.main_v13 : DevRef Cert.ReferenceIdeal.τ Cert.ReferenceIdeal.sig) : Cert.Whole.E1.Idx → EReal)
      (after Cert.ReferenceIdeal.Run.ops (launchContents m' c) (Cert.ReferenceIdeal.main_v23 : DevRef Cert.ReferenceIdeal.τ Cert.ReferenceIdeal.sig) : Spec.EC.Idx → EReal) (after Cert.ReferenceIdeal.Run.ops (launchContents m' c) (Cert.ReferenceIdeal.main_v25 : DevRef Cert.ReferenceIdeal.τ Cert.ReferenceIdeal.sig) : Spec.EC.Idx → EReal)
      (fun n j => Cert.ReferenceIdeal.ReadNodes.ref_out_at (launchContents m' c) n j)
      (fun n j => Cert.ReferenceIdeal.ReadNodes.ref_pif_at (launchContents m' c) n j)
      (fun n j => Cert.ReferenceIdeal.ReadNodes.ref_pjf_at (launchContents m' c) n j)
      (fun n j => Cert.ReferenceIdeal.ReadNodes.ref_pis_at (launchContents m' c) n j)
      (fun n j => Cert.ReferenceIdeal.ReadNodes.ref_pjs_at (launchContents m' c) n j)
      (fun e => Cert.ReferenceIdeal.ReadScalar.ref_edge_at (launchContents m' c) e)
      (fun e j => Cert.ReferenceIdeal.ReadScalar.ref_ef_at (launchContents m' c) e j)
      (fun e j => Cert.ReferenceIdeal.ReadScalar.ref_es_at (launchContents m' c) e j) e j).trans ?_
    rw [l0, l1, l3, l4, l5, l6, l7, l8, l9, l10, l11]
    exact (Cert.KernelIdeal.Msg.msg_at m ρ c hr e j).symm
  have hout : ∀ (n : Fin 50000) (j : Fin 128),
      (after Cert.ReferenceIdeal.Run.ops (launchContents m' c) (Cert.ReferenceIdeal.main_v8 : DevRef Cert.ReferenceIdeal.τ Cert.ReferenceIdeal.sig) : Spec.NC.Idx → EReal) (ValueIdx.ix2 n j)
        = outK m ρ c (ValueIdx.ix2 n j) := by
    intro n j
    rw [Cert.ReferenceIdeal.ReadNodes.ref_out_at (launchContents m' c) n j, l0, l4, l5]
    exact (Cert.KernelIdeal.Msg.out_at m ρ c n j).symm
  -- hence the summed messages agree, and with them the column means and variances
  have hagg : (after Cert.ReferenceIdeal.Run.ops (launchContents m' c) (Cert.ReferenceIdeal.main_v74 : DevRef Cert.ReferenceIdeal.τ Cert.ReferenceIdeal.sig) : Spec.NC.Idx → EReal)
      = (Cert.KernelIdeal.Gen.V7 m ρ c (Pipeline.arrRef Cert.KernelIdeal.spec2 0) : Spec.NC.Idx → EReal) := by
    rw [Cert.Tail.ref_aggr, Cert.Tail.kernel_aggr m ρ c, hmsg, l1]
  have hmean : (after Cert.ReferenceIdeal.Run.ops (launchContents m' c) (Cert.ReferenceIdeal.main_v77 : DevRef Cert.ReferenceIdeal.τ Cert.ReferenceIdeal.sig) : Spec.Cv.Idx → EReal)
      = (Cert.KernelIdeal.Gen.V7 m ρ c (Pipeline.arrRef Cert.KernelIdeal.spec2 2) : Spec.Cv.Idx → EReal) := by
    rw [Cert.Tail.ref_mean, Cert.Tail.kernel_mean m ρ c, hagg]
  have hvar : (after Cert.ReferenceIdeal.Run.ops (launchContents m' c) (Cert.ReferenceIdeal.main_v78 : DevRef Cert.ReferenceIdeal.τ Cert.ReferenceIdeal.sig) : Spec.Cv.Idx → EReal)
      = (Cert.KernelIdeal.Gen.V7 m ρ c (Pipeline.arrRef Cert.KernelIdeal.spec2 3) : Spec.Cv.Idx → EReal) := by
    rw [Cert.Tail.ref_var, Cert.Tail.kernel_var m ρ c, hagg]
  -- entry by entry, both results are the normalisation of those with the two residual additions
  funext i
  obtain ⟨n, j, rfl⟩ : ∃ (n : Fin 50000) (j : Fin 128), i = ValueIdx.ix2 n j := ⟨i 0, i 1, ValueIdx.eq_ix2 i⟩
  refine (Cert.ReferenceIdeal.ReadFinal.ref_res_at (launchContents m' c) n j).trans ?_
  refine Eq.trans ?_ (Cert.KernelIdeal.Reg2.res_at (Cert.KernelIdeal.Gen.V7 m ρ) c n j).symm
  refine bnG_congr (congrFun hagg _) ?_ (congrFun hmean _) (congrFun hvar _) ?_ ?_
  · rw [hout n j]
    exact (congrFun (Cert.Tail.kernel_out m ρ c) _).symm
  · rw [l12]
    exact (congrFun (Cert.Tail.kernel_gamma m ρ c) _).symm
  · rw [l13]
    exact (congrFun (Cert.Tail.kernel_beta m ρ c) _).symm

theorem algebraic : Cert.algebraic_KernelIdeal_ReferenceIdeal := by
  intro m ρ m' ρ' hpre hagree
  refine ⟨fun c => (Cert.KernelIdeal.Gen.dat2 (F := Ideal) (Cert.KernelIdeal.Gen.V7 m ρ) c).arrAt 6 Cert.KernelIdeal.cfg2.N,
    Cert.KernelIdeal.Run.run_result (F := Ideal) m ρ, ?_⟩
  refine (θ_run Cert.ReferenceIdeal.defs _ _).mono (fun r h c => ?_) (Cert.ReferenceIdeal.Run.run_main (F := Ideal) m' ρ')
  refine ⟨(h c Cert.ReferenceIdeal.main_v95).trans (result_eq m ρ m' hpre hagree c),
    (h c Cert.ReferenceIdeal.main_arg0).trans (Cert.ReferenceIdeal.Run.arg0_eq _),
    (h c Cert.ReferenceIdeal.main_arg1).trans (Cert.ReferenceIdeal.Run.arg1_eq _),
    (h c Cert.ReferenceIdeal.main_arg2).trans (Cert.ReferenceIdeal.Run.arg2_eq _),
    (h c Cert.ReferenceIdeal.main_arg3).trans (Cert.ReferenceIdeal.Run.arg3_eq _),
    (h c Cert.ReferenceIdeal.main_arg4).trans (Cert.ReferenceIdeal.Run.arg4_eq _),
    (h c Cert.ReferenceIdeal.main_arg5).trans (Cert.ReferenceIdeal.Run.arg5_eq _),
    (h c Cert.ReferenceIdeal.main_arg6).trans (Cert.ReferenceIdeal.Run.arg6_eq _),
    (h c Cert.ReferenceIdeal.main_arg7).trans (Cert.ReferenceIdeal.Run.arg7_eq _),
    (h c Cert.ReferenceIdeal.main_arg8).trans (Cert.ReferenceIdeal.Run.arg8_eq _),
    (h c Cert.ReferenceIdeal.main_arg9).trans (Cert.ReferenceIdeal.Run.arg9_eq _),
    (h c Cert.ReferenceIdeal.main_arg10).trans (Cert.ReferenceIdeal.Run.arg10_eq _),
    (h c Cert.ReferenceIdeal.main_arg11).trans (Cert.ReferenceIdeal.Run.arg11_eq _),
    (h c Cert.ReferenceIdeal.main_arg12).trans (Cert.ReferenceIdeal.Run.arg12_eq _),
    (h c Cert.ReferenceIdeal.main_arg13).trans (Cert.ReferenceIdeal.Run.arg13_eq _)⟩

end Cert.Final

end
-- ==== Proof.lean ====
/-
  A graph-network layer computed two ways is one function of its inputs, over the extended reals.

  Node features are projected (a matrix product and a bias through softplus); the projection is multiplied by four
  128×128 blocks of two weight tables; every edge takes the rows of its target and source nodes, adds its own scalar
  feature times the tables' last rows and the biases, and forms the message sigmoid(·) · softplus(·); messages are
  summed per target node; the sums are normalised by their column means and variances, scaled and shifted, and the
  projection is added twice.

  One program does the products with two side-by-side joined tables in a blocked kernel, gathers the joined rows,
  forms the messages in a second blocked kernel and the normalisation in a third; the other does every stage as one
  whole-array operation. Block by block and column by column the stages are the same sums and the same pointwise
  functions (no law beyond reindexing a finite sum is used), under the precondition that the edge indices are node
  numbers: there the two programs' row gathers read the same rows.

  The three frames: the two kernel programs' are the launch over their regions; the reference's is its run as a
  straight line of host operations. The idealization changes nothing in the kernel program, so `preserves` is trivial.
-/
import proofs.«413223_j3856880632376_1_alg».proof.Defs
import proofs.«413223_j3856880632376_1_alg».proof.Proof.Gen.Kernel
import proofs.«413223_j3856880632376_1_alg».proof.Proof.Gen.Kernel.Skeleton
import proofs.«413223_j3856880632376_1_alg».proof.Proof.Gen.Kernel.Launch
import proofs.«413223_j3856880632376_1_alg».proof.Proof.Gen.Kernel.Points
import proofs.«413223_j3856880632376_1_alg».proof.Proof.Gen.Kernel.Frame
import proofs.«413223_j3856880632376_1_alg».proof.Proof.Gen.KernelIdeal
import proofs.«413223_j3856880632376_1_alg».proof.Proof.Gen.KernelIdeal.Skeleton
import proofs.«413223_j3856880632376_1_alg».proof.Proof.Gen.KernelIdeal.Launch
import proofs.«413223_j3856880632376_1_alg».proof.Proof.Gen.KernelIdeal.Points
import proofs.«413223_j3856880632376_1_alg».proof.Proof.Gen.KernelIdeal.Frame
import proofs.«413223_j3856880632376_1_alg».proof.Proof.Gen.ReferenceIdeal
import proofs.«413223_j3856880632376_1_alg».proof.Proof.Gen.Pre_finite_inputs
import proofs.«413223_j3856880632376_1_alg».proof.Proof.RefArgs
import proofs.«413223_j3856880632376_1_alg».proof.Proof.Final
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Run.frame_ref (F := Ideal) m ρ,
    trivial,
    Cert.Final.algebraic⟩

end Cert.Proof

end
